-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S800000 : Shape := ⟨1, ![800000]⟩
abbrev S50000 : Shape := ⟨1, ![50000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x32 .f32) (main_arg1 : IVec S2x800000 32) (main_arg2 : FVec F S800000 .f32) (main_arg3 : IVec S50000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  main_v8
-- ==== Kernel.lean ====
abbrev S50000x32 : Shape := ⟨2, ![50000, 32]⟩
abbrev S2x800000 : Shape := ⟨2, ![2, 800000]⟩
abbrev S800000 : Shape := ⟨1, ![800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S50000x320 : Shape := ⟨2, ![50000, 320]⟩
abbrev S51200x320 : Shape := ⟨2, ![51200, 320]⟩
abbrev S51200 : Shape := ⟨1, ![51200]⟩
abbrev S1x51200 : Shape := ⟨2, ![1, 51200]⟩
abbrev S2x64x321 : Shape := ⟨3, ![2, 64, 321]⟩
abbrev S1280x320 : Shape := ⟨2, ![1280, 320]⟩
abbrev S1x1280 : Shape := ⟨2, ![1, 1280]⟩
abbrev S1x64x321 : Shape := ⟨3, ![1, 64, 321]⟩
abbrev S64x321 : Shape := ⟨2, ![64, 321]⟩
abbrev S1280x32 : Shape := ⟨2, ![1280, 32]⟩
abbrev S1280x96 : Shape := ⟨2, ![1280, 96]⟩
abbrev S1280x192 : Shape := ⟨2, ![1280, 192]⟩
abbrev S1280x1 : Shape := ⟨2, ![1280, 1]⟩
abbrev S1280x321 : Shape := ⟨2, ![1280, 321]⟩
abbrev S64x1280 : Shape := ⟨2, ![64, 1280]⟩
abbrev S64x320 : Shape := ⟨2, ![64, 320]⟩
abbrev S64x1 : Shape := ⟨2, ![64, 1]⟩

abbrev nBuf : Space → Nat
  | .hbm => 218
  | .vmem => 7
  | .smem => 0
  | _ => 0

abbrev hbmTy0_0 (i : Nat) : BufTy := match i % 128 with
  | 0 => ⟨S50000x32, .f32⟩
  | 1 => ⟨S2x800000, .i32⟩
  | 2 => ⟨S800000, .f32⟩
  | 3 => ⟨S50000, .i32⟩
  | 4 => ⟨S1x800000, .i32⟩
  | 5 => ⟨S800000, .i32⟩
  | 6 => ⟨S1x800000, .i32⟩
  | 7 => ⟨S800000, .i32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x32, .f32⟩
  | 17 => ⟨S800000x1, .f32⟩
  | 18 => ⟨S800000x32, .f32⟩
  | 19 => ⟨S800000x32, .f32⟩
  | 20 => ⟨S_, .f32⟩
  | 21 => ⟨S50000x32, .f32⟩
  | 22 => ⟨S800000x1, .i32⟩
  | 23 => ⟨S50000x32, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x32, .f32⟩
  | 33 => ⟨S800000x1, .f32⟩
  | 34 => ⟨S800000x32, .f32⟩
  | 35 => ⟨S800000x32, .f32⟩
  | 36 => ⟨S_, .f32⟩
  | 37 => ⟨S50000x32, .f32⟩
  | 38 => ⟨S800000x1, .i32⟩
  | 39 => ⟨S50000x32, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x32, .f32⟩
  | 49 => ⟨S800000x1, .f32⟩
  | 50 => ⟨S800000x32, .f32⟩
  | 51 => ⟨S800000x32, .f32⟩
  | 52 => ⟨S_, .f32⟩
  | 53 => ⟨S50000x32, .f32⟩
  | 54 => ⟨S800000x1, .i32⟩
  | 55 => ⟨S50000x32, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x32, .f32⟩
  | 65 => ⟨S800000x1, .f32⟩
  | 66 => ⟨S800000x32, .f32⟩
  | 67 => ⟨S800000x32, .f32⟩
  | 68 => ⟨S_, .f32⟩
  | 69 => ⟨S50000x32, .f32⟩
  | 70 => ⟨S800000x1, .i32⟩
  | 71 => ⟨S50000x32, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x32, .f32⟩
  | 81 => ⟨S800000x1, .f32⟩
  | 82 => ⟨S800000x32, .f32⟩
  | 83 => ⟨S800000x32, .f32⟩
  | 84 => ⟨S_, .f32⟩
  | 85 => ⟨S50000x32, .f32⟩
  | 86 => ⟨S800000x1, .i32⟩
  | 87 => ⟨S50000x32, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x32, .f32⟩
  | 97 => ⟨S800000x1, .f32⟩
  | 98 => ⟨S800000x32, .f32⟩
  | 99 => ⟨S800000x32, .f32⟩
  | 100 => ⟨S_, .f32⟩
  | 101 => ⟨S50000x32, .f32⟩
  | 102 => ⟨S800000x1, .i32⟩
  | 103 => ⟨S50000x32, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x32, .f32⟩
  | 113 => ⟨S800000x1, .f32⟩
  | 114 => ⟨S800000x32, .f32⟩
  | 115 => ⟨S800000x32, .f32⟩
  | 116 => ⟨S_, .f32⟩
  | 117 => ⟨S50000x32, .f32⟩
  | 118 => ⟨S800000x1, .i32⟩
  | 119 => ⟨S50000x32, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x32, .f32⟩

abbrev hbmTy0_1 (i : Nat) : BufTy := match i % 128 with
  | 0 => ⟨S800000x32, .f32⟩
  | 1 => ⟨S800000x1, .f32⟩
  | 2 => ⟨S800000x32, .f32⟩
  | 3 => ⟨S800000x32, .f32⟩
  | 4 => ⟨S_, .f32⟩
  | 5 => ⟨S50000x32, .f32⟩
  | 6 => ⟨S800000x1, .i32⟩
  | 7 => ⟨S50000x32, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x32, .f32⟩
  | 17 => ⟨S800000x1, .f32⟩
  | 18 => ⟨S800000x32, .f32⟩
  | 19 => ⟨S800000x32, .f32⟩
  | 20 => ⟨S_, .f32⟩
  | 21 => ⟨S50000x32, .f32⟩
  | 22 => ⟨S800000x1, .i32⟩
  | 23 => ⟨S50000x32, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x32, .f32⟩
  | 33 => ⟨S800000x1, .f32⟩
  | 34 => ⟨S800000x32, .f32⟩
  | 35 => ⟨S800000x32, .f32⟩
  | 36 => ⟨S_, .f32⟩
  | 37 => ⟨S50000x32, .f32⟩
  | 38 => ⟨S800000x1, .i32⟩
  | 39 => ⟨S50000x32, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x32, .f32⟩
  | 49 => ⟨S800000x1, .f32⟩
  | 50 => ⟨S800000x32, .f32⟩
  | 51 => ⟨S800000x32, .f32⟩
  | 52 => ⟨S_, .f32⟩
  | 53 => ⟨S50000x32, .f32⟩
  | 54 => ⟨S800000x1, .i32⟩
  | 55 => ⟨S50000x32, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x32, .f32⟩
  | 65 => ⟨S800000x1, .f32⟩
  | 66 => ⟨S800000x32, .f32⟩
  | 67 => ⟨S800000x32, .f32⟩
  | 68 => ⟨S_, .f32⟩
  | 69 => ⟨S50000x32, .f32⟩
  | 70 => ⟨S800000x1, .i32⟩
  | 71 => ⟨S50000x32, .f32⟩
  | 72 => ⟨S50000x320, .f32⟩
  | 73 => ⟨S_, .i32⟩
  | 74 => ⟨S_, .f32⟩
  | 75 => ⟨S51200x320, .f32⟩
  | 76 => ⟨S_, .i32⟩
  | 77 => ⟨S_, .i32⟩
  | 78 => ⟨S51200, .i32⟩
  | 79 => ⟨S1x51200, .i32⟩
  | 80 => ⟨S2x64x321, .f32⟩
  | 81 => ⟨S_, .f32⟩
  | 82 => ⟨S64x321, .f32⟩
  | 83 => ⟨S64x320, .f32⟩
  | 84 => ⟨S64x1, .f32⟩
  | 85 => ⟨S_, .f32⟩
  | 86 => ⟨S64x1, .f32⟩
  | 87 => ⟨S64x1, .f32⟩
  | 88 => ⟨S64x320, .f32⟩
  | 89 => ⟨S64x320, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S1280x320, .f32⟩
  | .local _ .vmem, ⟨1, _⟩ => ⟨S1280x320, .f32⟩
  | .local _ .vmem, ⟨2, _⟩ => ⟨S1x1280, .i32⟩
  | .local _ .vmem, ⟨3, _⟩ => ⟨S1x1280, .i32⟩
  | .local _ .vmem, ⟨4, _⟩ => ⟨S1x64x321, .f32⟩
  | .local _ .vmem, ⟨5, _⟩ => ⟨S1x64x321, .f32⟩
  | .local _ .vmem, ⟨6, _⟩ => ⟨S64x321, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_13 : Ref sig .tc := ⟨.hbm, 88, rfl⟩
abbrev main_v69 : Ref sig .tc := ⟨.hbm, 89, rfl⟩
abbrev main_v70 : Ref sig .tc := ⟨.hbm, 90, rfl⟩
abbrev main_c_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_16 : Ref sig .tc := ⟨.hbm, 104, rfl⟩
abbrev main_v82 : Ref sig .tc := ⟨.hbm, 105, rfl⟩
abbrev main_v83 : Ref sig .tc := ⟨.hbm, 106, rfl⟩
abbrev main_c_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_18 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_19 : Ref sig .tc := ⟨.hbm, 120, rfl⟩
abbrev main_v95 : Ref sig .tc := ⟨.hbm, 121, rfl⟩
abbrev main_v96 : Ref sig .tc := ⟨.hbm, 122, rfl⟩
abbrev main_c_20 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_21 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_c_22 : Ref sig .tc := ⟨.hbm, 136, rfl⟩
abbrev main_v108 : Ref sig .tc := ⟨.hbm, 137, rfl⟩
abbrev main_v109 : Ref sig .tc := ⟨.hbm, 138, rfl⟩
abbrev main_c_23 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_24 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_c_25 : Ref sig .tc := ⟨.hbm, 152, rfl⟩
abbrev main_v121 : Ref sig .tc := ⟨.hbm, 153, rfl⟩
abbrev main_v122 : Ref sig .tc := ⟨.hbm, 154, rfl⟩
abbrev main_c_26 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_27 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_28 : Ref sig .tc := ⟨.hbm, 168, rfl⟩
abbrev main_v134 : Ref sig .tc := ⟨.hbm, 169, rfl⟩
abbrev main_v135 : Ref sig .tc := ⟨.hbm, 170, rfl⟩
abbrev main_c_29 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_30 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_c_31 : Ref sig .tc := ⟨.hbm, 184, rfl⟩
abbrev main_v147 : Ref sig .tc := ⟨.hbm, 185, rfl⟩
abbrev main_v148 : Ref sig .tc := ⟨.hbm, 186, rfl⟩
abbrev main_c_32 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_33 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_c_34 : Ref sig .tc := ⟨.hbm, 201, rfl⟩
abbrev main_call0_v0 : Ref sig .tc := ⟨.hbm, 202, rfl⟩
abbrev main_v161 : Ref sig .tc := ⟨.hbm, 203, rfl⟩
abbrev main_c_35 : Ref sig .tc := ⟨.hbm, 204, rfl⟩
abbrev main_call1_v0 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_36 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_37 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v54 : BitVec 1 := Scalar.cmpi .eq arg1 c19_i32
  let v55 : BitVec 32 := Scalar.extui v54
  let c0_i32_9 : BitVec 32 := 0#32
  let v56 : BitVec 1 := Scalar.cmpi .ne v55 c0_i32_9
  v56

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1280x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x321 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  concatenates_S50000x32_S50000x32_S50000x32_S50000x32_S50000x32_S50000x32_S50000x32_S50000x32_S50000x32_S50000x32_S50000x320_d1 : Shape.Concatenates [S50000x32, S50000x32, S50000x32, S50000x32, S50000x32, S50000x32, S50000x32, S50000x32, S50000x32, S50000x32] S50000x320 1
  pads_S50000x320_S51200x320_012000_000 : S50000x320.Pads (![0, 0] : Fin 2 → Nat) ![1200, 0] ![0, 0] S51200x320
  h_S_ : 0 < S_.numel
  pads_S50000_S51200_012000 : S50000.Pads (![0] : Fin 1 → Nat) ![1200] ![0] S51200
  shapeCasts_S51200_S1x51200 : S51200.ShapeCasts S1x51200
  inb_S64x321_S64x321_0_0 : ∀ a, (![0, 0] : Fin 2 → Nat) a + S64x321.size a ≤ S64x321.size a
  h_S64x321 : 0 < S64x321.numel
  shapeCasts_S64x321_S64x321 : S64x321.ShapeCasts S64x321
  inb_S1280x320_S1280x320_0_0 : ∀ a, (![0, 0] : Fin 2 → Nat) a + S1280x320.size a ≤ S1280x320.size a
  h_S1280x320 : 0 < S1280x320.numel
  shapeCasts_S1280x320_S1280x320 : S1280x320.ShapeCasts S1280x320
  slices_S1280x320_o0_0_S1280x32 : S1280x320.Slices ![0, 0] S1280x32
  slices_S1280x320_o0_32_S1280x32 : S1280x320.Slices ![0, 32] S1280x32
  slices_S1280x320_o0_64_S1280x32 : S1280x320.Slices ![0, 64] S1280x32
  slices_S1280x320_o0_96_S1280x32 : S1280x320.Slices ![0, 96] S1280x32
  slices_S1280x320_o0_128_S1280x32 : S1280x320.Slices ![0, 128] S1280x32
  slices_S1280x320_o0_160_S1280x32 : S1280x320.Slices ![0, 160] S1280x32
  slices_S1280x320_o0_192_S1280x32 : S1280x320.Slices ![0, 192] S1280x32
  slices_S1280x320_o0_224_S1280x32 : S1280x320.Slices ![0, 224] S1280x32
  slices_S1280x320_o0_256_S1280x32 : S1280x320.Slices ![0, 256] S1280x32
  slices_S1280x320_o0_288_S1280x32 : S1280x320.Slices ![0, 288] S1280x32
  concatenates_S1280x32_S1280x32_S1280x32_S1280x96_d1 : Shape.Concatenates [S1280x32, S1280x32, S1280x32] S1280x96 1
  concatenates_S1280x32_S1280x32_S1280x32_S1280x32_S1280x32_S1280x32_S1280x192_d1 : Shape.Concatenates [S1280x32, S1280x32, S1280x32, S1280x32, S1280x32, S1280x32] S1280x192 1
  concatenates_S1280x32_S1280x96_S1280x192_S1280x320_d1 : Shape.Concatenates [S1280x32, S1280x96, S1280x192] S1280x320 1
  concatenates_S1280x320_S1280x1_S1280x321_d1 : Shape.Concatenates [S1280x320, S1280x1] S1280x321 1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  iota_S64x1280_d0_w32 : S64x1280.Iotas .tc 32 [0]
  broadcasts_S1x1280_S64x1280 : S1x1280.Broadcasts S64x1280
  natLt_1_32 : 1 < 32
  bitsLt_bf16_f32 : FTy.bits .bf16 < FTy.bits .f32
  inb_S1x64x321_S1x64x321_0_0_0 : ∀ a, (![0, 0, 0] : Fin 3 → Nat) a + S1x64x321.size a ≤ S1x64x321.size a
  h_S1x64x321 : 0 < S1x64x321.numel
  shapeCasts_S1x64x321_S64x321 : S1x64x321.ShapeCasts S64x321
  shapeCasts_S64x321_S1x64x321 : S64x321.ShapeCasts S1x64x321
  reducesTo_S2x64x321_S64x321_d0 : S2x64x321.ReducesTo [0] S64x321
  slices_S64x321_S64x320_0_0 : S64x321.Slices ![0, 0] S64x320
  slices_S64x321_S64x1_0_320 : S64x321.Slices ![0, 320] S64x1
  bcast_S_S64x1 : S_.BroadcastsInDim S64x1 (![] : Fin 0 → Fin S64x1.rank)
  bcast_S64x1_S64x320_0_1 : S64x1.BroadcastsInDim S64x320 (![0, 1] : Fin 2 → Fin S64x320.rank)
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S64x1280_S1280x321_S64x321_1_0_0_1_n_n_wf : DotDims.WF S64x1280 S1280x321 S64x321 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x320.size a ≤ S51200x320.size a
  hwx0_0 : ∀ i : grid0.Coords, EltTy.bits .f32 = 32 ∨ (Rect.block (s := S51200x320) S1280x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x51200.size a
  hwx0_1 : ∀ i : grid0.Coords, EltTy.bits .i32 = 32 ∨ (Rect.block (s := S1x51200) S1x1280.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x321.size a ≤ S2x64x321.size a
  hwx0_2 : ∀ i : grid0.Coords, EltTy.bits .f32 = 32 ∨ (Rect.block (s := S2x64x321) S1x64x321.size (cc0_transform_2 i) (hinb0_2 i)).WholeWords (EltTy.packing .f32)

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S64x1280_S1280x321_S64x321_1_0_0_1_n_n : DotDims S64x1280 S1280x321 S64x321 where
  lhsContracting := [1]
  rhsContracting := [0]
  lhsNonContracting := [0]
  rhsNonContracting := [1]
  lhsBatch := []
  rhsBatch := []
  wf := dot_S64x1280_S1280x321_S64x321_1_0_0_1_n_n_wf

abbrev win0_0 : Pipeline.Window sig grid0 :=
  Pipeline.Window.ofSpec (Memref.whole main_v161) S1280x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v163) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v164) S1x64x321.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S50000x32 : Shape := ⟨2, ![50000, 32]⟩
abbrev S2x800000 : Shape := ⟨2, ![2, 800000]⟩
abbrev S800000 : Shape := ⟨1, ![800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S50000x96 : Shape := ⟨2, ![50000, 96]⟩
abbrev S50000x128 : Shape := ⟨2, ![50000, 128]⟩
abbrev S800000x128 : Shape := ⟨2, ![800000, 128]⟩
abbrev S50000x192 : Shape := ⟨2, ![50000, 192]⟩
abbrev S50000x320 : Shape := ⟨2, ![50000, 320]⟩
abbrev S64x320 : Shape := ⟨2, ![64, 320]⟩
abbrev S50000x1 : Shape := ⟨2, ![50000, 1]⟩
abbrev S64 : Shape := ⟨1, ![64]⟩
abbrev S64x1 : Shape := ⟨2, ![64, 1]⟩

abbrev nBuf : Space → Nat
  | .hbm => 314
  | .vmem => 0
  | .smem => 0
  | _ => 0

abbrev hbmTy0_0 (i : Nat) : BufTy := match i % 128 with
  | 0 => ⟨S50000x32, .f32⟩
  | 1 => ⟨S2x800000, .i32⟩
  | 2 => ⟨S800000, .f32⟩
  | 3 => ⟨S50000, .i32⟩
  | 4 => ⟨S1x800000, .i32⟩
  | 5 => ⟨S800000, .i32⟩
  | 6 => ⟨S1x800000, .i32⟩
  | 7 => ⟨S800000, .i32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x32, .f32⟩
  | 17 => ⟨S800000x1, .f32⟩
  | 18 => ⟨S800000x32, .f32⟩
  | 19 => ⟨S800000x32, .f32⟩
  | 20 => ⟨S_, .f32⟩
  | 21 => ⟨S50000x32, .f32⟩
  | 22 => ⟨S800000x1, .i32⟩
  | 23 => ⟨S50000x32, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x32, .f32⟩
  | 33 => ⟨S800000x1, .f32⟩
  | 34 => ⟨S800000x32, .f32⟩
  | 35 => ⟨S800000x32, .f32⟩
  | 36 => ⟨S_, .f32⟩
  | 37 => ⟨S50000x32, .f32⟩
  | 38 => ⟨S800000x1, .i32⟩
  | 39 => ⟨S50000x32, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x32, .f32⟩
  | 49 => ⟨S800000x1, .f32⟩
  | 50 => ⟨S800000x32, .f32⟩
  | 51 => ⟨S800000x32, .f32⟩
  | 52 => ⟨S_, .f32⟩
  | 53 => ⟨S50000x32, .f32⟩
  | 54 => ⟨S800000x1, .i32⟩
  | 55 => ⟨S50000x32, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x32, .f32⟩
  | 65 => ⟨S800000x1, .f32⟩
  | 66 => ⟨S800000x32, .f32⟩
  | 67 => ⟨S800000x32, .f32⟩
  | 68 => ⟨S_, .f32⟩
  | 69 => ⟨S50000x32, .f32⟩
  | 70 => ⟨S800000x1, .i32⟩
  | 71 => ⟨S50000x32, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x32, .f32⟩
  | 81 => ⟨S800000x1, .f32⟩
  | 82 => ⟨S800000x32, .f32⟩
  | 83 => ⟨S800000x32, .f32⟩
  | 84 => ⟨S_, .f32⟩
  | 85 => ⟨S50000x32, .f32⟩
  | 86 => ⟨S800000x1, .i32⟩
  | 87 => ⟨S50000x32, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x32, .f32⟩
  | 97 => ⟨S800000x1, .f32⟩
  | 98 => ⟨S800000x32, .f32⟩
  | 99 => ⟨S800000x32, .f32⟩
  | 100 => ⟨S_, .f32⟩
  | 101 => ⟨S50000x32, .f32⟩
  | 102 => ⟨S800000x1, .i32⟩
  | 103 => ⟨S50000x32, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x32, .f32⟩
  | 113 => ⟨S800000x1, .f32⟩
  | 114 => ⟨S800000x32, .f32⟩
  | 115 => ⟨S800000x32, .f32⟩
  | 116 => ⟨S_, .f32⟩
  | 117 => ⟨S50000x32, .f32⟩
  | 118 => ⟨S800000x1, .i32⟩
  | 119 => ⟨S50000x32, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x32, .f32⟩

abbrev hbmTy0_1 (i : Nat) : BufTy := match i % 128 with
  | 0 => ⟨S800000x32, .f32⟩
  | 1 => ⟨S800000x1, .f32⟩
  | 2 => ⟨S800000x32, .f32⟩
  | 3 => ⟨S800000x32, .f32⟩
  | 4 => ⟨S_, .f32⟩
  | 5 => ⟨S50000x32, .f32⟩
  | 6 => ⟨S800000x1, .i32⟩
  | 7 => ⟨S50000x32, .f32⟩
  | 8 => ⟨S50000x32, .f32⟩
  | 9 => ⟨S50000x32, .f32⟩
  | 10 => ⟨S50000x32, .f32⟩
  | 11 => ⟨S50000x32, .f32⟩
  | 12 => ⟨S50000x32, .f32⟩
  | 13 => ⟨S50000x32, .f32⟩
  | 14 => ⟨S50000x96, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x1, .f32⟩
  | 26 => ⟨S800000x128, .f32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x1, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x1, .f32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x1, .f32⟩
  | 90 => ⟨S800000x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x1, .f32⟩
  | 106 => ⟨S800000x128, .f32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x1, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x32, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x1, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x32, .f32⟩
  | 17 => ⟨S50000x32, .f32⟩
  | 18 => ⟨S50000x32, .f32⟩
  | 19 => ⟨S50000x32, .f32⟩
  | 20 => ⟨S50000x32, .f32⟩
  | 21 => ⟨S50000x32, .f32⟩
  | 22 => ⟨S50000x32, .f32⟩
  | 23 => ⟨S50000x32, .f32⟩
  | 24 => ⟨S50000x32, .f32⟩
  | 25 => ⟨S50000x32, .f32⟩
  | 26 => ⟨S50000x32, .f32⟩
  | 27 => ⟨S50000x32, .f32⟩
  | 28 => ⟨S50000x32, .f32⟩
  | 29 => ⟨S50000x32, .f32⟩
  | 30 => ⟨S50000x32, .f32⟩
  | 31 => ⟨S50000x32, .f32⟩
  | 32 => ⟨S50000x32, .f32⟩
  | 33 => ⟨S50000x32, .f32⟩
  | 34 => ⟨S50000x32, .f32⟩
  | 35 => ⟨S50000x32, .f32⟩
  | 36 => ⟨S50000x32, .f32⟩
  | 37 => ⟨S50000x32, .f32⟩
  | 38 => ⟨S50000x32, .f32⟩
  | 39 => ⟨S50000x32, .f32⟩
  | 40 => ⟨S50000x192, .f32⟩
  | 41 => ⟨S50000x320, .f32⟩
  | 42 => ⟨S_, .f32⟩
  | 43 => ⟨S64x320, .f32⟩
  | 44 => ⟨S50000x1, .i32⟩
  | 45 => ⟨S64x320, .f32⟩
  | 46 => ⟨S_, .f32⟩
  | 47 => ⟨S50000, .f32⟩
  | 48 => ⟨S_, .f32⟩
  | 49 => ⟨S64, .f32⟩
  | 50 => ⟨S50000x1, .i32⟩
  | 51 => ⟨S64, .f32⟩
  | 52 => ⟨S_, .f32⟩
  | 53 => ⟨S64, .f32⟩
  | 54 => ⟨S64, .f32⟩
  | 55 => ⟨S64x1, .f32⟩
  | 56 => ⟨S64x320, .f32⟩
  | 57 => ⟨S64x320, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_13 : Ref sig .tc := ⟨.hbm, 88, rfl⟩
abbrev main_v69 : Ref sig .tc := ⟨.hbm, 89, rfl⟩
abbrev main_v70 : Ref sig .tc := ⟨.hbm, 90, rfl⟩
abbrev main_c_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_16 : Ref sig .tc := ⟨.hbm, 104, rfl⟩
abbrev main_v82 : Ref sig .tc := ⟨.hbm, 105, rfl⟩
abbrev main_v83 : Ref sig .tc := ⟨.hbm, 106, rfl⟩
abbrev main_c_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_18 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_19 : Ref sig .tc := ⟨.hbm, 120, rfl⟩
abbrev main_v95 : Ref sig .tc := ⟨.hbm, 121, rfl⟩
abbrev main_v96 : Ref sig .tc := ⟨.hbm, 122, rfl⟩
abbrev main_c_20 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_21 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_c_22 : Ref sig .tc := ⟨.hbm, 144, rfl⟩
abbrev main_v116 : Ref sig .tc := ⟨.hbm, 145, rfl⟩
abbrev main_v117 : Ref sig .tc := ⟨.hbm, 146, rfl⟩
abbrev main_c_23 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_24 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_c_25 : Ref sig .tc := ⟨.hbm, 160, rfl⟩
abbrev main_v129 : Ref sig .tc := ⟨.hbm, 161, rfl⟩
abbrev main_v130 : Ref sig .tc := ⟨.hbm, 162, rfl⟩
abbrev main_c_26 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_27 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_28 : Ref sig .tc := ⟨.hbm, 176, rfl⟩
abbrev main_v142 : Ref sig .tc := ⟨.hbm, 177, rfl⟩
abbrev main_v143 : Ref sig .tc := ⟨.hbm, 178, rfl⟩
abbrev main_c_29 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_30 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_c_31 : Ref sig .tc := ⟨.hbm, 192, rfl⟩
abbrev main_v155 : Ref sig .tc := ⟨.hbm, 193, rfl⟩
abbrev main_v156 : Ref sig .tc := ⟨.hbm, 194, rfl⟩
abbrev main_c_32 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_33 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_c_34 : Ref sig .tc := ⟨.hbm, 208, rfl⟩
abbrev main_v168 : Ref sig .tc := ⟨.hbm, 209, rfl⟩
abbrev main_v169 : Ref sig .tc := ⟨.hbm, 210, rfl⟩
abbrev main_c_35 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_36 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_c_37 : Ref sig .tc := ⟨.hbm, 224, rfl⟩
abbrev main_v181 : Ref sig .tc := ⟨.hbm, 225, rfl⟩
abbrev main_v182 : Ref sig .tc := ⟨.hbm, 226, rfl⟩
abbrev main_c_38 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_cst_39 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_c_40 : Ref sig .tc := ⟨.hbm, 240, rfl⟩
abbrev main_v194 : Ref sig .tc := ⟨.hbm, 241, rfl⟩
abbrev main_v195 : Ref sig .tc := ⟨.hbm, 242, rfl⟩
abbrev main_c_41 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_cst_42 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_c_43 : Ref sig .tc := ⟨.hbm, 256, rfl⟩
abbrev main_v207 : Ref sig .tc := ⟨.hbm, 257, rfl⟩
abbrev main_v208 : Ref sig .tc := ⟨.hbm, 258, rfl⟩
abbrev main_c_44 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_cst_45 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_cst_46 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_cst_47 : Ref sig .tc := ⟨.hbm, 302, rfl⟩
abbrev main_v249 : Ref sig .tc := ⟨.hbm, 303, rfl⟩
abbrev main_cst_48 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_cst_49 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  concatenates_S50000x32_S50000x32_S50000x32_S50000x96_d1 : Shape.Concatenates [S50000x32, S50000x32, S50000x32] S50000x96 1
  concatenates_S50000x32_S50000x32_S50000x32_S50000x32_S50000x128_d1 : Shape.Concatenates [S50000x32, S50000x32, S50000x32, S50000x32] S50000x128 1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S50000x128_S50000x32_0_0 : S50000x128.Slices ![0, 0] S50000x32
  slices_S50000x128_S50000x32_0_32 : S50000x128.Slices ![0, 32] S50000x32
  slices_S50000x128_S50000x32_0_64 : S50000x128.Slices ![0, 64] S50000x32
  concatenates_S50000x32_S50000x32_S50000x32_S50000x32_S50000x32_S50000x32_S50000x192_d1 : Shape.Concatenates [S50000x32, S50000x32, S50000x32, S50000x32, S50000x32, S50000x32] S50000x192 1
  concatenates_S50000x32_S50000x96_S50000x192_S50000x320_d1 : Shape.Concatenates [S50000x32, S50000x96, S50000x192] S50000x320 1
  bcast_S_S64x320 : S_.BroadcastsInDim S64x320 (![] : Fin 0 → Fin S64x320.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x320_0_1 : S64x1.BroadcastsInDim S64x320 (![0, 1] : Fin 2 → Fin S64x320.rank)
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x320_S50000x1_S50000x320_1_0_0_1_wf : ScatterDims.WF S64x320 S50000x1 S50000x320 [1] [0] [0] 1
  scatter_S64_S50000x1_S50000_n_0_0_1_wf : ScatterDims.WF S64 S50000x1 S50000 [] [0] [0] 1

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x320_S50000x1_S50000x320_1_0_0_1 : ScatterDims S64x320 S50000x1 S50000x320 where
  updateWindowDims := [1]
  insertedWindowDims := [0]
  scatterDimsToOperandDims := [0]
  indexVectorDim := 1
  wf := scatter_S64x320_S50000x1_S50000x320_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KFrameKit.lean ====
/- The frame of `Kernel`: what its three cases share

The program is one region on the grid (2, 20) between host operations. Its body resets a scratch accumulator at the
first point of each group of twenty, adds a block's contribution at every point, and stores the accumulator into the
output window at the last point of the group. This module holds what the runs of the three cases (first point, middle
point, last point of a group) and the frame itself are stated over: the buffer contents when the region is entered
(`V0`, `V`), @main around the region (`hmain`), the operations after it (`sfx_*`), the argument arrays untouched
(`V_main_arg·`, `W_main_arg·`), the input windows' blocks (`iblk`, `before0_·_of`), the body's two conditions decided
over the grid (`hcond0_0`, `hcond0_1`), where the output window is idle, the staging and scratch memrefs, the region
invariant with the scratch as a memref (`PhiA0_eq`), and the frame claim's post from a frame run (`frame_of`). -/
import proofs.«408176_j5325759447103_2_alg».proof.Proof.Gen.Kernel.Launch
import proofs.«408176_j5325759447103_2_alg».proof.Proof.Gen.Kernel.Skeleton
import proofs.«408176_j5325759447103_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the five
    stretches of host operations before the region. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

set_option maxHeartbeats 40000000 in
/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host stretches before it run from the launch contents to `V`, then the region, then the
    stretch after it — so @main reduces to the region continued by that last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The operations after the region touch the pipeline's arrays and the bypassing buffers only: each operation's buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays -/

/-- No host operation before the region writes argument 0's buffer: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1's buffer: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2's buffer: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3's buffer: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents (`hA`) and whose body leaves the block in place (`hafter`): the window
    is an input, uncut and never idle, so an unfetched point finds the block the point before left, which is its own. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents (`hA`) and whose body leaves the block in place (`hafter`): the window
    is an input, uncut and never idle, so an unfetched point finds the block the point before left, which is its own. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: none of the four argument arrays is a window's array, so each is among the buffers that
    bypass the region; the frame run's post says such a buffer ends as the operations after the region leave it from
    the region-entry contents, and neither those operations (`W_main_arg·`) nor the ones before the region
    (`V_main_arg·`) write it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch conditions -/

/-- The condition of the body's first `scf.if` (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 20): the first point of each group. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the body's second `scf.if` (the store into the output window), from the grid coordinates. -/
abbrev cond0_1 (i : grid0.Coords) : Prop := k0_cond2 i = 1#1
/-- It holds at the points ≡ 19 (mod 20): the last point of each group. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A the output window is idle (the case stores nothing into it) -/
theorem idleAt0_2_A : ∀ t : Fin cfg0.N, cond0_0 (grid0.coords t) → ¬cond0_1 (grid0.coords t) → cfg0.idle 2 (grid0.coords t) = true := by decide +kernel
/-- and the pipeline does not write its block back. -/
theorem noFlush0_2_A : ∀ t : Fin cfg0.N, cond0_0 (grid0.coords t) → ¬cond0_1 (grid0.coords t) → (cfg0.win 2).flush t = false := by decide +kernel
/-- At the points of case B the output window is idle (the case stores nothing into it) -/
theorem idleAt0_2_B : ∀ t : Fin cfg0.N, ¬cond0_0 (grid0.coords t) → ¬cond0_1 (grid0.coords t) → cfg0.idle 2 (grid0.coords t) = true := by decide +kernel
/-- and the pipeline does not write its block back. -/
theorem noFlush0_2_B : ∀ t : Fin cfg0.N, ¬cond0_0 (grid0.coords t) → ¬cond0_1 (grid0.coords t) → (cfg0.win 2).flush t = false := by decide +kernel
/-- At the points of case C the output window is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated (the choice does not matter). -/
abbrev VO0_2 : View sig .tc .vmem S1x64x321 .f32 := (Memref.whole cc0_stg2_0 : Memref sig .tc .vmem S1x64x321 .f32).view
/-- Each window's current staging memref at point `t`, spelt as the pipeline passes it, and its wholeness. -/
abbrev ms0_0 (t : Fin cfg0.N) : Memref sig .tc .vmem S1280x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x321 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S64x321 .f32 := Memref.whole cc0_scratch0
/-- The scratch the kernel carries between points, as a view: what it holds is stated through it. -/
abbrev VS0_0 : View sig .tc .vmem S64x321 .f32 := scM0_0.view

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/- The frame of `Kernel`: the body's run at the first point of a group

The kernel body's triple in one of its three cases, as a subtype whose witness — the pieces each buffer ends with —
the symbolic run of the body's skeleton finds. One module per case, each importing the one before. -/
import proofs.«408176_j5325759447103_2_alg».proof.Proof.KFrameKit

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue walks it past the default budget)
set_option maxHeartbeats 1000000 in
/-- What the body's stores leave in the output window's staging memref and in the scratch, as pieces (last first), AT THE
    FIRST POINT OF A GROUP (the reset taken, the output store not), with the proof that on whole memrefs — the two inputs'
    at their contents, the output's at contents `xi2` handed back untouched (no store reaches it), the scratch at
    anything (the reset loads it before overwriting it) — the body runs to the continuation holding the inputs' as they
    were, the output's as it was, and the scratch with its pieces written (the zeros, then the block's contribution added
    to them). -/
noncomputable def kernelRun0_A (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) :
    Σ' (L2 : List (View.Piece (Elt F) S1x64x321 .f32)), { LS0 : List (View.Piece (Elt F) S64x321 .f32) //
      ∀ (xi2 : Vec F S1x64x321 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__feats_pool_kernel i arg2 harg2 arg3 harg3 arg4 harg4 arg5 harg5) K } := by
  refine ⟨[], ?_, fun xi2 E K => ?run⟩
  case run =>
    simp only [cc0__feats_pool_kernel_eq_skeleton]; unfold cc0__feats_pool_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KRunB.lean ====
/- The frame of `Kernel`: the body's run at a middle point of a group

The kernel body's triple in one of its three cases, as a subtype whose witness — the pieces each buffer ends with —
the symbolic run of the body's skeleton finds. One module per case, each importing the one before. -/
import proofs.«408176_j5325759447103_2_alg».proof.Proof.KRunA

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue walks it past the default budget)
set_option maxHeartbeats 1000000 in
/-- The same AT A MIDDLE POINT OF A GROUP (neither the reset nor the output store taken): the scratch is owned at the
    contents `xs0` the point before left, and ends with one piece written, the block's contribution added to `xs0`;
    the output's staging memref is handed back untouched. -/
noncomputable def kernelRun0_B (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) :
    Σ' (L2 : List (View.Piece (Elt F) S1x64x321 .f32)), { LS0 : List (View.Piece (Elt F) S64x321 .f32) //
      ∀ (xi2 : Vec F S1x64x321 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__feats_pool_kernel i arg2 harg2 arg3 harg3 arg4 harg4 arg5 harg5) K } := by
  refine ⟨[], ?_, fun xi2 E K => ?run⟩
  case run =>
    simp only [cc0__feats_pool_kernel_eq_skeleton]; unfold cc0__feats_pool_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KRunC.lean ====
/- The frame of `Kernel`: the body's run at the last point of a group

The kernel body's triple in one of its three cases, as a subtype whose witness — the pieces each buffer ends with —
the symbolic run of the body's skeleton finds. One module per case, each importing the one before. -/
import proofs.«408176_j5325759447103_2_alg».proof.Proof.KRunB

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue walks it past the default budget)
set_option maxHeartbeats 1000000 in
/-- The same AT THE LAST POINT OF A GROUP (the reset not taken, the output store taken): the scratch is owned at the
    contents `xs0` the point before left and ends with the block's contribution added; the output's staging memref, at
    anything before, ends with one piece written, the scratch's new contents reshaped. -/
noncomputable def kernelRun0_C (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) :
    Σ' (L2 : List (View.Piece (Elt F) S1x64x321 .f32)), { LS0 : List (View.Piece (Elt F) S64x321 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__feats_pool_kernel i arg2 harg2 arg3 harg3 arg4 harg4 arg5 harg5) K } := by
  refine ⟨?_, ?_, fun E K => ?run⟩
  case run =>
    simp only [cc0__feats_pool_kernel_eq_skeleton]; unfold cc0__feats_pool_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KFrame.lean ====
/- The frame of `Kernel`: the frame claim at any float instance

What the scratch accumulator and the output window's staging buffer hold after the body in each of its three cases (the
pieces the runs found, read back), the same point by point along the grid (`outsAt0`: the accumulator is reset at the
first point of each group of twenty, carried through the others, and stored into the output window at the last), the
proof data of the one pipeline (`dats`), the body obligation at every point (`sound_body`), the frame run
(`run_main`) and the frame (`frame`). Then the VALUE of each piece as the kernel's payloads compute it
(`sout0_A_0_eq` … `out0_C_2_eq`): zeros plus the block's contribution at a group's first point, the carried contents
plus the block's contribution elsewhere, and at a group's last point the output window receives that sum reshaped. -/
import proofs.«408176_j5325759447103_2_alg».proof.Proof.KRunC
import Idealize.ShloMosaic.Lib.Pipeline.Value

-- membership in a rectangle of the blocks' extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output window's staging buffer and in the scratch -/

/-- Case A stores nothing into the output window (it is idle at the case's points and not written back there): no pieces,
    a placeholder that nothing consults. -/
def out0_A_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) : Vec F S1x64x321 .f32 :=
  VO0_2.read (Elt F) (VO0_2.writes (Elt F) VO0_2.junk (kernelRun0_A c i arg2 harg2 arg3 harg3 arg4 harg4 arg5 harg5 hc0 hc1 x0 x1).1)

/-- Case A's pieces for the scratch cover it: the zeros and the sum stored over them are each the whole buffer. -/
theorem scover0_A_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) (y : S64x321.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x321.size (by sl_kernel_rfl) y

/-- What case A leaves in the scratch: its pieces read back over junk. -/
def sout0_A_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) : Vec F S64x321 .f32 :=
  VS0_0.read (Elt F) (VS0_0.writes (Elt F) VS0_0.junk (kernelRun0_A c i arg2 harg2 arg3 harg3 arg4 harg4 arg5 harg5 hc0 hc1 x0 x1).2.1)

/-- Case B stores nothing into the output window either: the same placeholder. -/
def out0_B_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) : Vec F S1x64x321 .f32 :=
  VO0_2.read (Elt F) (VO0_2.writes (Elt F) VO0_2.junk (kernelRun0_B c i arg2 harg2 arg3 harg3 arg4 harg4 arg5 harg5 hc0 hc1 x0 x1 xs0).1)

/-- Case B's one piece for the scratch is the whole buffer. -/
theorem scover0_B_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) (y : S64x321.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x321.size (by sl_kernel_rfl) y

/-- What case B leaves in the scratch. -/
def sout0_B_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) : Vec F S64x321 .f32 :=
  VS0_0.read (Elt F) (VS0_0.writes (Elt F) VS0_0.junk (kernelRun0_B c i arg2 harg2 arg3 harg3 arg4 harg4 arg5 harg5 hc0 hc1 x0 x1 xs0).2.1)

/-- Case C's one piece for the output window is its whole block. -/
theorem cover0_C_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) (y : S1x64x321.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x321.size (by sl_kernel_rfl) y

/-- What case C leaves in the output window's staging buffer. -/
def out0_C_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) : Vec F S1x64x321 .f32 :=
  VO0_2.read (Elt F) (VO0_2.writes (Elt F) VO0_2.junk (kernelRun0_C c i arg2 harg2 arg3 harg3 arg4 harg4 arg5 harg5 hc0 hc1 x0 x1 xs0).1)

/-- Case C's one piece for the scratch is the whole buffer. -/
theorem scover0_C_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) (y : S64x321.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x321.size (by sl_kernel_rfl) y

/-- What case C leaves in the scratch. -/
def sout0_C_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) : Vec F S64x321 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- THE ACCUMULATION. What the output window's staging buffer (first component) and the scratch (second) hold after the
    body at position `n`: the case the position's residue mod 20 selects, run at the point's memrefs and input blocks, the
    scratch at what position `n - 1` left in it. The two conditions never hold together (`False.elim`). -/
def outsAt0 (c : Dev nD) : (n : ℕ) → n < cfg0.N → Vec F S1x64x321 .f32 × Vec F S64x321 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 20 = 0 then
      if h1 : (n + 1) % 20 = 19 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 20 = 19 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at a first point of a group: case A's contents. -/
theorem outsAt0_A (c : Dev nD) (t : Fin cfg0.N) (h0 : t.val % 20 = 0) (h1 : ¬t.val % 20 = 19) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a middle point of a group: case B's contents, over what the point before left. -/
theorem outsAt0_B (c : Dev nD) (t : Fin cfg0.N) (h0 : ¬t.val % 20 = 0) (h1 : ¬t.val % 20 = 19) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point of a group: case C's contents, over what the point before left. -/
theorem outsAt0_C (c : Dev nD) (t : Fin cfg0.N) (h0 : ¬t.val % 20 = 0) (h1 : t.val % 20 = 19) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards the
    scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at point
    `t` each input's buffer at its block and the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' memrefs hold their blocks; the point's residue mod 20 says which case it is in, so
    that case's run applies; the invariant hands the body the scratch at what the point before left (at anything at the
    very first point) and takes it back at this point's contents, the run's pieces covering it; the output window's buffer
    is handed back untouched where the case leaves it idle, and at its pieces' contents at a group's last point; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 20 = 0
  · by_cases h1 : t.val % 20 = 19
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 20 = 19
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.Kernel.Fr.run_main' depends on axioms: [propext, Classical.choice, Quot.sound] -/
#guard_msgs in #print axioms run_main

/-- THE FRAME: the frame claim of `Kernel` at any float instance — @main runs, and its four argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The value of each piece -/

/-- The offsets of a whole-buffer access are zero. -/
theorem hz2 : (![0, 0] : Fin 2 → Nat) = fun _ => 0 := by funext a; fin_cases a <;> rfl
theorem hz3 : (![0, 0, 0] : Fin 3 → Nat) = fun _ => 0 := by funext a; fin_cases a <;> rfl

/-- At a group's first point the scratch ends at the block's contribution added to zeros: the reset's store is read back
    by the load that follows it, and the sum stored over it is the whole buffer. -/
theorem sout0_A_0_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) :
    sout0_A_0 c i arg2 harg2 arg3 harg3 arg4 harg4 arg5 harg5 hc0 hc1 x0 x1 = k0_pay1 (k0_pay4 x0 x1) k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  dsimp only
  rw [View.canon_cons_unit_zero (S := S64x321) hz2]
  simp only [View.readAt_eq_ld, harg2.read_unread, harg3.read_unread, View.ld_unit_zero (S := S1280x320) hz2, View.ld_unit_zero (S := S1x1280) hz2, View.readCov_unit_zero (S := S64x321) _ hz2]

/-- At a middle point the scratch ends at the block's contribution added to what the point before left. -/
theorem sout0_B_0_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) :
    sout0_B_0 c i arg2 harg2 arg3 harg3 arg4 harg4 arg5 harg5 hc0 hc1 x0 x1 xs0 = k0_pay1 (k0_pay4 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S64x321) hz2]
  simp only [View.readAt_eq_ld, harg2.read_unread, harg3.read_unread, harg5.read_unread, View.ld_unit_zero (S := S1280x320) hz2, View.ld_unit_zero (S := S1x1280) hz2, View.ld_unit_zero (S := S64x321) hz2]

/-- At a group's last point the scratch ends likewise, -/
theorem sout0_C_0_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) :
    sout0_C_0 c i arg2 harg2 arg3 harg3 arg4 harg4 arg5 harg5 hc0 hc1 x0 x1 xs0 = k0_pay1 (k0_pay4 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  dsimp only
  rw [View.canon_unit_zero (S := S64x321) hz2]
  simp only [View.readAt_eq_ld, harg2.read_unread, harg3.read_unread, harg5.read_unread, View.ld_unit_zero (S := S1280x320) hz2, View.ld_unit_zero (S := S1x1280) hz2, View.ld_unit_zero (S := S64x321) hz2]

/-- and the output window's staging buffer receives that sum, read back from the scratch and reshaped. -/
theorem out0_C_2_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) :
    out0_C_2 c i arg2 harg2 arg3 harg3 arg4 harg4 arg5 harg5 hc0 hc1 x0 x1 xs0 = k0_pay2 (k0_pay1 (k0_pay4 x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  dsimp only
  rw [View.canon_unit_zero (S := S1x64x321) hz3]
  simp only [View.readAt_eq_ld, harg2.read_unread, harg3.read_unread, harg5.read_unread, View.ld_unit_zero (S := S1280x320) hz2, View.ld_unit_zero (S := S1x1280) hz2, View.ld_unit_zero (S := S64x321) hz2, View.readCov_unit_zero (S := S64x321) _ hz2]

end Cert.Kernel.Fr

end
-- ==== Proof.KIFrameKit.lean ====
/- The frame of `KernelIdeal`: what its three cases share

The program is one region on the grid (2, 20) between host operations. Its body resets a scratch accumulator at the
first point of each group of twenty, adds a block's contribution at every point, and stores the accumulator into the
output window at the last point of the group. This module holds what the runs of the three cases (first point, middle
point, last point of a group) and the frame itself are stated over: the buffer contents when the region is entered
(`V0`, `V`), @main around the region (`hmain`), the operations after it (`sfx_*`), the argument arrays untouched
(`V_main_arg·`, `W_main_arg·`), the input windows' blocks (`iblk`, `before0_·_of`), the body's two conditions decided
over the grid (`hcond0_0`, `hcond0_1`), where the output window is idle, the staging and scratch memrefs, the region
invariant with the scratch as a memref (`PhiA0_eq`), and the frame claim's post from a frame run (`frame_of`). -/
import proofs.«408176_j5325759447103_2_alg».proof.Proof.Gen.KernelIdeal.Launch
import proofs.«408176_j5325759447103_2_alg».proof.Proof.Gen.KernelIdeal.Skeleton
import proofs.«408176_j5325759447103_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents after the five
    stretches of host operations before the region. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

set_option maxHeartbeats 40000000 in
/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host stretches before it run from the launch contents to `V`, then the region, then the
    stretch after it — so @main reduces to the region continued by that last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The operations after the region touch the pipeline's arrays and the bypassing buffers only: each operation's buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays -/

/-- No host operation before the region writes argument 0's buffer: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1's buffer: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2's buffer: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3's buffer: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does an operation after the region, and no window stages it: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents (`hA`) and whose body leaves the block in place (`hafter`): the window
    is an input, uncut and never idle, so an unfetched point finds the block the point before left, which is its own. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents (`hA`) and whose body leaves the block in place (`hafter`): the window
    is an input, uncut and never idle, so an unfetched point finds the block the point before left, which is its own. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: none of the four argument arrays is a window's array, so each is among the buffers that
    bypass the region; the frame run's post says such a buffer ends as the operations after the region leave it from
    the region-entry contents, and neither those operations (`W_main_arg·`) nor the ones before the region
    (`V_main_arg·`) write it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch conditions -/

/-- The condition of the body's first `scf.if` (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 20): the first point of each group. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the body's second `scf.if` (the store into the output window), from the grid coordinates. -/
abbrev cond0_1 (i : grid0.Coords) : Prop := k0_cond2 i = 1#1
/-- It holds at the points ≡ 19 (mod 20): the last point of each group. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A the output window is idle (the case stores nothing into it) -/
theorem idleAt0_2_A : ∀ t : Fin cfg0.N, cond0_0 (grid0.coords t) → ¬cond0_1 (grid0.coords t) → cfg0.idle 2 (grid0.coords t) = true := by decide +kernel
/-- and the pipeline does not write its block back. -/
theorem noFlush0_2_A : ∀ t : Fin cfg0.N, cond0_0 (grid0.coords t) → ¬cond0_1 (grid0.coords t) → (cfg0.win 2).flush t = false := by decide +kernel
/-- At the points of case B the output window is idle (the case stores nothing into it) -/
theorem idleAt0_2_B : ∀ t : Fin cfg0.N, ¬cond0_0 (grid0.coords t) → ¬cond0_1 (grid0.coords t) → cfg0.idle 2 (grid0.coords t) = true := by decide +kernel
/-- and the pipeline does not write its block back. -/
theorem noFlush0_2_B : ∀ t : Fin cfg0.N, ¬cond0_0 (grid0.coords t) → ¬cond0_1 (grid0.coords t) → (cfg0.win 2).flush t = false := by decide +kernel
/-- At the points of case C the output window is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of the output window, through which its contents are stated (the choice does not matter). -/
abbrev VO0_2 : View sig .tc .vmem S1x64x321 .f32 := (Memref.whole cc0_stg2_0 : Memref sig .tc .vmem S1x64x321 .f32).view
/-- Each window's current staging memref at point `t`, spelt as the pipeline passes it, and its wholeness. -/
abbrev ms0_0 (t : Fin cfg0.N) : Memref sig .tc .vmem S1280x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x321 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S64x321 .f32 := Memref.whole cc0_scratch0
/-- The scratch the kernel carries between points, as a view: what it holds is stated through it. -/
abbrev VS0_0 : View sig .tc .vmem S64x321 .f32 := scM0_0.view

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/- The frame of `KernelIdeal`: the body's run at the first point of a group

The kernel body's triple in one of its three cases, as a subtype whose witness — the pieces each buffer ends with —
the symbolic run of the body's skeleton finds. One module per case, each importing the one before. -/
import proofs.«408176_j5325759447103_2_alg».proof.Proof.KIFrameKit

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue walks it past the default budget)
set_option maxHeartbeats 1000000 in
/-- What the body's stores leave in the output window's staging memref and in the scratch, as pieces (last first), AT THE
    FIRST POINT OF A GROUP (the reset taken, the output store not), with the proof that on whole memrefs — the two inputs'
    at their contents, the output's at contents `xi2` handed back untouched (no store reaches it), the scratch at
    anything (the reset loads it before overwriting it) — the body runs to the continuation holding the inputs' as they
    were, the output's as it was, and the scratch with its pieces written (the zeros, then the block's contribution added
    to them). -/
noncomputable def kernelRun0_A (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) :
    Σ' (L2 : List (View.Piece (Elt F) S1x64x321 .f32)), { LS0 : List (View.Piece (Elt F) S64x321 .f32) //
      ∀ (xi2 : Vec F S1x64x321 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__feats_pool_kernel i arg2 harg2 arg3 harg3 arg4 harg4 arg5 harg5) K } := by
  refine ⟨[], ?_, fun xi2 E K => ?run⟩
  case run =>
    simp only [cc0__feats_pool_kernel_eq_skeleton]; unfold cc0__feats_pool_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIRunB.lean ====
/- The frame of `KernelIdeal`: the body's run at a middle point of a group

The kernel body's triple in one of its three cases, as a subtype whose witness — the pieces each buffer ends with —
the symbolic run of the body's skeleton finds. One module per case, each importing the one before. -/
import proofs.«408176_j5325759447103_2_alg».proof.Proof.KIRunA

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue walks it past the default budget)
set_option maxHeartbeats 1000000 in
/-- The same AT A MIDDLE POINT OF A GROUP (neither the reset nor the output store taken): the scratch is owned at the
    contents `xs0` the point before left, and ends with one piece written, the block's contribution added to `xs0`;
    the output's staging memref is handed back untouched. -/
noncomputable def kernelRun0_B (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) :
    Σ' (L2 : List (View.Piece (Elt F) S1x64x321 .f32)), { LS0 : List (View.Piece (Elt F) S64x321 .f32) //
      ∀ (xi2 : Vec F S1x64x321 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__feats_pool_kernel i arg2 harg2 arg3 harg3 arg4 harg4 arg5 harg5) K } := by
  refine ⟨[], ?_, fun xi2 E K => ?run⟩
  case run =>
    simp only [cc0__feats_pool_kernel_eq_skeleton]; unfold cc0__feats_pool_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KIRunC.lean ====
/- The frame of `KernelIdeal`: the body's run at the last point of a group

The kernel body's triple in one of its three cases, as a subtype whose witness — the pieces each buffer ends with —
the symbolic run of the body's skeleton finds. One module per case, each importing the one before. -/
import proofs.«408176_j5325759447103_2_alg».proof.Proof.KIRunB

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue walks it past the default budget)
set_option maxHeartbeats 1000000 in
/-- The same AT THE LAST POINT OF A GROUP (the reset not taken, the output store taken): the scratch is owned at the
    contents `xs0` the point before left and ends with the block's contribution added; the output's staging memref, at
    anything before, ends with one piece written, the scratch's new contents reshaped. -/
noncomputable def kernelRun0_C (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) :
    Σ' (L2 : List (View.Piece (Elt F) S1x64x321 .f32)), { LS0 : List (View.Piece (Elt F) S64x321 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__feats_pool_kernel i arg2 harg2 arg3 harg3 arg4 harg4 arg5 harg5) K } := by
  refine ⟨?_, ?_, fun E K => ?run⟩
  case run =>
    simp only [cc0__feats_pool_kernel_eq_skeleton]; unfold cc0__feats_pool_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KIFrame.lean ====
/- The frame of `KernelIdeal`: the frame claim at any float instance

What the scratch accumulator and the output window's staging buffer hold after the body in each of its three cases (the
pieces the runs found, read back), the same point by point along the grid (`outsAt0`: the accumulator is reset at the
first point of each group of twenty, carried through the others, and stored into the output window at the last), the
proof data of the one pipeline (`dats`), the body obligation at every point (`sound_body`), the frame run
(`run_main`) and the frame (`frame`). Then the VALUE of each piece as the kernel's payloads compute it
(`sout0_A_0_eq` … `out0_C_2_eq`): zeros plus the block's contribution at a group's first point, the carried contents
plus the block's contribution elsewhere, and at a group's last point the output window receives that sum reshaped. -/
import proofs.«408176_j5325759447103_2_alg».proof.Proof.KIRunC
import Idealize.ShloMosaic.Lib.Pipeline.Value

-- membership in a rectangle of the blocks' extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output window's staging buffer and in the scratch -/

/-- Case A stores nothing into the output window (it is idle at the case's points and not written back there): no pieces,
    a placeholder that nothing consults. -/
def out0_A_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) : Vec F S1x64x321 .f32 :=
  VO0_2.read (Elt F) (VO0_2.writes (Elt F) VO0_2.junk (kernelRun0_A c i arg2 harg2 arg3 harg3 arg4 harg4 arg5 harg5 hc0 hc1 x0 x1).1)

/-- Case A's pieces for the scratch cover it: the zeros and the sum stored over them are each the whole buffer. -/
theorem scover0_A_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) (y : S64x321.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S64x321.size (by sl_kernel_rfl) y

/-- What case A leaves in the scratch: its pieces read back over junk. -/
def sout0_A_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) : Vec F S64x321 .f32 :=
  VS0_0.read (Elt F) (VS0_0.writes (Elt F) VS0_0.junk (kernelRun0_A c i arg2 harg2 arg3 harg3 arg4 harg4 arg5 harg5 hc0 hc1 x0 x1).2.1)

/-- Case B stores nothing into the output window either: the same placeholder. -/
def out0_B_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) : Vec F S1x64x321 .f32 :=
  VO0_2.read (Elt F) (VO0_2.writes (Elt F) VO0_2.junk (kernelRun0_B c i arg2 harg2 arg3 harg3 arg4 harg4 arg5 harg5 hc0 hc1 x0 x1 xs0).1)

/-- Case B's one piece for the scratch is the whole buffer. -/
theorem scover0_B_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) (y : S64x321.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S64x321.size (by sl_kernel_rfl) y

/-- What case B leaves in the scratch. -/
def sout0_B_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) : Vec F S64x321 .f32 :=
  VS0_0.read (Elt F) (VS0_0.writes (Elt F) VS0_0.junk (kernelRun0_B c i arg2 harg2 arg3 harg3 arg4 harg4 arg5 harg5 hc0 hc1 x0 x1 xs0).2.1)

/-- Case C's one piece for the output window is its whole block. -/
theorem cover0_C_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) (y : S1x64x321.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x64x321.size (by sl_kernel_rfl) y

/-- What case C leaves in the output window's staging buffer. -/
def out0_C_2 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) : Vec F S1x64x321 .f32 :=
  VO0_2.read (Elt F) (VO0_2.writes (Elt F) VO0_2.junk (kernelRun0_C c i arg2 harg2 arg3 harg3 arg4 harg4 arg5 harg5 hc0 hc1 x0 x1 xs0).1)

/-- Case C's one piece for the scratch is the whole buffer. -/
theorem scover0_C_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) (y : S64x321.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S64x321.size (by sl_kernel_rfl) y

/-- What case C leaves in the scratch. -/
def sout0_C_0 (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) : Vec F S64x321 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- THE ACCUMULATION. What the output window's staging buffer (first component) and the scratch (second) hold after the
    body at position `n`: the case the position's residue mod 20 selects, run at the point's memrefs and input blocks, the
    scratch at what position `n - 1` left in it. The two conditions never hold together (`False.elim`). -/
def outsAt0 (c : Dev nD) : (n : ℕ) → n < cfg0.N → Vec F S1x64x321 .f32 × Vec F S64x321 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 20 = 0 then
      if h1 : (n + 1) % 20 = 19 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 20 = 19 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at a first point of a group: case A's contents. -/
theorem outsAt0_A (c : Dev nD) (t : Fin cfg0.N) (h0 : t.val % 20 = 0) (h1 : ¬t.val % 20 = 19) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- `outsAt0` at a middle point of a group: case B's contents, over what the point before left. -/
theorem outsAt0_B (c : Dev nD) (t : Fin cfg0.N) (h0 : ¬t.val % 20 = 0) (h1 : ¬t.val % 20 = 19) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point of a group: case C's contents, over what the point before left. -/
theorem outsAt0_C (c : Dev nD) (t : Fin cfg0.N) (h0 : ¬t.val % 20 = 0) (h1 : t.val % 20 = 19) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards the
    scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at point
    `t` each input's buffer at its block and the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The inputs' memrefs hold their blocks; the point's residue mod 20 says which case it is in, so
    that case's run applies; the invariant hands the body the scratch at what the point before left (at anything at the
    very first point) and takes it back at this point's contents, the run's pieces covering it; the output window's buffer
    is handed back untouched where the case leaves it idle, and at its pieces' contents at a group's last point; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 20 = 0
  · by_cases h1 : t.val % 20 = 19
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 20 = 19
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.KernelIdeal.Fr.run_main' depends on axioms: [propext, Classical.choice, Quot.sound] -/
#guard_msgs in #print axioms run_main

/-- THE FRAME: the frame claim of `KernelIdeal` at any float instance — @main runs, and its four argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The value of each piece -/

/-- The offsets of a whole-buffer access are zero. -/
theorem hz2 : (![0, 0] : Fin 2 → Nat) = fun _ => 0 := by funext a; fin_cases a <;> rfl
theorem hz3 : (![0, 0, 0] : Fin 3 → Nat) = fun _ => 0 := by funext a; fin_cases a <;> rfl

/-- At a group's first point the scratch ends at the block's contribution added to zeros: the reset's store is read back
    by the load that follows it, and the sum stored over it is the whole buffer. -/
theorem sout0_A_0_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : cond0_0 i) (hc1 : ¬cond0_1 i)
    (x0 : Vec F S1280x320 .f32) (x1 : Vec F S1x1280 .i32) :
    sout0_A_0 c i arg2 harg2 arg3 harg3 arg4 harg4 arg5 harg5 hc0 hc1 x0 x1 = k0_pay1 (k0_pay4 x0 x1) k0_pay3 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  dsimp only
  rw [View.canon_cons_unit_zero (S := S64x321) hz2]
  simp only [View.readAt_eq_ld, harg2.read_unread, harg3.read_unread, View.ld_unit_zero (S := S1280x320) hz2, View.ld_unit_zero (S := S1x1280) hz2, View.readCov_unit_zero (S := S64x321) _ hz2]

/-- At a middle point the scratch ends at the block's contribution added to what the point before left. -/
theorem sout0_B_0_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : ¬cond0_1 i)
    (x0 : Vec F S1280x320 .f32) (x1 : Vec F S1x1280 .i32) (xs0 : Vec F S64x321 .f32) :
    sout0_B_0 c i arg2 harg2 arg3 harg3 arg4 harg4 arg5 harg5 hc0 hc1 x0 x1 xs0 = k0_pay1 (k0_pay4 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S64x321) hz2]
  simp only [View.readAt_eq_ld, harg2.read_unread, harg3.read_unread, harg5.read_unread, View.ld_unit_zero (S := S1280x320) hz2, View.ld_unit_zero (S := S1x1280) hz2, View.ld_unit_zero (S := S64x321) hz2]

/-- At a group's last point the scratch ends likewise, -/
theorem sout0_C_0_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) :
    sout0_C_0 c i arg2 harg2 arg3 harg3 arg4 harg4 arg5 harg5 hc0 hc1 x0 x1 xs0 = k0_pay1 (k0_pay4 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  dsimp only
  rw [View.canon_unit_zero (S := S64x321) hz2]
  simp only [View.readAt_eq_ld, harg2.read_unread, harg3.read_unread, harg5.read_unread, View.ld_unit_zero (S := S1280x320) hz2, View.ld_unit_zero (S := S1x1280) hz2, View.ld_unit_zero (S := S64x321) hz2]

/-- and the output window's staging buffer receives that sum, read back from the scratch and reshaped. -/
theorem out0_C_2_eq (c : Dev nD) (i : grid0.Coords) (arg2 : Memref sig .tc .vmem S1280x320 .f32) (harg2 : arg2.IsWhole) (arg3 : Memref sig .tc .vmem S1x1280 .i32) (harg3 : arg3.IsWhole) (arg4 : Memref sig .tc .vmem S1x64x321 .f32) (harg4 : arg4.IsWhole) (arg5 : Memref sig .tc .vmem S64x321 .f32) (harg5 : arg5.IsWhole) (hc0 : ¬cond0_0 i) (hc1 : cond0_1 i)
    (x0 : Vec F S1280x320 .f32) (x1 : Vec F S1x1280 .i32) (xs0 : Vec F S64x321 .f32) :
    out0_C_2 c i arg2 harg2 arg3 harg3 arg4 harg4 arg5 harg5 hc0 hc1 x0 x1 xs0 = k0_pay2 (k0_pay1 (k0_pay4 x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  dsimp only
  rw [View.canon_unit_zero (S := S1x64x321) hz3]
  simp only [View.readAt_eq_ld, harg2.read_unread, harg3.read_unread, harg5.read_unread, View.ld_unit_zero (S := S1280x320) hz2, View.ld_unit_zero (S := S1x1280) hz2, View.ld_unit_zero (S := S64x321) hz2, View.readCov_unit_zero (S := S64x321) _ hz2]

end Cert.KernelIdeal.Fr

end
-- ==== Proof.Spec.lean ====
/-
  The mathematics both programs compute, stated once over the argument arrays.

  One propagation step sends a node-feature array `x` to
  `P x [n, f] = ∑ over edges e with dst e = n of x[src e, f] · w e`: a row gather at the (wrapped, clamped) source
  indices, a product with the edge weight, an accumulating row scatter at the destination indices.  The step acts on
  each feature column by itself, so it has the same form at every width; it is spelt here at widths 32 and 128.
  `snap t` is `P` iterated `t` times on the 32-wide input.  The ten feature blocks are the deepest snapshot and nine
  absolute differences of two snapshots; `feats` lays them side by side (320 columns), `slab` lays the ten snapshots
  the blocks are computed from side by side.  `pooled` is the mean over each graph's nodes: per graph the sum of the
  rows assigned to it divided by their number (at least one).
-/
import Idealize.ShloMosaic.PureOps
import Idealize.ShloMosaic.PureOps.Ideal

noncomputable section

namespace Cert.Spec

open Idealize.ShloMosaic

abbrev S_ : Shape := ⟨0, ![]⟩
abbrev S50000x32 : Shape := ⟨2, ![50000, 32]⟩
abbrev S50000x128 : Shape := ⟨2, ![50000, 128]⟩
abbrev S50000x320 : Shape := ⟨2, ![50000, 320]⟩
abbrev S2x800000 : Shape := ⟨2, ![2, 800000]⟩
abbrev S1x800000 : Shape := ⟨2, ![1, 800000]⟩
abbrev S800000 : Shape := ⟨1, ![800000]⟩
abbrev S800000x1 : Shape := ⟨2, ![800000, 1]⟩
abbrev S800000x32 : Shape := ⟨2, ![800000, 32]⟩
abbrev S800000x128 : Shape := ⟨2, ![800000, 128]⟩
abbrev S50000 : Shape := ⟨1, ![50000]⟩
abbrev S50000x1 : Shape := ⟨2, ![50000, 1]⟩
abbrev S64 : Shape := ⟨1, ![64]⟩
abbrev S64x1 : Shape := ⟨2, ![64, 1]⟩
abbrev S64x320 : Shape := ⟨2, ![64, 320]⟩

/-- Row gather of a `[50000, 32]` array at `[800000, 1]` start indices. -/
def g32 : GatherDims S50000x32 S800000x1 S800000x32 where
  offsetDims := [1]
  collapsedSliceDims := [0]
  operandBatchingDims := []
  startIndicesBatchingDims := []
  startIndexMap := [0]
  indexVectorDim := 1
  sliceSizes := ![1, 32]
/-- Accumulating row scatter into a `[50000, 32]` array. -/
def sc32 : ScatterDims S50000x32 S800000x1 S800000x32 where
  updateWindowDims := [1]
  insertedWindowDims := [0]
  scatterDimsToOperandDims := [0]
  indexVectorDim := 1
/-- Row gather of a `[50000, 128]` array. -/
def g128 : GatherDims S50000x128 S800000x1 S800000x128 where
  offsetDims := [1]
  collapsedSliceDims := [0]
  operandBatchingDims := []
  startIndicesBatchingDims := []
  startIndexMap := [0]
  indexVectorDim := 1
  sliceSizes := ![1, 128]
/-- Accumulating row scatter into a `[50000, 128]` array. -/
def sc128 : ScatterDims S50000x128 S800000x1 S800000x128 where
  updateWindowDims := [1]
  insertedWindowDims := [0]
  scatterDimsToOperandDims := [0]
  indexVectorDim := 1
/-- Accumulating row scatter of the `[50000, 320]` feature rows into the `[64, 320]` per-graph sums. -/
def scSum : ScatterDims S64x320 S50000x1 S50000x320 where
  updateWindowDims := [1]
  insertedWindowDims := [0]
  scatterDimsToOperandDims := [0]
  indexVectorDim := 1
/-- Accumulating scatter of `[50000]` ones into the `[64]` per-graph counts. -/
def scCnt : ScatterDims S64 S50000x1 S50000 where
  updateWindowDims := []
  insertedWindowDims := [0]
  scatterDimsToOperandDims := [0]
  indexVectorDim := 1

variable {F : FTy → Type} [FloatOps F]

/-- Row `r` (0: sources, 1: destinations) of the edge list, as a flat vector. -/
def edgeRow0 (a1 : IVec S2x800000 32) : IVec S800000 32 :=
  shapeCast S800000 (extractStridedSlice S1x800000 ![0, 0] a1 (by decide)) (by decide)
def edgeRow1 (a1 : IVec S2x800000 32) : IVec S800000 32 :=
  shapeCast S800000 (extractStridedSlice S1x800000 ![1, 0] a1 (by decide)) (by decide)

/-- The gather's start indices: a negative source index wrapped by the row count. -/
def srcIdx (a1 : IVec S2x800000 32) : IVec S800000x1 32 :=
  broadcastInDim S800000x1 ![0] (by decide)
    (select (cmpi .slt (edgeRow0 a1) (broadcastInDim S800000 ![] (by decide) (constantI S_ 32 0#32)))
      (addi (edgeRow0 a1) (broadcastInDim S800000 ![] (by decide) (constantI S_ 32 50000#32))) (edgeRow0 a1))
/-- The scatter's indices: the destination row as it stands. -/
def dstIdx (a1 : IVec S2x800000 32) : IVec S800000x1 32 :=
  broadcastInDim S800000x1 ![0] (by decide) (edgeRow1 a1)

/-- One propagation step on a 32-wide array. -/
def prop32 (a1 : IVec S2x800000 32) (a2 : FVec F S800000 .f32) (x : FVec F S50000x32 .f32) : FVec F S50000x32 .f32 :=
  Host.scatterAdd sc32 (broadcastInDim S50000x32 ![] (by decide) (constant S_ .f32 0x00000000#32)) (dstIdx a1)
    (mulf (Host.gather g32 x (srcIdx a1))
      (broadcastInDim S800000x32 ![0, 1] (by decide) (broadcastInDim S800000x1 ![0] (by decide) a2)))
/-- One propagation step on a 128-wide array. -/
def prop128 (a1 : IVec S2x800000 32) (a2 : FVec F S800000 .f32) (x : FVec F S50000x128 .f32) : FVec F S50000x128 .f32 :=
  Host.scatterAdd sc128 (broadcastInDim S50000x128 ![] (by decide) (constant S_ .f32 0x00000000#32)) (dstIdx a1)
    (mulf (Host.gather g128 x (srcIdx a1))
      (broadcastInDim S800000x128 ![0, 1] (by decide) (broadcastInDim S800000x1 ![0] (by decide) a2)))

/-- `t` propagation steps on the 32-wide input. -/
def snap (a1 : IVec S2x800000 32) (a2 : FVec F S800000 .f32) (x : FVec F S50000x32 .f32) (t : Nat) : FVec F S50000x32 .f32 :=
  (prop32 a1 a2)^[t] x

theorem cat10 : Shape.Concatenates [S50000x32, S50000x32, S50000x32, S50000x32, S50000x32, S50000x32, S50000x32, S50000x32, S50000x32, S50000x32] S50000x320 1 := by decide

/-- The ten snapshots the feature blocks are made of, side by side: steps 1, 2, 3, 4, 5, 6, 8, 9, 10, 12. -/
def slab (a1 : IVec S2x800000 32) (a2 : FVec F S800000 .f32) (x : FVec F S50000x32 .f32) : FVec F S50000x320 .f32 :=
  concatenate S50000x320 1
    [⟨S50000x32, snap a1 a2 x 1⟩, ⟨S50000x32, snap a1 a2 x 2⟩, ⟨S50000x32, snap a1 a2 x 3⟩, ⟨S50000x32, snap a1 a2 x 4⟩,
     ⟨S50000x32, snap a1 a2 x 5⟩, ⟨S50000x32, snap a1 a2 x 6⟩, ⟨S50000x32, snap a1 a2 x 8⟩, ⟨S50000x32, snap a1 a2 x 9⟩,
     ⟨S50000x32, snap a1 a2 x 10⟩, ⟨S50000x32, snap a1 a2 x 12⟩] cat10

/-- Feature block `q` as a pair of step counts `(a, b)`: the block is `|snap a − snap b|`, block 0 being `snap 8` itself. -/
def blockSteps : Fin 10 → Nat × Nat
  | 0 => (8, 8) | 1 => (1, 2) | 2 => (2, 4) | 3 => (4, 8) | 4 => (3, 2)
  | 5 => (5, 3) | 6 => (9, 5) | 7 => (6, 4) | 8 => (10, 6) | 9 => (12, 8)

/-- Feature block `q`. -/
def featBlk (a1 : IVec S2x800000 32) (a2 : FVec F S800000 .f32) (x : FVec F S50000x32 .f32) (q : Fin 10) :
    FVec F S50000x32 .f32 :=
  if q = 0 then snap a1 a2 x 8
  else absf (subf (snap a1 a2 x (blockSteps q).1) (snap a1 a2 x (blockSteps q).2))

/-- The 320 feature columns: the ten blocks side by side. -/
def feats (a1 : IVec S2x800000 32) (a2 : FVec F S800000 .f32) (x : FVec F S50000x32 .f32) :
    FVec F S50000x320 .f32 :=
  concatenate S50000x320 1
    [⟨S50000x32, featBlk a1 a2 x 0⟩, ⟨S50000x32, featBlk a1 a2 x 1⟩, ⟨S50000x32, featBlk a1 a2 x 2⟩, ⟨S50000x32, featBlk a1 a2 x 3⟩,
     ⟨S50000x32, featBlk a1 a2 x 4⟩, ⟨S50000x32, featBlk a1 a2 x 5⟩, ⟨S50000x32, featBlk a1 a2 x 6⟩, ⟨S50000x32, featBlk a1 a2 x 7⟩,
     ⟨S50000x32, featBlk a1 a2 x 8⟩, ⟨S50000x32, featBlk a1 a2 x 9⟩] cat10

/-- The mean of the feature rows over each graph's nodes (a graph without nodes divides by one). -/
def pooled (b : IVec S50000 32) (fe : FVec Ideal S50000x320 .f32) : FVec Ideal S64x320 .f32 :=
  Host.divf
    (Host.scatterAdd scSum (broadcastInDim S64x320 ![] (by decide) (constant S_ .f32 0x00000000#32))
      (broadcastInDim S50000x1 ![0] (by decide) b) fe)
    (broadcastInDim S64x320 ![0, 1] (by decide) (broadcastInDim S64x1 ![0] (by decide)
      (maximumf
        (Host.scatterAdd scCnt (broadcastInDim S64 ![] (by decide) (constant S_ .f32 0x00000000#32))
          (broadcastInDim S50000x1 ![0] (by decide) b)
          (broadcastInDim S50000 ![] (by decide) (constant S_ .f32 0x3F800000#32)))
        (broadcastInDim S64 ![] (by decide) (constant S_ .f32 0x3F800000#32)))))

/-- THE RESULT both programs compute. -/
def result (x : FVec Ideal S50000x32 .f32) (a1 : IVec S2x800000 32) (a2 : FVec Ideal S800000 .f32) (b : IVec S50000 32) :
    FVec Ideal S64x320 .f32 :=
  pooled b (feats a1 a2 x)

end Cert.Spec

end
-- ==== Proof.SpecKernel.lean ====
/-
  The kernel's arithmetic as pure functions of arrays, stated apart from the program text: what one grid point adds to
  the accumulator (`tilePartial`: the one-hot matrix of the tile's graph ids times the tile's feature rows extended by
  a column of ones), the accumulator's recursion over the points of one core (`accPt`), the two cores' accumulators
  stacked (`out3`), and the host lines after the launch (`tailK`: the cores' sum, the feature columns divided by the
  count column, a count of zero replaced by one).  `kernelResult` composes them over the zero-padded slab of snapshots
  and the graph-id row padded with −1.
-/
import proofs.«408176_j5325759447103_2_alg».proof.Proof.Spec
import Idealize.ShloMosaic.Lib.ValueIdx

noncomputable section

namespace Cert.Spec

open Idealize.ShloMosaic Idealize.ShloMosaic.ValueIdx

abbrev S51200x320 : Shape := ⟨2, ![51200, 320]⟩
abbrev S51200 : Shape := ⟨1, ![51200]⟩
abbrev S1x51200 : Shape := ⟨2, ![1, 51200]⟩
abbrev S2x64x321 : Shape := ⟨3, ![2, 64, 321]⟩
abbrev S1280x320 : Shape := ⟨2, ![1280, 320]⟩
abbrev S1x1280 : Shape := ⟨2, ![1, 1280]⟩
abbrev S1x64x321 : Shape := ⟨3, ![1, 64, 321]⟩
abbrev S64x321 : Shape := ⟨2, ![64, 321]⟩
abbrev S1280x32 : Shape := ⟨2, ![1280, 32]⟩
abbrev S1280x96 : Shape := ⟨2, ![1280, 96]⟩
abbrev S1280x192 : Shape := ⟨2, ![1280, 192]⟩
abbrev S1280x1 : Shape := ⟨2, ![1280, 1]⟩
abbrev S1280x321 : Shape := ⟨2, ![1280, 321]⟩
abbrev S64x1280 : Shape := ⟨2, ![64, 1280]⟩

/-- The one-hot matrix `[64, 1280]` times the extended feature rows `[1280, 321]`. -/
def dotPool : DotDims S64x1280 S1280x321 S64x321 where
  lhsContracting := [1]
  rhsContracting := [0]
  lhsNonContracting := [0]
  rhsNonContracting := [1]
  lhsBatch := []
  rhsBatch := []

theorem cat3 : Shape.Concatenates [S1280x32, S1280x32, S1280x32] S1280x96 1 := by decide
theorem cat6 : Shape.Concatenates [S1280x32, S1280x32, S1280x32, S1280x32, S1280x32, S1280x32] S1280x192 1 := by decide
theorem cat3w : Shape.Concatenates [S1280x32, S1280x96, S1280x192] S1280x320 1 := by decide
theorem cat2e : Shape.Concatenates [S1280x320, S1280x1] S1280x321 1 := by decide

variable {F : FTy → Type} [FloatOps F]

/-- Positions in the slab (0–9: steps 1, 2, 3, 4, 5, 6, 8, 9, 10, 12) of the two snapshots feature block `q` is made of. -/
def blockPos : Fin 10 → Nat × Nat
  | 0 => (6, 6) | 1 => (0, 1) | 2 => (1, 3) | 3 => (3, 6) | 4 => (2, 1)
  | 5 => (4, 2) | 6 => (7, 4) | 7 => (5, 3) | 8 => (8, 5) | 9 => (9, 6)
theorem blockPos_lt : ∀ q : Fin 10, (blockPos q).1 < 10 ∧ (blockPos q).2 < 10 := by decide

/-- One node's 320 features from its 320 slab entries: column `32 q + f` is slab entry `192 + f` for `q = 0`, else the
    absolute difference of the entries `32 a + f` and `32 b + f`, `(a, b) = blockPos q`. -/
def featRow (row : Fin 320 → F .f32) (col : Fin 320) : F .f32 :=
  if hq : col.val / 32 = 0 then row ⟨192 + col.val % 32, by omega⟩
  else FloatOps.absf (FloatOps.subf
    (row ⟨32 * (blockPos ⟨col.val / 32, by have := col.isLt; omega⟩).1 + col.val % 32, by
      have := (blockPos_lt ⟨col.val / 32, by have := col.isLt; omega⟩).1; omega⟩)
    (row ⟨32 * (blockPos ⟨col.val / 32, by have := col.isLt; omega⟩).2 + col.val % 32, by
      have := (blockPos_lt ⟨col.val / 32, by have := col.isLt; omega⟩).2; omega⟩))

/-- The tile's 320 feature columns from its 320 snapshot columns: block 0 is the snapshot at position 6, the other nine
    are absolute differences of two positions. -/
def tileFeats (v4 : FVec F S1280x320 .f32) : FVec F S1280x320 .f32 :=
  have v5 : FVec F S1280x32 .f32 := extractStridedSlice S1280x32 ![0, 0] v4 (by decide)
  have v6 : FVec F S1280x32 .f32 := extractStridedSlice S1280x32 ![0, 32] v4 (by decide)
  have v7 : FVec F S1280x32 .f32 := extractStridedSlice S1280x32 ![0, 64] v4 (by decide)
  have v8 : FVec F S1280x32 .f32 := extractStridedSlice S1280x32 ![0, 96] v4 (by decide)
  have v9 : FVec F S1280x32 .f32 := extractStridedSlice S1280x32 ![0, 128] v4 (by decide)
  have v10 : FVec F S1280x32 .f32 := extractStridedSlice S1280x32 ![0, 160] v4 (by decide)
  have v11 : FVec F S1280x32 .f32 := extractStridedSlice S1280x32 ![0, 192] v4 (by decide)
  have v12 : FVec F S1280x32 .f32 := extractStridedSlice S1280x32 ![0, 224] v4 (by decide)
  have v13 : FVec F S1280x32 .f32 := extractStridedSlice S1280x32 ![0, 256] v4 (by decide)
  have v14 : FVec F S1280x32 .f32 := extractStridedSlice S1280x32 ![0, 288] v4 (by decide)
  have v21 : FVec F S1280x96 .f32 := concatenate S1280x96 1
    [⟨S1280x32, absf (subf v5 v6)⟩, ⟨S1280x32, absf (subf v6 v8)⟩, ⟨S1280x32, absf (subf v8 v11)⟩] cat3
  have v34 : FVec F S1280x192 .f32 := concatenate S1280x192 1
    [⟨S1280x32, absf (subf v7 v6)⟩, ⟨S1280x32, absf (subf v9 v7)⟩, ⟨S1280x32, absf (subf v12 v9)⟩,
     ⟨S1280x32, absf (subf v10 v8)⟩, ⟨S1280x32, absf (subf v13 v10)⟩, ⟨S1280x32, absf (subf v14 v11)⟩] cat6
  concatenate S1280x320 1 [⟨S1280x32, v11⟩, ⟨S1280x96, v21⟩, ⟨S1280x192, v34⟩] cat3w

/-- What one grid point adds to the accumulator: for each graph id `g < 64` and column, the sum over the tile's rows
    whose id is `g` of the row's feature (columns 0–319) or of one (column 320). -/
def tilePartial (xb : FVec F S1280x320 .f32) (bb : IVec S1x1280 32) : FVec F S64x321 .f32 :=
  have v4 : FVec F S1280x320 .f32 := shapeCast S1280x320 xb (by decide)
  have v36 : FVec F S1280x1 .f32 := broadcast S1280x1 (Scalar.ofBits .f32 0x3F800000#32)
  have v37 : FVec F S1280x321 .f32 := concatenate S1280x321 1 [⟨S1280x320, tileFeats v4⟩, ⟨S1280x1, v36⟩] cat2e
  have v39 : IVec S1x1280 32 := shapeCast S1x1280 bb (by decide)
  have v40 : IVec S64x1280 32 := iota .tc S64x1280 32 [0] (by decide)
  have v41 : IVec S1x1280 32 := shapeCast S1x1280 v39 (by decide)
  have v42 : IVec S64x1280 32 := broadcastTo S64x1280 v41 (by decide)
  have v43 : IVec S64x1280 1 := cmpi .eq v40 v42
  have v44 : IVec S64x1280 32 := extui 32 v43 (by decide)
  have v45 : FVec F S64x1280 .f32 := sitofp .f32 v44
  have v46 : FVec F S64x1280 .bf16 := truncf .bf16 v45 (by decide)
  have v47 : FVec F S1280x321 .bf16 := truncf .bf16 v37 (by decide)
  matmul dotPool none v46 v47 (constant S64x321 .f32 0x00000000#32)

/-- The accumulator as the first point of a core's row of tiles resets it: zero. -/
def accZero : FVec F S64x321 .f32 :=
  shapeCast S64x321 (broadcast S64x321 (Scalar.ofBits .f32 0x00000000#32)) (by decide)

/-- The accumulator after a point that found it at `acc` and adds `p`. -/
def accAdd (p acc : FVec F S64x321 .f32) : FVec F S64x321 .f32 :=
  shapeCast S64x321 (addf acc p) (by decide)

/-- Tile `T` (1280 rows) of the padded slab. -/
def tileX (slabP : FVec F S51200x320 .f32) (T : Nat) (hT : T < 40) : FVec F S1280x320 .f32 :=
  fun y => slabP (ix2 (⟨1280 * T + (y 0).val, by have := idx2_lt0 y; omega⟩ : Fin 51200) (⟨(y 1).val, idx2_lt1 y⟩ : Fin 320))
/-- Tile `T` (1280 entries) of the padded graph-id row. -/
def tileB (bP : IVec S1x51200 32) (T : Nat) (hT : T < 40) : IVec S1x1280 32 :=
  fun y => bP (ix2 (⟨0, Nat.one_pos⟩ : Fin 1) (⟨1280 * T + (y 1).val, by have := idx2_lt1 y; omega⟩ : Fin 51200))

/-- The accumulator after grid point `t` (`t = 20 · core + i`): reset at `i = 0`, then one tile added per point. -/
def accPt (slabP : FVec F S51200x320 .f32) (bP : IVec S1x51200 32) : (t : Nat) → t < 40 → FVec F S64x321 .f32
  | 0, h => accAdd (tilePartial (tileX slabP 0 h) (tileB bP 0 h)) accZero
  | t + 1, h =>
    if (t + 1) % 20 = 0 then accAdd (tilePartial (tileX slabP (t + 1) h) (tileB bP (t + 1) h)) accZero
    else accAdd (tilePartial (tileX slabP (t + 1) h) (tileB bP (t + 1) h)) (accPt slabP bP t (Nat.lt_of_succ_lt h))

/-- The launch's result: core `c`'s accumulator after its last point, the two stacked. -/
def out3 (slabP : FVec F S51200x320 .f32) (bP : IVec S1x51200 32) : FVec F S2x64x321 .f32 :=
  fun j => accPt slabP bP (20 * (j 0).val + 19) (by have h : (j 0).val < 2 := (j 0).isLt; omega)
    (ix2 (⟨(j 1).val, (j 1).isLt⟩ : Fin 64) (⟨(j 2).val, (j 2).isLt⟩ : Fin 321))

/-- The two cores' accumulators added. -/
def coreSum (o : FVec F S2x64x321 .f32) : FVec F S64x321 .f32 :=
  Host.reduceAdd (axes := [0]) o (constant S_ .f32 0x00000000#32) (by decide) (by decide)

/-- The host lines after the launch. -/
def tailK (o : FVec F S2x64x321 .f32) : FVec F S64x320 .f32 :=
  have v165 : FVec F S64x321 .f32 := coreSum o
  Host.divf (extractStridedSlice S64x320 ![0, 0] v165 (by decide))
    (broadcastInDim S64x320 ![0, 1] (by decide)
      (maximumf (extractStridedSlice S64x1 ![0, 320] v165 (by decide))
        (broadcastInDim S64x1 ![] (by decide) (constant S_ .f32 0x3F800000#32))))

/-- The slab of snapshots padded with 1200 rows of zeros. -/
def slabPad (a1 : IVec S2x800000 32) (a2 : FVec F S800000 .f32) (x : FVec F S50000x32 .f32) : FVec F S51200x320 .f32 :=
  pad S51200x320 ![0, 0] ![1200, 0] ![0, 0] (slab a1 a2 x) (sitofp .f32 (constantI S_ 32 0#32)) (by decide) (by decide)
/-- The graph ids padded with 1200 entries of −1, as a row. -/
def bPad (b : IVec S50000 32) : IVec S1x51200 32 :=
  shapeCast S1x51200 (pad S51200 ![0] ![1200] ![0] b (constantI S_ 32 4294967295#32) (by decide) (by decide)) (by decide)

/-- What the kernel's program computes from the argument arrays. -/
def kernelResult (x : FVec F S50000x32 .f32) (a1 : IVec S2x800000 32) (a2 : FVec F S800000 .f32) (b : IVec S50000 32) :
    FVec F S64x320 .f32 :=
  tailK (out3 (slabPad a1 a2 x) (bPad b))

end Cert.Spec

end
-- ==== Proof.KIValueA.lean ====
/- The kernel's value, first part: what does not depend on the run.

The arithmetic each grid point performs, as the program prints it, is the specification's: a point's contribution is
`tilePartial` of its two blocks, the reset stores `accZero`, the update is `accAdd`, and the store into the output
window adds a leading unit axis.  The block a window reads at grid point `t` is tile `t` of its array: rows
`1280 t … 1280 t + 1279` of the padded slab, entries `1280 t … 1280 t + 1279` of the padded graph-id row.  The nine host
operations after the launch compute `tailK` of the launch's result array. -/
import proofs.«408176_j5325759447103_2_alg».proof.Proof.Gen.KernelIdeal.Launch
import proofs.«408176_j5325759447103_2_alg».proof.Proof.Gen.KernelIdeal.Skeleton
import proofs.«408176_j5325759447103_2_alg».proof.Proof.Gen.KernelIdeal.Points
import proofs.«408176_j5325759447103_2_alg».proof.Proof.SpecKernel
import Idealize.ShloMosaic.Lib.Pipeline.Value
import Idealize.ShloMosaic.Lib.StableHlo.Run
import Idealize.ShloMosaic.Lib.Tactic

noncomputable section

namespace Cert.KernelIdeal.Val

open Cert.KernelIdeal Cert.KernelIdeal.Gen
open Idealize.ShloMosaic Idealize.ShloMosaic.TcCoe Idealize.SL.Sem
open Idealize.ShloMosaic.ValueIdx

variable {F : FTy → Type} [FloatOps F]

/-! ## The arithmetic of one grid point -/

/-- A point's contribution: the one-hot matrix of the tile's graph ids times the tile's extended feature rows. -/
theorem pay4_eq (x0 : Vec F S1280x320 .f32) (x1 : Vec F S1x1280 .i32) :
    k0_pay4 x0 x1 = Cert.Spec.tilePartial x0 x1 := rfl

/-- The reset stores the zero accumulator. -/
theorem pay3_eq : (k0_pay3 : FVec F S64x321 .f32) = Cert.Spec.accZero := rfl

/-- The update adds the contribution to the accumulator it finds. -/
theorem pay1_eq (p : FVec F S64x321 .f32) (acc : Vec F S64x321 .f32) :
    k0_pay1 p acc = Cert.Spec.accAdd p acc := rfl

/-- The store into the output window is the accumulator under a leading unit axis. -/
theorem pay2_eq (v : Vec F S64x321 .f32) :
    k0_pay2 v = shapeCast S1x64x321 v shapeCasts_S64x321_S1x64x321 := rfl

/-! ## The windows' blocks are the arrays' tiles -/

/-- The grid has forty points. -/
theorem lt40 (t : Fin cfg0.N) : t.val < 40 := lt_of_lt_of_eq t.isLt (show cfg0.N = 40 from N_0)

/-- Window 0's block index at point `t` is `(t, 0)`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block index at point `t` is `(0, t)`. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- Window 0's block at point `t`, read off any `[51200, 320]` array, is the array's tile `t`: entry `(r, f)` of the
    block sits at row `1280 t + r`, column `f`. -/
theorem blk0_read (A0 : FVec F S51200x320 .f32) (t : Fin cfg0.N) :
    ((cfg0.win 0).blk t).view.read (Elt F) A0 = Cert.Spec.tileX A0 t.val (lt40 t) := by
  funext y
  rw [View.read_apply]
  show A0 _ = A0 _
  congr 1
  funext a
  apply Fin.ext
  match a with
  | ⟨0, _⟩ =>
    show win0_0.index t 0 * 1280 + 1 * (y 0).val = 1280 * t.val + (y 0).val
    rw [(idx0 t).1]; omega
  | ⟨1, _⟩ =>
    show win0_0.index t 1 * 320 + 1 * (y 1).val = (y 1).val
    rw [(idx0 t).2]; omega

/-- Window 1's block at point `t`, read off any `[1, 51200]` row, is the row's tile `t`: entry `(0, r)` of the block
    sits at position `1280 t + r`. -/
theorem blk1_read (A1 : IVec S1x51200 32) (t : Fin cfg0.N) :
    ((cfg0.win 1).blk t).view.read (Elt F) A1 = Cert.Spec.tileB A1 t.val (lt40 t) := by
  funext y
  rw [View.read_apply]
  show A1 _ = A1 _
  congr 1
  funext a
  apply Fin.ext
  match a with
  | ⟨0, _⟩ =>
    show win0_1.index t 0 * 1 + 1 * (y 0).val = 0
    have h0 : (y 0).val < 1 := (y 0).isLt
    rw [(idx1 t).1]; omega
  | ⟨1, _⟩ =>
    show win0_1.index t 1 * 1280 + 1 * (y 1).val = 1280 * t.val + (y 1).val
    rw [(idx1 t).2]; omega

/-! ## The host operations after the launch -/

/-- From any buffer contents, the nine operations after the launch leave in the result buffer the cores' sum, its
    feature columns divided by its count column with a zero count replaced by one: `tailK` of the launch's result. -/
theorem tail_val (Wt : Valuation τ sig (Elt F)) :
    StableHlo.after (List.flatten [hostOps1]) Wt (Proc.devRef .tc main_v171)
      = Cert.Spec.tailK (Wt (Proc.devRef .tc main_v164)) := by
  simp only [hostOps1, List.flatten_cons, List.flatten_nil, List.append_nil]
  after_results
  rfl

end Cert.KernelIdeal.Val

end
-- ==== Proof.KIValueB.lean ====
/- The kernel's value, second part: the accumulator's recursion and the launch's result array, apart from the run.

`accPt` resets at the first point of each group of twenty and otherwise adds one tile's contribution to what the point
before left.  The output window's block index at point `t` is `(t / 20, 0, 0)`, its block `1 × 64 × 321`: the block
written back at the last point `20 k + 19` of group `k` is slice `k` of the `[2, 64, 321]` result, so the two blocks
written back cover it, and slice `k` of `out3` is group `k`'s accumulator after its last point under a leading unit
axis. -/
import proofs.«408176_j5325759447103_2_alg».proof.Proof.KIValueA

noncomputable section

namespace Cert.KernelIdeal.Val

open Cert.KernelIdeal Cert.KernelIdeal.Gen
open Idealize.ShloMosaic Idealize.ShloMosaic.TcCoe Idealize.SL.Sem
open Idealize.ShloMosaic.ValueIdx

variable {F : FTy → Type} [FloatOps F]

/-! ## The accumulator's recursion, case by case -/

/-- At the first grid point the accumulator is the first tile's contribution added to zeros. -/
theorem accPt_zero (s : FVec F S51200x320 .f32) (b : IVec S1x51200 32) (h : 0 < 40) :
    Cert.Spec.accPt s b 0 h
      = Cert.Spec.accAdd (Cert.Spec.tilePartial (Cert.Spec.tileX s 0 h) (Cert.Spec.tileB b 0 h)) Cert.Spec.accZero := rfl

/-- At a later first point of a group the accumulator starts again from zeros. -/
theorem accPt_reset (s : FVec F S51200x320 .f32) (b : IVec S1x51200 32) (n : ℕ) (h : n + 1 < 40)
    (h0 : (n + 1) % 20 = 0) :
    Cert.Spec.accPt s b (n + 1) h
      = Cert.Spec.accAdd (Cert.Spec.tilePartial (Cert.Spec.tileX s (n + 1) h) (Cert.Spec.tileB b (n + 1) h))
          Cert.Spec.accZero := by
  show (if (n + 1) % 20 = 0 then _ else _) = _
  rw [if_pos h0]

/-- At any other point it adds the tile's contribution to what the point before left. -/
theorem accPt_step (s : FVec F S51200x320 .f32) (b : IVec S1x51200 32) (n : ℕ) (h : n + 1 < 40)
    (h0 : ¬(n + 1) % 20 = 0) :
    Cert.Spec.accPt s b (n + 1) h
      = Cert.Spec.accAdd (Cert.Spec.tilePartial (Cert.Spec.tileX s (n + 1) h) (Cert.Spec.tileB b (n + 1) h))
          (Cert.Spec.accPt s b n (Nat.lt_of_succ_lt h)) := by
  show (if (n + 1) % 20 = 0 then _ else _) = _
  rw [if_neg h0]

/-- The accumulator depends on the point and the entry only through their values. -/
theorem accPt_apply_congr (s : FVec F S51200x320 .f32) (b : IVec S1x51200 32) {n n' : ℕ} (e : n = n')
    (h : n < 40) (h' : n' < 40) {i i' : S64x321.Idx} (ei : i = i') :
    Cert.Spec.accPt s b n h i = Cert.Spec.accPt s b n' h' i' := by
  subst e; subst ei; rfl

/-! ## The output window's blocks -/

/-- The output window's block index at point `t` is `(t / 20, 0, 0)`: one block per group of twenty points. -/
theorem idx2 : ∀ t : Fin cfg0.N, win0_2.index t 0 = t.val / 20 ∧ win0_2.index t 1 = 0 ∧ win0_2.index t 2 = 0 :=
  (by decide +kernel : ∀ t : Fin grid0.N, win0_2.index t 0 = t.val / 20 ∧ win0_2.index t 1 = 0 ∧ win0_2.index t 2 = 0)

/-- At the last point `t` of a group, the output window's block of the stacked accumulators is that group's
    accumulator after `t`, under a leading unit axis: entry `(0, g, f)` of the block sits at `(t / 20, g, f)` of the
    array, and `20 (t / 20) + 19 = t`. -/
theorem blk2_read (s : FVec F S51200x320 .f32) (b : IVec S1x51200 32) (t : Fin cfg0.N) (h19 : t.val % 20 = 19) :
    ((cfg0.win 2).blk t).view.read (Elt F) (Cert.Spec.out3 s b)
      = shapeCast S1x64x321 (Cert.Spec.accPt s b t.val (lt40 t)) shapeCasts_S64x321_S1x64x321 := by
  funext y
  rw [View.read_apply]
  refine Eq.trans ?_ (shapeCast_addUnit_apply ![64, 321] (Cert.Spec.accPt s b t.val (lt40 t)) shapeCasts_S64x321_S1x64x321 y).symm
  have hy0 : (y 0).val < 1 := (y 0).isLt
  have e0 : ((((cfg0.win 2).blk t).view.emb y) 0).val = t.val / 20 := by
    show win0_2.index t 0 * 1 + 1 * (y 0).val = t.val / 20
    rw [(idx2 t).1]; omega
  have e1 : ((((cfg0.win 2).blk t).view.emb y) 1).val = (y 1).val := by
    show win0_2.index t 1 * 64 + 1 * (y 1).val = (y 1).val
    rw [(idx2 t).2.1]; omega
  have e2 : ((((cfg0.win 2).blk t).view.emb y) 2).val = (y 2).val := by
    show win0_2.index t 2 * 321 + 1 * (y 2).val = (y 2).val
    rw [(idx2 t).2.2]; omega
  show Cert.Spec.accPt s b (20 * ((((cfg0.win 2).blk t).view.emb y) 0).val + 19) _
      (ix2 ⟨((((cfg0.win 2).blk t).view.emb y) 1).val, _⟩ ⟨((((cfg0.win 2).blk t).view.emb y) 2).val, _⟩)
    = Cert.Spec.accPt s b t.val _ (fun a => y a.succ)
  refine accPt_apply_congr s b (by rw [e0]; omega) _ _ ?_
  funext a
  apply Fin.ext
  match a with
  | ⟨0, _⟩ => exact e1
  | ⟨1, _⟩ => exact e2

/-- Every entry of the `[2, 64, 321]` result lies in a block the launch writes back: entry `(k, g, f)` in the block of
    point `20 k + 19`. -/
theorem cover2 (i : S2x64x321.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 321 := (i 2).isLt
  have hN : 20 * (i 0).val + 19 < cfg0.N := lt_of_lt_of_eq (by omega : 20 * (i 0).val + 19 < 40) N_0.symm
  have hx := idx2 ⟨20 * (i 0).val + 19, hN⟩
  refine ⟨⟨20 * (i 0).val + 19, hN⟩, (flush0_2 _).mpr (by show (20 * (i 0).val + 19) % 20 = 19; omega), ?_⟩
  show i ∈ ((View.whole main_v164).slice (win0_2.rect ⟨20 * (i 0).val + 19, hN⟩)).set
  rw [View.set_slice_whole, Rect.mem_set_unit]
  intro a
  match a with
  | ⟨0, _⟩ =>
    show win0_2.index ⟨20 * (i 0).val + 19, hN⟩ 0 * 1 ≤ (i 0 : Nat)
      ∧ (i 0 : Nat) < win0_2.index ⟨20 * (i 0).val + 19, hN⟩ 0 * 1 + 1
    rw [hx.1]
    show (20 * (i 0).val + 19) / 20 * 1 ≤ (i 0 : Nat) ∧ (i 0 : Nat) < (20 * (i 0).val + 19) / 20 * 1 + 1
    omega
  | ⟨1, _⟩ =>
    show win0_2.index ⟨20 * (i 0).val + 19, hN⟩ 1 * 64 ≤ (i 1 : Nat)
      ∧ (i 1 : Nat) < win0_2.index ⟨20 * (i 0).val + 19, hN⟩ 1 * 64 + 64
    rw [hx.2.1]; omega
  | ⟨2, _⟩ =>
    show win0_2.index ⟨20 * (i 0).val + 19, hN⟩ 2 * 321 ≤ (i 2 : Nat)
      ∧ (i 2 : Nat) < win0_2.index ⟨20 * (i 0).val + 19, hN⟩ 2 * 321 + 321
    rw [hx.2.2]; omega

end Cert.KernelIdeal.Val

end
-- ==== Proof.KIValueC.lean ====
/- The kernel's value, third part: the run's accumulator is the specification's.

Over the frame of the launch: the scratch the kernel carries between grid points holds, after point `t`, the
specification's accumulator `accPt` of the padded slab and the padded graph-id row as the launch finds them (by induction
on the point: a reset at the first point of a group, an addition elsewhere); at the last point of a group the output
window's staging buffer receives that accumulator under a leading unit axis; so each block the launch writes back is
its block of `out3`, the blocks cover the result, and the result array ends at `out3`. -/
import proofs.«408176_j5325759447103_2_alg».proof.Proof.KIFrame
import proofs.«408176_j5325759447103_2_alg».proof.Proof.KIValueB

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The launch's two input arrays and their blocks -/

/-- The padded slab of snapshots as the launch finds it on core `c`. -/
abbrev slabA (c : Dev nD) : FVec F S51200x320 .f32 := V m c main_v161
/-- The padded row of graph ids as the launch finds it on core `c`. -/
abbrev browA (c : Dev nD) : IVec S1x51200 32 := V m c main_v163

/-- The slab window's block at point `t` is tile `t` of the slab. -/
theorem iblk0_eq (c : Dev nD) (t : Fin cfg0.N) :
    (iblk m c 0 t : Vec F S1280x320 .f32) = Cert.Spec.tileX (slabA m c) t.val (lt40 t) :=
  blk0_read (slabA m c) t

/-- The graph-id window's block at point `t` is tile `t` of the row. -/
theorem iblk1_eq (c : Dev nD) (t : Fin cfg0.N) :
    (iblk m c 1 t : Vec F S1x1280 .i32) = Cert.Spec.tileB (browA m c) t.val (lt40 t) :=
  blk1_read (browA m c) t

/-! ## The scratch after each point -/

/-- After grid point `n` the scratch holds the specification's accumulator after `n`. -/
theorem scratch_eq (c : Dev nD) : ∀ (n : ℕ) (h : n < cfg0.N),
    (outsAt0 m c n h).2 = Cert.Spec.accPt (slabA m c) (browA m c) n (lt_of_lt_of_eq h (show cfg0.N = 40 from N_0))
  | 0, h => by
    rw [outsAt0_A m c ⟨0, h⟩ (Nat.zero_mod _) (by show ¬(0 % 20 = 19); decide)]
    dsimp only
    rw [sout0_A_0_eq, iblk0_eq, iblk1_eq, pay4_eq, pay3_eq, pay1_eq]
    rfl
  | n + 1, h => by
    have ih := scratch_eq c n (Nat.lt_of_succ_lt h)
    by_cases h0 : (n + 1) % 20 = 0
    · have h1 : ¬(n + 1) % 20 = 19 := by omega
      rw [outsAt0_A m c ⟨n + 1, h⟩ h0 h1]
      dsimp only
      rw [sout0_A_0_eq, iblk0_eq, iblk1_eq, pay4_eq, pay3_eq, pay1_eq, accPt_reset _ _ n _ h0]
    · by_cases h1 : (n + 1) % 20 = 19
      · rw [outsAt0_C m c ⟨n + 1, h⟩ h0 h1]
        dsimp only
        rw [sout0_C_0_eq, iblk0_eq, iblk1_eq, pay4_eq, pay1_eq, accPt_step _ _ n _ h0]
        show Cert.Spec.accAdd _ (outsAt0 m c n _).2 = Cert.Spec.accAdd _ _
        rw [ih]
      · rw [outsAt0_B m c ⟨n + 1, h⟩ h0 h1]
        dsimp only
        rw [sout0_B_0_eq, iblk0_eq, iblk1_eq, pay4_eq, pay1_eq, accPt_step _ _ n _ h0]
        show Cert.Spec.accAdd _ (outsAt0 m c n _).2 = Cert.Spec.accAdd _ _
        rw [ih]

/-- At the last point of a group the output window's staging buffer holds the accumulator after that point, under a
    leading unit axis. -/
theorem out_eq (c : Dev nD) (t : Fin cfg0.N) (h19 : t.val % 20 = 19) :
    (outsAt0 m c t.val t.isLt).1
      = shapeCast S1x64x321 (Cert.Spec.accPt (slabA m c) (browA m c) t.val (lt40 t)) shapeCasts_S64x321_S1x64x321 := by
  have h0 : ¬t.val % 20 = 0 := by omega
  have hs := scratch_eq m c t.val t.isLt
  rw [outsAt0_C m c t h0 h19] at hs ⊢
  dsimp only at hs ⊢
  rw [sout0_C_0_eq] at hs
  rw [out0_C_2_eq, pay2_eq, hs]

/-! ## The result array -/

/-- The two cores' accumulators after their last points, stacked: what the launch's result array ends holding. -/
abbrev outG (c : Dev nD) : FVec F S2x64x321 .f32 := Cert.Spec.out3 (slabA m c) (browA m c)

/-- Each write-back writes its block of the stacked accumulators. -/
theorem flushed_eq (c : Dev nD) (t : Fin cfg0.N) (hf : (cfg0.win 2).flush t = true) :
    (dats m 0 c).flushed 2 t = ((cfg0.win 2).blk t).view.read (Elt F) (outG m c) := by
  have h19 : t.val % 20 = 19 := (flush0_2 t).mp hf
  show (cfg0.win 2).cut (grid0.coords t) ((dats m 0 c).after 2 t) = _
  rw [after0_2, out_eq m c t h19, blk2_read (slabA m c) (browA m c) t h19]
  rfl

/-- The launch's result array ends at the stacked accumulators: the blocks written back cover it. -/
theorem final_out (c : Dev nD) : (dats m 0 c).arrAt 2 cfg0.N = outG m c :=
  (dats m 0 c).arrAt_eq_of_cover 2 (outG m c) (flushed_eq m c) cover2

end Cert.KernelIdeal.Val

end
-- ==== Proof.KIPrefix.lean ====
/-
  The value of the kernel program's host operations before its launch.

  The 198 operations first take the two rows of the edge list as flat vectors, then run twelve propagation steps, each
  a row gather at the wrapped source indices, a product with the edge weights and an accumulating row scatter at the
  destination indices, each step reading the previous step's result; the results of steps 1, 2, 3, 4, 5, 6, 8, 9, 10
  and 12 are laid side by side, the slab so made is padded with 1200 rows of zeros, and the graph ids are padded with
  1200 entries of -1 and reshaped to a row.  Read as functions of the argument arrays these are `Cert.Spec.slabPad`
  and `Cert.Spec.bPad`.
-/
import proofs.«408176_j5325759447103_2_alg».proof.Proof.Gen.KernelIdeal.Launch
import proofs.«408176_j5325759447103_2_alg».proof.Proof.Spec
import proofs.«408176_j5325759447103_2_alg».proof.Proof.SpecKernel
import Idealize.ShloMosaic.Lib.StableHlo.Run
import Idealize.ShloMosaic.Lib.Pipeline.Frame

noncomputable section

namespace Cert.KernelIdeal.Pre

open Cert.KernelIdeal Cert.KernelIdeal.Gen Idealize.ShloMosaic Idealize.ShloMosaic.TcCoe Idealize.SL.Sem Idealize.ShloMosaic.StableHlo

variable {F : FTy → Type} [FloatOps F]

/-! ## The operations, cut into the edge rows, the twelve steps and the concatenate -/

/-- The two rows of the edge list as flat vectors. -/
abbrev opsPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

set_option hygiene false in
/-- One propagation step's sixteen operations over the buffers named: the wrapped source indices, the gather of the
    rows of `prev`, the product with the broadcast weights, the zero array, the destination indices, the scatter. -/
local macro "step_ops%" c0:ident va:ident vb:ident c1:ident vc:ident vd:ident ve:ident vf:ident prev:ident vg:ident vh:ident vi:ident vj:ident cst:ident vk:ident vl:ident out:ident : term =>
  `(([ StableHlo.nullary $c0 (constantI S_ 32 0#32),
       StableHlo.unary $c0 $va (broadcastInDim S800000 ![] bcast_S_S800000 : (⟨S_, .i32⟩ : BufTy).Contents (Elt F) → (⟨S800000, .i32⟩ : BufTy).Contents (Elt F)),
       StableHlo.binary main_v1 $va $vb (cmpi .slt : (⟨S800000, .i32⟩ : BufTy).Contents (Elt F) → (⟨S800000, .i32⟩ : BufTy).Contents (Elt F) → (⟨S800000, .i1⟩ : BufTy).Contents (Elt F)),
       StableHlo.nullary $c1 (constantI S_ 32 50000#32),
       StableHlo.unary $c1 $vc (broadcastInDim S800000 ![] bcast_S_S800000 : (⟨S_, .i32⟩ : BufTy).Contents (Elt F) → (⟨S800000, .i32⟩ : BufTy).Contents (Elt F)),
       StableHlo.binary main_v1 $vc $vd (addi : (⟨S800000, .i32⟩ : BufTy).Contents (Elt F) → (⟨S800000, .i32⟩ : BufTy).Contents (Elt F) → (⟨S800000, .i32⟩ : BufTy).Contents (Elt F)),
       StableHlo.ternary $vb $vd main_v1 $ve (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
       StableHlo.unary $ve $vf (broadcastInDim S800000x1 ![0] bcast_S800000_S800000x1_0 : (⟨S800000, .i32⟩ : BufTy).Contents (Elt F) → (⟨S800000x1, .i32⟩ : BufTy).Contents (Elt F)),
       StableHlo.binary $prev $vf $vg ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
       StableHlo.unary main_arg2 $vh (broadcastInDim S800000x1 ![0] bcast_S800000_S800000x1_0 : (⟨S800000, .f32⟩ : BufTy).Contents (Elt F) → (⟨S800000x1, .f32⟩ : BufTy).Contents (Elt F)),
       StableHlo.unary $vh $vi (broadcastInDim S800000x32 ![0, 1] bcast_S800000x1_S800000x32_0_1 : (⟨S800000x1, .f32⟩ : BufTy).Contents (Elt F) → (⟨S800000x32, .f32⟩ : BufTy).Contents (Elt F)),
       StableHlo.binary $vg $vi $vj (mulf : (⟨S800000x32, .f32⟩ : BufTy).Contents (Elt F) → (⟨S800000x32, .f32⟩ : BufTy).Contents (Elt F) → (⟨S800000x32, .f32⟩ : BufTy).Contents (Elt F)),
       StableHlo.nullary $cst (constant S_ .f32 0x00000000#32),
       StableHlo.unary $cst $vk (broadcastInDim S50000x32 ![] bcast_S_S50000x32 : (⟨S_, .f32⟩ : BufTy).Contents (Elt F) → (⟨S50000x32, .f32⟩ : BufTy).Contents (Elt F)),
       StableHlo.unary main_v3 $vl (broadcastInDim S800000x1 ![0] bcast_S800000_S800000x1_0 : (⟨S800000, .i32⟩ : BufTy).Contents (Elt F) → (⟨S800000x1, .i32⟩ : BufTy).Contents (Elt F)),
       StableHlo.ternary $vk $vl $vj $out ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)) ]
     : List (HloOp τ sig (Elt F))))

/-- The buffers a step writes: all it names but `prev`. -/
local macro "step_W%" c0:ident va:ident vb:ident c1:ident vc:ident vd:ident ve:ident vf:ident prev:ident vg:ident vh:ident vi:ident vj:ident cst:ident vk:ident vl:ident out:ident : term =>
  `(([$c0, $va, $vb, $c1, $vc, $vd, $ve, $vf, $vg, $vh, $vi, $vj, $cst, $vk, $vl, $out] : List (Ref sig .tc)))

abbrev ops1 : List (HloOp τ sig (Elt F)) := step_ops% main_c main_v4 main_v5 main_c_0 main_v6 main_v7 main_v8 main_v9 main_arg0 main_v10 main_v11 main_v12 main_v13 main_cst main_v14 main_v15 main_v16
abbrev ops2 : List (HloOp τ sig (Elt F)) := step_ops% main_c_1 main_v17 main_v18 main_c_2 main_v19 main_v20 main_v21 main_v22 main_v16 main_v23 main_v24 main_v25 main_v26 main_cst_3 main_v27 main_v28 main_v29
abbrev ops3 : List (HloOp τ sig (Elt F)) := step_ops% main_c_4 main_v30 main_v31 main_c_5 main_v32 main_v33 main_v34 main_v35 main_v29 main_v36 main_v37 main_v38 main_v39 main_cst_6 main_v40 main_v41 main_v42
abbrev ops4 : List (HloOp τ sig (Elt F)) := step_ops% main_c_7 main_v43 main_v44 main_c_8 main_v45 main_v46 main_v47 main_v48 main_v42 main_v49 main_v50 main_v51 main_v52 main_cst_9 main_v53 main_v54 main_v55
abbrev ops5 : List (HloOp τ sig (Elt F)) := step_ops% main_c_10 main_v56 main_v57 main_c_11 main_v58 main_v59 main_v60 main_v61 main_v55 main_v62 main_v63 main_v64 main_v65 main_cst_12 main_v66 main_v67 main_v68
abbrev ops6 : List (HloOp τ sig (Elt F)) := step_ops% main_c_13 main_v69 main_v70 main_c_14 main_v71 main_v72 main_v73 main_v74 main_v68 main_v75 main_v76 main_v77 main_v78 main_cst_15 main_v79 main_v80 main_v81
abbrev ops7 : List (HloOp τ sig (Elt F)) := step_ops% main_c_16 main_v82 main_v83 main_c_17 main_v84 main_v85 main_v86 main_v87 main_v81 main_v88 main_v89 main_v90 main_v91 main_cst_18 main_v92 main_v93 main_v94
abbrev ops8 : List (HloOp τ sig (Elt F)) := step_ops% main_c_19 main_v95 main_v96 main_c_20 main_v97 main_v98 main_v99 main_v100 main_v94 main_v101 main_v102 main_v103 main_v104 main_cst_21 main_v105 main_v106 main_v107
abbrev ops9 : List (HloOp τ sig (Elt F)) := step_ops% main_c_22 main_v108 main_v109 main_c_23 main_v110 main_v111 main_v112 main_v113 main_v107 main_v114 main_v115 main_v116 main_v117 main_cst_24 main_v118 main_v119 main_v120
abbrev ops10 : List (HloOp τ sig (Elt F)) := step_ops% main_c_25 main_v121 main_v122 main_c_26 main_v123 main_v124 main_v125 main_v126 main_v120 main_v127 main_v128 main_v129 main_v130 main_cst_27 main_v131 main_v132 main_v133
abbrev ops11 : List (HloOp τ sig (Elt F)) := step_ops% main_c_28 main_v134 main_v135 main_c_29 main_v136 main_v137 main_v138 main_v139 main_v133 main_v140 main_v141 main_v142 main_v143 main_cst_30 main_v144 main_v145 main_v146
abbrev ops12 : List (HloOp τ sig (Elt F)) := step_ops% main_c_31 main_v147 main_v148 main_c_32 main_v149 main_v150 main_v151 main_v152 main_v146 main_v153 main_v154 main_v155 main_v156 main_cst_33 main_v157 main_v158 main_v159

/-- The ten snapshots laid side by side, and the constant the pad's fill is converted from. -/
abbrev opsCat : List (HloOp τ sig (Elt F)) :=
  [ StableHlo.nary ![main_v16, main_v29, main_v42, main_v55, main_v68, main_v81, main_v107, main_v120, main_v133, main_v159] main_v160 (fun u => concatenate S50000x320 1 [⟨S50000x32, u 0⟩, ⟨S50000x32, u 1⟩, ⟨S50000x32, u 2⟩, ⟨S50000x32, u 3⟩, ⟨S50000x32, u 4⟩, ⟨S50000x32, u 5⟩, ⟨S50000x32, u 6⟩, ⟨S50000x32, u 7⟩, ⟨S50000x32, u 8⟩, ⟨S50000x32, u 9⟩] concatenates_S50000x32_S50000x32_S50000x32_S50000x32_S50000x32_S50000x32_S50000x32_S50000x32_S50000x32_S50000x32_S50000x320_d1),
    StableHlo.nullary main_c_34 (constantI S_ 32 0#32) ]

set_option maxRecDepth 8192 in
/-- The 198 operations are the edge rows, the twelve steps and the concatenate, in order. -/
theorem hostOps0_eq : (hostOps0 : List (HloOp τ sig (Elt F))) =
    opsPre ++ (ops1 ++ (ops2 ++ (ops3 ++ (ops4 ++ (ops5 ++ (ops6 ++ (ops7 ++ (ops8 ++ (ops9 ++ (ops10 ++ (ops11 ++ (ops12 ++ opsCat)))))))))))) := rfl

/-! ## One window at a time, from any contents -/

/-- One propagation step from the two edge rows as flat vectors. -/
def stepE (e0 e1 : IVec Cert.Spec.S800000 32) (a2 : FVec F Cert.Spec.S800000 .f32) (x : FVec F Cert.Spec.S50000x32 .f32) :
    FVec F Cert.Spec.S50000x32 .f32 :=
  Host.scatterAdd Cert.Spec.sc32 (broadcastInDim Cert.Spec.S50000x32 ![] (by decide) (constant Cert.Spec.S_ .f32 0x00000000#32))
    (broadcastInDim Cert.Spec.S800000x1 ![0] (by decide) e1)
    (mulf (Host.gather Cert.Spec.g32 x
        (broadcastInDim Cert.Spec.S800000x1 ![0] (by decide)
          (select (cmpi .slt e0 (broadcastInDim Cert.Spec.S800000 ![] (by decide) (constantI Cert.Spec.S_ 32 0#32)))
            (addi e0 (broadcastInDim Cert.Spec.S800000 ![] (by decide) (constantI Cert.Spec.S_ 32 50000#32))) e0)))
      (broadcastInDim Cert.Spec.S800000x32 ![0, 1] (by decide) (broadcastInDim Cert.Spec.S800000x1 ![0] (by decide) a2)))

/-- The specification's step is `stepE` at the edge list's two rows. -/
theorem prop32_eq (a1 : IVec Cert.Spec.S2x800000 32) (a2 : FVec F Cert.Spec.S800000 .f32) (x : FVec F Cert.Spec.S50000x32 .f32) :
    Cert.Spec.prop32 a1 a2 x = stepE (Cert.Spec.edgeRow0 a1) (Cert.Spec.edgeRow1 a1) a2 x := rfl

/-- One more step is one more application of the step. -/
theorem snap_succ (a1 : IVec Cert.Spec.S2x800000 32) (a2 : FVec F Cert.Spec.S800000 .f32) (x : FVec F Cert.Spec.S50000x32 .f32) (t : Nat) :
    Cert.Spec.snap a1 a2 x (t + 1) = stepE (Cert.Spec.edgeRow0 a1) (Cert.Spec.edgeRow1 a1) a2 (Cert.Spec.snap a1 a2 x t) :=
  Function.iterate_succ_apply' _ _ _

/-- Each operation of a literal list writes one buffer, and it is in the list of buffers given. -/
local macro "writes_tac" : tactic =>
  `(tactic| (simp only [List.Forall]
             and_intros <;>
               (simp only [nullary_writes, unary_writes, binary_writes, ternary_writes, reshape_writes, nary_writes,
                  Finset.singleton_subset_iff, List.mem_toFinset]
                exact List.mem_map_of_mem (by decide))))

/-- A step's result buffer holds `stepE` of what its four inputs held. -/
local macro "step_tac" : tactic => `(tactic| (after_results_simp; rfl))

abbrev WPre : List (Ref sig .tc) := [main_v0, main_v1, main_v2, main_v3]
theorem writesPre : (opsPre : List (HloOp τ sig (Elt F))).Forall fun op => op.writes ⊆ (WPre.map (Proc.devRef (τ := τ) .tc)).toFinset := by
  writes_tac
theorem keepPre (V : Valuation τ sig (Elt F)) (r : Ref sig .tc) (h : r ∉ WPre) :
    after opsPre V (Proc.devRef .tc r) = V (Proc.devRef .tc r) := after_of_writes_sub opsPre V writesPre h
theorem pre_v1 (V : Valuation τ sig (Elt F)) :
    after opsPre V (Proc.devRef .tc main_v1) = Cert.Spec.edgeRow0 (V (Proc.devRef .tc main_arg1)) := by
  after_results_simp; rfl
theorem pre_v3 (V : Valuation τ sig (Elt F)) :
    after opsPre V (Proc.devRef .tc main_v3) = Cert.Spec.edgeRow1 (V (Proc.devRef .tc main_arg1)) := by
  after_results_simp; rfl

abbrev W1 : List (Ref sig .tc) := step_W% main_c main_v4 main_v5 main_c_0 main_v6 main_v7 main_v8 main_v9 main_arg0 main_v10 main_v11 main_v12 main_v13 main_cst main_v14 main_v15 main_v16
theorem writes1 : (ops1 : List (HloOp τ sig (Elt F))).Forall fun op => op.writes ⊆ (W1.map (Proc.devRef (τ := τ) .tc)).toFinset := by
  writes_tac
theorem keep1 (V : Valuation τ sig (Elt F)) (r : Ref sig .tc) (h : r ∉ W1) :
    after ops1 V (Proc.devRef .tc r) = V (Proc.devRef .tc r) := after_of_writes_sub ops1 V writes1 h
theorem ops1_out (V : Valuation τ sig (Elt F)) :
    after ops1 V (Proc.devRef .tc main_v16)
      = stepE (V (Proc.devRef .tc main_v1)) (V (Proc.devRef .tc main_v3)) (V (Proc.devRef .tc main_arg2)) (V (Proc.devRef .tc main_arg0)) := by
  step_tac

/-- The ten operands of the concatenate side by side. -/
def catFn (s1 s2 s3 s4 s5 s6 s8 s9 s10 s12 : FVec F Cert.Spec.S50000x32 .f32) : FVec F Cert.Spec.S50000x320 .f32 :=
  concatenate Cert.Spec.S50000x320 1
    [⟨Cert.Spec.S50000x32, s1⟩, ⟨Cert.Spec.S50000x32, s2⟩, ⟨Cert.Spec.S50000x32, s3⟩, ⟨Cert.Spec.S50000x32, s4⟩, ⟨Cert.Spec.S50000x32, s5⟩,
     ⟨Cert.Spec.S50000x32, s6⟩, ⟨Cert.Spec.S50000x32, s8⟩, ⟨Cert.Spec.S50000x32, s9⟩, ⟨Cert.Spec.S50000x32, s10⟩, ⟨Cert.Spec.S50000x32, s12⟩] Cert.Spec.cat10

abbrev WCat : List (Ref sig .tc) := [main_v160, main_c_34]
theorem writesCat : (opsCat : List (HloOp τ sig (Elt F))).Forall fun op => op.writes ⊆ (WCat.map (Proc.devRef (τ := τ) .tc)).toFinset := by
  writes_tac
theorem keepCat (V : Valuation τ sig (Elt F)) (r : Ref sig .tc) (h : r ∉ WCat) :
    after opsCat V (Proc.devRef .tc r) = V (Proc.devRef .tc r) := after_of_writes_sub opsCat V writesCat h
theorem cat_v160 (V : Valuation τ sig (Elt F)) :
    after opsCat V (Proc.devRef .tc main_v160)
      = catFn (V (Proc.devRef .tc main_v16)) (V (Proc.devRef .tc main_v29)) (V (Proc.devRef .tc main_v42)) (V (Proc.devRef .tc main_v55))
          (V (Proc.devRef .tc main_v68)) (V (Proc.devRef .tc main_v81)) (V (Proc.devRef .tc main_v107)) (V (Proc.devRef .tc main_v120))
          (V (Proc.devRef .tc main_v133)) (V (Proc.devRef .tc main_v159)) := by
  after_results_simp; rfl
theorem cat_c34 (V : Valuation τ sig (Elt F)) :
    after opsCat V (Proc.devRef .tc main_c_34) = constantI Cert.Spec.S_ 32 0#32 := by
  after_results_simp

abbrev W2 : List (Ref sig .tc) := step_W% main_c_1 main_v17 main_v18 main_c_2 main_v19 main_v20 main_v21 main_v22 main_v16 main_v23 main_v24 main_v25 main_v26 main_cst_3 main_v27 main_v28 main_v29
theorem writes2 : (ops2 : List (HloOp τ sig (Elt F))).Forall fun op => op.writes ⊆ (W2.map (Proc.devRef (τ := τ) .tc)).toFinset := by
  writes_tac
theorem keep2 (V : Valuation τ sig (Elt F)) (r : Ref sig .tc) (h : r ∉ W2) :
    after ops2 V (Proc.devRef .tc r) = V (Proc.devRef .tc r) := after_of_writes_sub ops2 V writes2 h
theorem ops2_out (V : Valuation τ sig (Elt F)) :
    after ops2 V (Proc.devRef .tc main_v29)
      = stepE (V (Proc.devRef .tc main_v1)) (V (Proc.devRef .tc main_v3)) (V (Proc.devRef .tc main_arg2)) (V (Proc.devRef .tc main_v16)) := by
  step_tac

abbrev W3 : List (Ref sig .tc) := step_W% main_c_4 main_v30 main_v31 main_c_5 main_v32 main_v33 main_v34 main_v35 main_v29 main_v36 main_v37 main_v38 main_v39 main_cst_6 main_v40 main_v41 main_v42
theorem writes3 : (ops3 : List (HloOp τ sig (Elt F))).Forall fun op => op.writes ⊆ (W3.map (Proc.devRef (τ := τ) .tc)).toFinset := by
  writes_tac
theorem keep3 (V : Valuation τ sig (Elt F)) (r : Ref sig .tc) (h : r ∉ W3) :
    after ops3 V (Proc.devRef .tc r) = V (Proc.devRef .tc r) := after_of_writes_sub ops3 V writes3 h
theorem ops3_out (V : Valuation τ sig (Elt F)) :
    after ops3 V (Proc.devRef .tc main_v42)
      = stepE (V (Proc.devRef .tc main_v1)) (V (Proc.devRef .tc main_v3)) (V (Proc.devRef .tc main_arg2)) (V (Proc.devRef .tc main_v29)) := by
  step_tac

abbrev W4 : List (Ref sig .tc) := step_W% main_c_7 main_v43 main_v44 main_c_8 main_v45 main_v46 main_v47 main_v48 main_v42 main_v49 main_v50 main_v51 main_v52 main_cst_9 main_v53 main_v54 main_v55
theorem writes4 : (ops4 : List (HloOp τ sig (Elt F))).Forall fun op => op.writes ⊆ (W4.map (Proc.devRef (τ := τ) .tc)).toFinset := by
  writes_tac
theorem keep4 (V : Valuation τ sig (Elt F)) (r : Ref sig .tc) (h : r ∉ W4) :
    after ops4 V (Proc.devRef .tc r) = V (Proc.devRef .tc r) := after_of_writes_sub ops4 V writes4 h
theorem ops4_out (V : Valuation τ sig (Elt F)) :
    after ops4 V (Proc.devRef .tc main_v55)
      = stepE (V (Proc.devRef .tc main_v1)) (V (Proc.devRef .tc main_v3)) (V (Proc.devRef .tc main_arg2)) (V (Proc.devRef .tc main_v42)) := by
  step_tac

abbrev W5 : List (Ref sig .tc) := step_W% main_c_10 main_v56 main_v57 main_c_11 main_v58 main_v59 main_v60 main_v61 main_v55 main_v62 main_v63 main_v64 main_v65 main_cst_12 main_v66 main_v67 main_v68
theorem writes5 : (ops5 : List (HloOp τ sig (Elt F))).Forall fun op => op.writes ⊆ (W5.map (Proc.devRef (τ := τ) .tc)).toFinset := by
  writes_tac
theorem keep5 (V : Valuation τ sig (Elt F)) (r : Ref sig .tc) (h : r ∉ W5) :
    after ops5 V (Proc.devRef .tc r) = V (Proc.devRef .tc r) := after_of_writes_sub ops5 V writes5 h
theorem ops5_out (V : Valuation τ sig (Elt F)) :
    after ops5 V (Proc.devRef .tc main_v68)
      = stepE (V (Proc.devRef .tc main_v1)) (V (Proc.devRef .tc main_v3)) (V (Proc.devRef .tc main_arg2)) (V (Proc.devRef .tc main_v55)) := by
  step_tac

abbrev W6 : List (Ref sig .tc) := step_W% main_c_13 main_v69 main_v70 main_c_14 main_v71 main_v72 main_v73 main_v74 main_v68 main_v75 main_v76 main_v77 main_v78 main_cst_15 main_v79 main_v80 main_v81
theorem writes6 : (ops6 : List (HloOp τ sig (Elt F))).Forall fun op => op.writes ⊆ (W6.map (Proc.devRef (τ := τ) .tc)).toFinset := by
  writes_tac
theorem keep6 (V : Valuation τ sig (Elt F)) (r : Ref sig .tc) (h : r ∉ W6) :
    after ops6 V (Proc.devRef .tc r) = V (Proc.devRef .tc r) := after_of_writes_sub ops6 V writes6 h
theorem ops6_out (V : Valuation τ sig (Elt F)) :
    after ops6 V (Proc.devRef .tc main_v81)
      = stepE (V (Proc.devRef .tc main_v1)) (V (Proc.devRef .tc main_v3)) (V (Proc.devRef .tc main_arg2)) (V (Proc.devRef .tc main_v68)) := by
  step_tac

abbrev W7 : List (Ref sig .tc) := step_W% main_c_16 main_v82 main_v83 main_c_17 main_v84 main_v85 main_v86 main_v87 main_v81 main_v88 main_v89 main_v90 main_v91 main_cst_18 main_v92 main_v93 main_v94
theorem writes7 : (ops7 : List (HloOp τ sig (Elt F))).Forall fun op => op.writes ⊆ (W7.map (Proc.devRef (τ := τ) .tc)).toFinset := by
  writes_tac
theorem keep7 (V : Valuation τ sig (Elt F)) (r : Ref sig .tc) (h : r ∉ W7) :
    after ops7 V (Proc.devRef .tc r) = V (Proc.devRef .tc r) := after_of_writes_sub ops7 V writes7 h
theorem ops7_out (V : Valuation τ sig (Elt F)) :
    after ops7 V (Proc.devRef .tc main_v94)
      = stepE (V (Proc.devRef .tc main_v1)) (V (Proc.devRef .tc main_v3)) (V (Proc.devRef .tc main_arg2)) (V (Proc.devRef .tc main_v81)) := by
  step_tac

abbrev W8 : List (Ref sig .tc) := step_W% main_c_19 main_v95 main_v96 main_c_20 main_v97 main_v98 main_v99 main_v100 main_v94 main_v101 main_v102 main_v103 main_v104 main_cst_21 main_v105 main_v106 main_v107
theorem writes8 : (ops8 : List (HloOp τ sig (Elt F))).Forall fun op => op.writes ⊆ (W8.map (Proc.devRef (τ := τ) .tc)).toFinset := by
  writes_tac
theorem keep8 (V : Valuation τ sig (Elt F)) (r : Ref sig .tc) (h : r ∉ W8) :
    after ops8 V (Proc.devRef .tc r) = V (Proc.devRef .tc r) := after_of_writes_sub ops8 V writes8 h
theorem ops8_out (V : Valuation τ sig (Elt F)) :
    after ops8 V (Proc.devRef .tc main_v107)
      = stepE (V (Proc.devRef .tc main_v1)) (V (Proc.devRef .tc main_v3)) (V (Proc.devRef .tc main_arg2)) (V (Proc.devRef .tc main_v94)) := by
  step_tac

abbrev W9 : List (Ref sig .tc) := step_W% main_c_22 main_v108 main_v109 main_c_23 main_v110 main_v111 main_v112 main_v113 main_v107 main_v114 main_v115 main_v116 main_v117 main_cst_24 main_v118 main_v119 main_v120
theorem writes9 : (ops9 : List (HloOp τ sig (Elt F))).Forall fun op => op.writes ⊆ (W9.map (Proc.devRef (τ := τ) .tc)).toFinset := by
  writes_tac
theorem keep9 (V : Valuation τ sig (Elt F)) (r : Ref sig .tc) (h : r ∉ W9) :
    after ops9 V (Proc.devRef .tc r) = V (Proc.devRef .tc r) := after_of_writes_sub ops9 V writes9 h
theorem ops9_out (V : Valuation τ sig (Elt F)) :
    after ops9 V (Proc.devRef .tc main_v120)
      = stepE (V (Proc.devRef .tc main_v1)) (V (Proc.devRef .tc main_v3)) (V (Proc.devRef .tc main_arg2)) (V (Proc.devRef .tc main_v107)) := by
  step_tac

abbrev W10 : List (Ref sig .tc) := step_W% main_c_25 main_v121 main_v122 main_c_26 main_v123 main_v124 main_v125 main_v126 main_v120 main_v127 main_v128 main_v129 main_v130 main_cst_27 main_v131 main_v132 main_v133
theorem writes10 : (ops10 : List (HloOp τ sig (Elt F))).Forall fun op => op.writes ⊆ (W10.map (Proc.devRef (τ := τ) .tc)).toFinset := by
  writes_tac
theorem keep10 (V : Valuation τ sig (Elt F)) (r : Ref sig .tc) (h : r ∉ W10) :
    after ops10 V (Proc.devRef .tc r) = V (Proc.devRef .tc r) := after_of_writes_sub ops10 V writes10 h
theorem ops10_out (V : Valuation τ sig (Elt F)) :
    after ops10 V (Proc.devRef .tc main_v133)
      = stepE (V (Proc.devRef .tc main_v1)) (V (Proc.devRef .tc main_v3)) (V (Proc.devRef .tc main_arg2)) (V (Proc.devRef .tc main_v120)) := by
  step_tac

abbrev W11 : List (Ref sig .tc) := step_W% main_c_28 main_v134 main_v135 main_c_29 main_v136 main_v137 main_v138 main_v139 main_v133 main_v140 main_v141 main_v142 main_v143 main_cst_30 main_v144 main_v145 main_v146
theorem writes11 : (ops11 : List (HloOp τ sig (Elt F))).Forall fun op => op.writes ⊆ (W11.map (Proc.devRef (τ := τ) .tc)).toFinset := by
  writes_tac
theorem keep11 (V : Valuation τ sig (Elt F)) (r : Ref sig .tc) (h : r ∉ W11) :
    after ops11 V (Proc.devRef .tc r) = V (Proc.devRef .tc r) := after_of_writes_sub ops11 V writes11 h
theorem ops11_out (V : Valuation τ sig (Elt F)) :
    after ops11 V (Proc.devRef .tc main_v146)
      = stepE (V (Proc.devRef .tc main_v1)) (V (Proc.devRef .tc main_v3)) (V (Proc.devRef .tc main_arg2)) (V (Proc.devRef .tc main_v133)) := by
  step_tac

abbrev W12 : List (Ref sig .tc) := step_W% main_c_31 main_v147 main_v148 main_c_32 main_v149 main_v150 main_v151 main_v152 main_v146 main_v153 main_v154 main_v155 main_v156 main_cst_33 main_v157 main_v158 main_v159
theorem writes12 : (ops12 : List (HloOp τ sig (Elt F))).Forall fun op => op.writes ⊆ (W12.map (Proc.devRef (τ := τ) .tc)).toFinset := by
  writes_tac
theorem keep12 (V : Valuation τ sig (Elt F)) (r : Ref sig .tc) (h : r ∉ W12) :
    after ops12 V (Proc.devRef .tc r) = V (Proc.devRef .tc r) := after_of_writes_sub ops12 V writes12 h
theorem ops12_out (V : Valuation τ sig (Elt F)) :
    after ops12 V (Proc.devRef .tc main_v159)
      = stepE (V (Proc.devRef .tc main_v1)) (V (Proc.devRef .tc main_v3)) (V (Proc.devRef .tc main_arg2)) (V (Proc.devRef .tc main_v146)) := by
  step_tac

/-! ## The contents after each window, from the launch contents `W` -/

def vv0 (W : Valuation τ sig (Elt F)) : Valuation τ sig (Elt F) := after opsPre W
def vv1 (W : Valuation τ sig (Elt F)) : Valuation τ sig (Elt F) := after ops1 (vv0 W)
def vv2 (W : Valuation τ sig (Elt F)) : Valuation τ sig (Elt F) := after ops2 (vv1 W)
def vv3 (W : Valuation τ sig (Elt F)) : Valuation τ sig (Elt F) := after ops3 (vv2 W)
def vv4 (W : Valuation τ sig (Elt F)) : Valuation τ sig (Elt F) := after ops4 (vv3 W)
def vv5 (W : Valuation τ sig (Elt F)) : Valuation τ sig (Elt F) := after ops5 (vv4 W)
def vv6 (W : Valuation τ sig (Elt F)) : Valuation τ sig (Elt F) := after ops6 (vv5 W)
def vv7 (W : Valuation τ sig (Elt F)) : Valuation τ sig (Elt F) := after ops7 (vv6 W)
def vv8 (W : Valuation τ sig (Elt F)) : Valuation τ sig (Elt F) := after ops8 (vv7 W)
def vv9 (W : Valuation τ sig (Elt F)) : Valuation τ sig (Elt F) := after ops9 (vv8 W)
def vv10 (W : Valuation τ sig (Elt F)) : Valuation τ sig (Elt F) := after ops10 (vv9 W)
def vv11 (W : Valuation τ sig (Elt F)) : Valuation τ sig (Elt F) := after ops11 (vv10 W)
def vv12 (W : Valuation τ sig (Elt F)) : Valuation τ sig (Elt F) := after ops12 (vv11 W)
def vvC (W : Valuation τ sig (Elt F)) : Valuation τ sig (Elt F) := after opsCat (vv12 W)

/-- The 198 operations leave the contents the fourteen windows leave one after the other. -/
theorem after_hostOps0 (W : Valuation τ sig (Elt F)) : after hostOps0 W = vvC W := by
  rw [hostOps0_eq]
  simp only [StableHlo.after_append]
  rfl

/-- What every step reads besides the previous step's result: the weights and the two edge rows. -/
structure Base (W V : Valuation τ sig (Elt F)) : Prop where
  arg2 : V (Proc.devRef .tc main_arg2) = W (Proc.devRef .tc main_arg2)
  e0 : V (Proc.devRef .tc main_v1) = Cert.Spec.edgeRow0 (W (Proc.devRef .tc main_arg1))
  e1 : V (Proc.devRef .tc main_v3) = Cert.Spec.edgeRow1 (W (Proc.devRef .tc main_arg1))

/-- A window that writes none of the three keeps them. -/
theorem Base.step {W V : Valuation τ sig (Elt F)} (h : Base W V) (ops : List (HloOp τ sig (Elt F))) (Wl : List (Ref sig .tc))
    (hw : ops.Forall fun op => op.writes ⊆ (Wl.map (Proc.devRef (τ := τ) .tc)).toFinset)
    (n2 : main_arg2 ∉ Wl) (n0 : main_v1 ∉ Wl) (n1 : main_v3 ∉ Wl) : Base W (after ops V) :=
  ⟨(after_of_writes_sub ops V hw n2).trans h.arg2, (after_of_writes_sub ops V hw n0).trans h.e0,
   (after_of_writes_sub ops V hw n1).trans h.e1⟩

theorem base0 (W : Valuation τ sig (Elt F)) : Base W (vv0 W) := ⟨keepPre W main_arg2 (by decide), pre_v1 W, pre_v3 W⟩
theorem base1 (W : Valuation τ sig (Elt F)) : Base W (vv1 W) := (base0 W).step ops1 W1 writes1 (by decide) (by decide) (by decide)
theorem base2 (W : Valuation τ sig (Elt F)) : Base W (vv2 W) := (base1 W).step ops2 W2 writes2 (by decide) (by decide) (by decide)
theorem base3 (W : Valuation τ sig (Elt F)) : Base W (vv3 W) := (base2 W).step ops3 W3 writes3 (by decide) (by decide) (by decide)
theorem base4 (W : Valuation τ sig (Elt F)) : Base W (vv4 W) := (base3 W).step ops4 W4 writes4 (by decide) (by decide) (by decide)
theorem base5 (W : Valuation τ sig (Elt F)) : Base W (vv5 W) := (base4 W).step ops5 W5 writes5 (by decide) (by decide) (by decide)
theorem base6 (W : Valuation τ sig (Elt F)) : Base W (vv6 W) := (base5 W).step ops6 W6 writes6 (by decide) (by decide) (by decide)
theorem base7 (W : Valuation τ sig (Elt F)) : Base W (vv7 W) := (base6 W).step ops7 W7 writes7 (by decide) (by decide) (by decide)
theorem base8 (W : Valuation τ sig (Elt F)) : Base W (vv8 W) := (base7 W).step ops8 W8 writes8 (by decide) (by decide) (by decide)
theorem base9 (W : Valuation τ sig (Elt F)) : Base W (vv9 W) := (base8 W).step ops9 W9 writes9 (by decide) (by decide) (by decide)
theorem base10 (W : Valuation τ sig (Elt F)) : Base W (vv10 W) := (base9 W).step ops10 W10 writes10 (by decide) (by decide) (by decide)
theorem base11 (W : Valuation τ sig (Elt F)) : Base W (vv11 W) := (base10 W).step ops11 W11 writes11 (by decide) (by decide) (by decide)

/-- After step `k` its result buffer holds the `k`-th snapshot. -/
theorem out1 (W : Valuation τ sig (Elt F)) : vv1 W (Proc.devRef .tc main_v16)
    = Cert.Spec.snap (W (Proc.devRef .tc main_arg1)) (W (Proc.devRef .tc main_arg2)) (W (Proc.devRef .tc main_arg0)) 1 := by
  have b := base0 W
  unfold vv1
  rw [ops1_out, b.e0, b.e1, b.arg2, show vv0 W (Proc.devRef .tc main_arg0) = W (Proc.devRef .tc main_arg0) from keepPre W main_arg0 (by decide)]
  exact (snap_succ _ _ _ 0).symm
theorem out2 (W : Valuation τ sig (Elt F)) : vv2 W (Proc.devRef .tc main_v29)
    = Cert.Spec.snap (W (Proc.devRef .tc main_arg1)) (W (Proc.devRef .tc main_arg2)) (W (Proc.devRef .tc main_arg0)) 2 := by
  have b := base1 W
  unfold vv2
  rw [ops2_out, b.e0, b.e1, b.arg2, out1 W]
  exact (snap_succ _ _ _ 1).symm
theorem out3 (W : Valuation τ sig (Elt F)) : vv3 W (Proc.devRef .tc main_v42)
    = Cert.Spec.snap (W (Proc.devRef .tc main_arg1)) (W (Proc.devRef .tc main_arg2)) (W (Proc.devRef .tc main_arg0)) 3 := by
  have b := base2 W
  unfold vv3
  rw [ops3_out, b.e0, b.e1, b.arg2, out2 W]
  exact (snap_succ _ _ _ 2).symm
theorem out4 (W : Valuation τ sig (Elt F)) : vv4 W (Proc.devRef .tc main_v55)
    = Cert.Spec.snap (W (Proc.devRef .tc main_arg1)) (W (Proc.devRef .tc main_arg2)) (W (Proc.devRef .tc main_arg0)) 4 := by
  have b := base3 W
  unfold vv4
  rw [ops4_out, b.e0, b.e1, b.arg2, out3 W]
  exact (snap_succ _ _ _ 3).symm
theorem out5 (W : Valuation τ sig (Elt F)) : vv5 W (Proc.devRef .tc main_v68)
    = Cert.Spec.snap (W (Proc.devRef .tc main_arg1)) (W (Proc.devRef .tc main_arg2)) (W (Proc.devRef .tc main_arg0)) 5 := by
  have b := base4 W
  unfold vv5
  rw [ops5_out, b.e0, b.e1, b.arg2, out4 W]
  exact (snap_succ _ _ _ 4).symm
theorem out6 (W : Valuation τ sig (Elt F)) : vv6 W (Proc.devRef .tc main_v81)
    = Cert.Spec.snap (W (Proc.devRef .tc main_arg1)) (W (Proc.devRef .tc main_arg2)) (W (Proc.devRef .tc main_arg0)) 6 := by
  have b := base5 W
  unfold vv6
  rw [ops6_out, b.e0, b.e1, b.arg2, out5 W]
  exact (snap_succ _ _ _ 5).symm
theorem out7 (W : Valuation τ sig (Elt F)) : vv7 W (Proc.devRef .tc main_v94)
    = Cert.Spec.snap (W (Proc.devRef .tc main_arg1)) (W (Proc.devRef .tc main_arg2)) (W (Proc.devRef .tc main_arg0)) 7 := by
  have b := base6 W
  unfold vv7
  rw [ops7_out, b.e0, b.e1, b.arg2, out6 W]
  exact (snap_succ _ _ _ 6).symm
theorem out8 (W : Valuation τ sig (Elt F)) : vv8 W (Proc.devRef .tc main_v107)
    = Cert.Spec.snap (W (Proc.devRef .tc main_arg1)) (W (Proc.devRef .tc main_arg2)) (W (Proc.devRef .tc main_arg0)) 8 := by
  have b := base7 W
  unfold vv8
  rw [ops8_out, b.e0, b.e1, b.arg2, out7 W]
  exact (snap_succ _ _ _ 7).symm
theorem out9 (W : Valuation τ sig (Elt F)) : vv9 W (Proc.devRef .tc main_v120)
    = Cert.Spec.snap (W (Proc.devRef .tc main_arg1)) (W (Proc.devRef .tc main_arg2)) (W (Proc.devRef .tc main_arg0)) 9 := by
  have b := base8 W
  unfold vv9
  rw [ops9_out, b.e0, b.e1, b.arg2, out8 W]
  exact (snap_succ _ _ _ 8).symm
theorem out10 (W : Valuation τ sig (Elt F)) : vv10 W (Proc.devRef .tc main_v133)
    = Cert.Spec.snap (W (Proc.devRef .tc main_arg1)) (W (Proc.devRef .tc main_arg2)) (W (Proc.devRef .tc main_arg0)) 10 := by
  have b := base9 W
  unfold vv10
  rw [ops10_out, b.e0, b.e1, b.arg2, out9 W]
  exact (snap_succ _ _ _ 9).symm
theorem out11 (W : Valuation τ sig (Elt F)) : vv11 W (Proc.devRef .tc main_v146)
    = Cert.Spec.snap (W (Proc.devRef .tc main_arg1)) (W (Proc.devRef .tc main_arg2)) (W (Proc.devRef .tc main_arg0)) 11 := by
  have b := base10 W
  unfold vv11
  rw [ops11_out, b.e0, b.e1, b.arg2, out10 W]
  exact (snap_succ _ _ _ 10).symm
theorem out12 (W : Valuation τ sig (Elt F)) : vv12 W (Proc.devRef .tc main_v159)
    = Cert.Spec.snap (W (Proc.devRef .tc main_arg1)) (W (Proc.devRef .tc main_arg2)) (W (Proc.devRef .tc main_arg0)) 12 := by
  have b := base11 W
  unfold vv12
  rw [ops12_out, b.e0, b.e1, b.arg2, out11 W]
  exact (snap_succ _ _ _ 11).symm

/-! ## A buffer the later steps do not write, carried to the last step -/

theorem nmL {α : Type} {a : α} {s t : List α} (h : a ∉ s ++ t) : a ∉ s := fun hm => h (List.mem_append.2 (Or.inl hm))
theorem nmR {α : Type} {a : α} {s t : List α} (h : a ∉ s ++ t) : a ∉ t := fun hm => h (List.mem_append.2 (Or.inr hm))

/-- The buffers steps `k + 1` … 12 write. -/
abbrev WU11 : List (Ref sig .tc) := W12
abbrev WU10 : List (Ref sig .tc) := W11 ++ WU11
abbrev WU9 : List (Ref sig .tc) := W10 ++ WU10
abbrev WU8 : List (Ref sig .tc) := W9 ++ WU9
abbrev WU7 : List (Ref sig .tc) := W8 ++ WU8
abbrev WU6 : List (Ref sig .tc) := W7 ++ WU7
abbrev WU5 : List (Ref sig .tc) := W6 ++ WU6
abbrev WU4 : List (Ref sig .tc) := W5 ++ WU5
abbrev WU3 : List (Ref sig .tc) := W4 ++ WU4
abbrev WU2 : List (Ref sig .tc) := W3 ++ WU3
abbrev WU1 : List (Ref sig .tc) := W2 ++ WU2
abbrev WU0 : List (Ref sig .tc) := W1 ++ WU1

theorem carry11 (W : Valuation τ sig (Elt F)) (r : Ref sig .tc) (h : r ∉ WU11) :
    vv12 W (Proc.devRef .tc r) = vv11 W (Proc.devRef .tc r) := keep12 _ r h
theorem carry10 (W : Valuation τ sig (Elt F)) (r : Ref sig .tc) (h : r ∉ WU10) :
    vv12 W (Proc.devRef .tc r) = vv10 W (Proc.devRef .tc r) := (carry11 W r (nmR h)).trans (keep11 _ r (nmL h))
theorem carry9 (W : Valuation τ sig (Elt F)) (r : Ref sig .tc) (h : r ∉ WU9) :
    vv12 W (Proc.devRef .tc r) = vv9 W (Proc.devRef .tc r) := (carry10 W r (nmR h)).trans (keep10 _ r (nmL h))
theorem carry8 (W : Valuation τ sig (Elt F)) (r : Ref sig .tc) (h : r ∉ WU8) :
    vv12 W (Proc.devRef .tc r) = vv8 W (Proc.devRef .tc r) := (carry9 W r (nmR h)).trans (keep9 _ r (nmL h))
theorem carry7 (W : Valuation τ sig (Elt F)) (r : Ref sig .tc) (h : r ∉ WU7) :
    vv12 W (Proc.devRef .tc r) = vv7 W (Proc.devRef .tc r) := (carry8 W r (nmR h)).trans (keep8 _ r (nmL h))
theorem carry6 (W : Valuation τ sig (Elt F)) (r : Ref sig .tc) (h : r ∉ WU6) :
    vv12 W (Proc.devRef .tc r) = vv6 W (Proc.devRef .tc r) := (carry7 W r (nmR h)).trans (keep7 _ r (nmL h))
theorem carry5 (W : Valuation τ sig (Elt F)) (r : Ref sig .tc) (h : r ∉ WU5) :
    vv12 W (Proc.devRef .tc r) = vv5 W (Proc.devRef .tc r) := (carry6 W r (nmR h)).trans (keep6 _ r (nmL h))
theorem carry4 (W : Valuation τ sig (Elt F)) (r : Ref sig .tc) (h : r ∉ WU4) :
    vv12 W (Proc.devRef .tc r) = vv4 W (Proc.devRef .tc r) := (carry5 W r (nmR h)).trans (keep5 _ r (nmL h))
theorem carry3 (W : Valuation τ sig (Elt F)) (r : Ref sig .tc) (h : r ∉ WU3) :
    vv12 W (Proc.devRef .tc r) = vv3 W (Proc.devRef .tc r) := (carry4 W r (nmR h)).trans (keep4 _ r (nmL h))
theorem carry2 (W : Valuation τ sig (Elt F)) (r : Ref sig .tc) (h : r ∉ WU2) :
    vv12 W (Proc.devRef .tc r) = vv2 W (Proc.devRef .tc r) := (carry3 W r (nmR h)).trans (keep3 _ r (nmL h))
theorem carry1 (W : Valuation τ sig (Elt F)) (r : Ref sig .tc) (h : r ∉ WU1) :
    vv12 W (Proc.devRef .tc r) = vv1 W (Proc.devRef .tc r) := (carry2 W r (nmR h)).trans (keep2 _ r (nmL h))
theorem carry0 (W : Valuation τ sig (Elt F)) (r : Ref sig .tc) (h : r ∉ WU0) :
    vv12 W (Proc.devRef .tc r) = vv0 W (Proc.devRef .tc r) := (carry1 W r (nmR h)).trans (keep1 _ r (nmL h))

/-- The concatenate's result is the slab of the ten snapshots. -/
theorem vvC_v160 (W : Valuation τ sig (Elt F)) : vvC W (Proc.devRef .tc main_v160)
    = Cert.Spec.slab (W (Proc.devRef .tc main_arg1)) (W (Proc.devRef .tc main_arg2)) (W (Proc.devRef .tc main_arg0)) := by
  unfold vvC
  rw [cat_v160, carry1 W main_v16 (by decide), out1 W, carry2 W main_v29 (by decide), out2 W, carry3 W main_v42 (by decide), out3 W,
    carry4 W main_v55 (by decide), out4 W, carry5 W main_v68 (by decide), out5 W, carry6 W main_v81 (by decide), out6 W,
    carry8 W main_v107 (by decide), out8 W, carry9 W main_v120 (by decide), out9 W, carry10 W main_v133 (by decide), out10 W, out12 W]
  rfl
/-- The constant beside it is zero. -/
theorem vvC_c34 (W : Valuation τ sig (Elt F)) : vvC W (Proc.devRef .tc main_c_34) = constantI Cert.Spec.S_ 32 0#32 :=
  cat_c34 (vv12 W)
/-- The graph ids are as launched. -/
theorem vvC_arg3 (W : Valuation τ sig (Elt F)) : vvC W (Proc.devRef .tc main_arg3) = W (Proc.devRef .tc main_arg3) :=
  (keepCat (vv12 W) main_arg3 (by decide)).trans ((carry0 W main_arg3 (by decide)).trans (keepPre W main_arg3 (by decide)))

/-! ## The two pads and the reshape -/

/-- The slab padded with rows of the converted constant. -/
theorem tail_v161 (V : Valuation τ sig (Elt F)) :
    after (List.flatten [hostOps0_1, hostOps0_2, hostOps0_3, hostOps0_4]) V (Proc.devRef .tc main_v161)
      = pad Cert.Spec.S51200x320 ![0, 0] ![1200, 0] ![0, 0] (V (Proc.devRef .tc main_v160)) (sitofp .f32 (V (Proc.devRef .tc main_c_34)))
          (by decide) (by decide) := by
  simp only [List.flatten_cons, List.flatten_nil, hostOps0_1, hostOps0_2, hostOps0_3, hostOps0_4, List.cons_append, List.nil_append, List.append_nil]
  after_results_simp
  rfl
/-- The graph ids padded with −1 and reshaped to a row. -/
theorem tail_v163 (V : Valuation τ sig (Elt F)) :
    after (List.flatten [hostOps0_1, hostOps0_2, hostOps0_3, hostOps0_4]) V (Proc.devRef .tc main_v163)
      = Cert.Spec.bPad (V (Proc.devRef .tc main_arg3)) := by
  simp only [List.flatten_cons, List.flatten_nil, hostOps0_1, hostOps0_2, hostOps0_3, hostOps0_4, List.cons_append, List.nil_append, List.append_nil]
  after_results_simp
  rfl

/-! ## The two values the launch reads -/

/-- The padded slab of snapshots, as the host operations before the launch leave it. -/
theorem slab_val (W : Valuation τ sig (Elt F)) :
    StableHlo.after (List.flatten [hostOps0, hostOps0_1, hostOps0_2, hostOps0_3, hostOps0_4]) W (Proc.devRef .tc main_v161)
      = Cert.Spec.slabPad (W (Proc.devRef .tc main_arg1)) (W (Proc.devRef .tc main_arg2)) (W (Proc.devRef .tc main_arg0)) := by
  rw [List.flatten_cons, StableHlo.after_append, after_hostOps0, tail_v161, vvC_v160, vvC_c34]
  rfl

/-- The padded row of graph ids, as the host operations before the launch leave it. -/
theorem brow_val (W : Valuation τ sig (Elt F)) :
    StableHlo.after (List.flatten [hostOps0, hostOps0_1, hostOps0_2, hostOps0_3, hostOps0_4]) W (Proc.devRef .tc main_v163)
      = Cert.Spec.bPad (W (Proc.devRef .tc main_arg3)) := by
  rw [List.flatten_cons, StableHlo.after_append, after_hostOps0, tail_v163, vvC_arg3]

end Cert.KernelIdeal.Pre

end
-- ==== Proof.KIValue.lean ====
/- The kernel's value: what its program computes from the argument arrays.

The frame run of the program leaves, in every buffer that is no array of the launch, what the nine host operations
after the launch compute from the launch's result array and the contents the launch was entered with.  The result
array ends at the two cores' stacked accumulators of the padded slab and the padded graph-id row; the host operations
before the launch make those two of the argument arrays (`slabPad`, `bPad`); the operations after it are `tailK`.  So
the result buffer ends at `kernelResult` of the four arguments, and the arguments themselves are written by nothing. -/
import proofs.«408176_j5325759447103_2_alg».proof.Proof.KIValueC
import proofs.«408176_j5325759447103_2_alg».proof.Proof.KIPrefix

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The slab the launch finds is the zero-padded slab of snapshots of the arguments. -/
theorem slabA_eq (c : Dev nD) :
    slabA m c = Cert.Spec.slabPad (m ((c.tc : Thread nD τ).loc main_arg1)) (m ((c.tc : Thread nD τ).loc main_arg2))
      (m ((c.tc : Thread nD τ).loc main_arg0)) :=
  Cert.KernelIdeal.Pre.slab_val (fun b => m (c, b))

/-- The graph-id row the launch finds is the argument's ids padded with −1. -/
theorem browA_eq (c : Dev nD) : browA m c = Cert.Spec.bPad (m ((c.tc : Thread nD τ).loc main_arg3)) :=
  Cert.KernelIdeal.Pre.brow_val (fun b => m (c, b))

/-- What the operations after the launch leave in the result buffer: `kernelResult` of the four arguments. -/
theorem tail_result (c : Dev nD) :
    Pipeline.afterTail₀ cfgs (dats m) 0 (V0 m) [hostOps1] c main_v171
      = Cert.Spec.kernelResult (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  refine (tail_val _).trans ?_
  show Cert.Spec.tailK _ = Cert.Spec.tailK (Cert.Spec.out3 _ _)
  refine congrArg Cert.Spec.tailK ?_
  refine ((Pipeline.withArrays_arr spec0 launch0.win.arr_inj c (V0 m c)
    (fun w => (dats m 0 c).arrAt w cfg0.N) 2).trans (final_out m c)).trans ?_
  exact congrArg₂ Cert.Spec.out3 (slabA_eq m c) (browA_eq m c)

/-- THE KERNEL'S RUN: on every core the result buffer ends at `kernelResult` of the launch contents of the four
    arguments, and the arguments end as launched. -/
theorem kernel_run :
    θ_run (defs (F := F)) (onTc (τ := τ) (main (F := F))) ⟨m, fun _ => 0, ρ⟩ fun r => ∀ c : Dev nD,
      r.2.mem ((c.tc : Thread nD τ).loc main_v171)
        = Cert.Spec.kernelResult (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v171 (Pipeline.mem_restRefs_of main_v171 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.TileValue.lean ====
/-
  The kernel's per-tile arithmetic read at an index: a column `32 q + f` of the tile's feature columns, of the
  reference's feature columns and of the slab of snapshots is a column of one 32-wide piece, and the tile's
  contribution to the accumulator at graph `g` and column `c` is the sum over the tile's rows whose graph id is `g`
  of the row's feature (or of one, in the last column).
-/
import proofs.«408176_j5325759447103_2_alg».proof.Proof.SpecKernel
import Idealize.ShloMosaic.Lib.ValueIdx
import Idealize.ShloMosaic.Lib.Pipeline.Value
import Idealize.ShloMosaic.PureOps.Ideal.Laws
import Idealize.ShloMosaic.Lib.StableHlo.Predicate
import Idealize.ShloMosaic.Lib.IdealHost

noncomputable section

open scoped BigOperators

namespace Cert.Spec

open Idealize.ShloMosaic Idealize.ShloMosaic.ValueIdx

variable {F : FTy → Type} [FloatOps F]

namespace TileValue

/-! ## Concatenations and slices of columns, read at an index -/

section Pieces
variable {α : Type}

/-- A concatenation along axis 1 of two-dimensional pieces, read at column `pre + f` — `pre` the widths of the pieces
    before piece `k`, `f` a column of piece `k` — is piece `k` at column `f` of the same row. -/
theorem cat_cols_apply {R C W : Nat} (xs : List ((s : Shape) × (s.Idx → α)))
    (h : Shape.Concatenates (xs.map (·.1)) ⟨2, ![R, C]⟩ 1) (k : Nat)
    (x₁ : (⟨2, ![R, W]⟩ : Shape).Idx → α) (hxk : xs[k]? = some ⟨⟨2, ![R, W]⟩, x₁⟩) (pre : Nat)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (f : Fin W) (c : Fin C) (hc : c.val = pre + f.val) :
    concatenate ⟨2, ![R, C]⟩ 1 xs h (ix2 r c) = x₁ (ix2 r f) := by
  obtain ⟨hk, hxk'⟩ := List.getElem?_eq_some_iff.1 hxk
  exact concatenate_apply_piece (t := ⟨2, ![R, C]⟩) 1 xs h (ix2 r c) k hk ⟨2, ![R, W]⟩ x₁ hxk' rfl pre hpre (ix2 r f)
    (fun b hb => match b, hb with
      | ⟨0, _⟩, _ => rfl
      | ⟨1, _⟩, hb => absurd rfl hb)
    (by show pre + f.val = c.val; omega)

/-- A slice of `W` columns at column offset `o`, read at `(r, f)`, is the operand at `(r, o + f)`. -/
theorem slice_cols_apply {R C W : Nat} (o : Nat) (v : (⟨2, ![R, C]⟩ : Shape).Idx → α)
    (h : (⟨2, ![R, C]⟩ : Shape).Slices ![0, o] ⟨2, ![R, W]⟩) (r : Fin R) (f : Fin W) (c : Fin C)
    (hc : c.val = o + f.val) : extractStridedSlice ⟨2, ![R, W]⟩ ![0, o] v h (ix2 r f) = v (ix2 r c) :=
  extractStridedSlice_apply ![0, o] v h (ix2 r f) (ix2 r c) fun a => match a with
    | ⟨0, _⟩ => by show r.val = 0 + r.val; omega
    | ⟨1, _⟩ => by show c.val = o + f.val; exact hc

end Pieces

/-- A column below 320 is `32 q + f` with `q < 10` and `f < 32`. -/
theorem col_split (col : Fin 320) : ∃ (q : Fin 10) (f : Fin 32), col.val = 32 * q.val + f.val :=
  ⟨⟨col.val / 32, by have := col.isLt; omega⟩, ⟨col.val % 32, Nat.mod_lt _ (by decide)⟩, by
    show col.val = 32 * (col.val / 32) + col.val % 32; omega⟩

/-! ## One node's features by block -/

/-- Block 0 of a node's features is the slab's block 6. -/
theorem featRow_first (row : Fin 320 → F .f32) (f : Fin 32) (col : Fin 320) (hc : col.val = f.val) :
    featRow row col = row ⟨192 + f.val, by have := f.isLt; omega⟩ := by
  have hf := f.isLt
  have hd : col.val / 32 = 0 := by omega
  have hm : col.val % 32 = f.val := by omega
  unfold featRow
  rw [dif_pos hd]
  exact congrArg row (Fin.ext (by show 192 + col.val % 32 = 192 + f.val; omega))

/-- Block `q ≠ 0` of a node's features is the absolute difference of the slab's blocks `blockPos q`. -/
theorem featRow_block (row : Fin 320 → F .f32) (q : Fin 10) (hq : q.val ≠ 0) (f : Fin 32) (col : Fin 320)
    (hc : col.val = 32 * q.val + f.val) :
    featRow row col = FloatOps.absf (FloatOps.subf
      (row ⟨32 * (blockPos q).1 + f.val, by have := (blockPos_lt q).1; have := f.isLt; omega⟩)
      (row ⟨32 * (blockPos q).2 + f.val, by have := (blockPos_lt q).2; have := f.isLt; omega⟩)) := by
  have hf := f.isLt
  have hd : col.val / 32 = q.val := by omega
  have hm : col.val % 32 = f.val := by omega
  have hq' : (⟨col.val / 32, by have := col.isLt; omega⟩ : Fin 10) = q := Fin.ext hd
  unfold featRow
  rw [dif_neg (by omega)]
  simp only [hq', hm]

/-! ## The tile's feature columns -/

/-- The absolute difference of two 32-column slices of the tile, read at `(r, f)`. -/
theorem absdiff_slices_apply (v : FVec F S1280x320 .f32) (oa ob : Nat) (ha : S1280x320.Slices ![0, oa] S1280x32)
    (hb : S1280x320.Slices ![0, ob] S1280x32) (r : Fin 1280) (f : Fin 32) (ca cb : Fin 320)
    (hca : ca.val = oa + f.val) (hcb : cb.val = ob + f.val) :
    absf (subf (extractStridedSlice S1280x32 ![0, oa] v ha) (extractStridedSlice S1280x32 ![0, ob] v hb)) (ix2 r f)
      = FloatOps.absf (FloatOps.subf (v (ix2 r ca)) (v (ix2 r cb))) := by
  show FloatOps.absf (FloatOps.subf (extractStridedSlice S1280x32 ![0, oa] v ha (ix2 r f))
    (extractStridedSlice S1280x32 ![0, ob] v hb (ix2 r f))) = _
  rw [slice_cols_apply oa v ha r f ca hca, slice_cols_apply ob v hb r f cb hcb]

end TileValue

open TileValue

/-- The tile's feature column `32 q + f` of row `r` is the row's feature at that column: the outer concatenation is
    `[32 | 3 × 32 | 6 × 32]`, each 32-column block the slice at 192 or the absolute difference of two slices. -/
theorem tileFeats_apply (v : FVec F S1280x320 .f32) (r : Fin 1280) (col : Fin 320) :
    tileFeats v (ix2 r col) = featRow (fun k => v (ix2 r k)) col := by
  obtain ⟨⟨q, hq⟩, f, hc⟩ := col_split col
  have hf := f.isLt
  unfold tileFeats
  dsimp only at hc ⊢
  interval_cases q
  · -- block 0: the slice at 192
    rw [featRow_first _ f col (by omega)]
    refine Eq.trans (cat_cols_apply (W := 32) _ _ 0 _ rfl 0 rfl r f col (by omega)) ?_
    exact slice_cols_apply 192 v _ r f _ rfl
  · -- block 1: first of the three-block piece
    rw [featRow_block _ ⟨1, by decide⟩ (by decide) f col hc]
    refine Eq.trans (cat_cols_apply (W := 96) _ _ 1 _ rfl 32 rfl r ⟨f.val, by omega⟩ col
      (by show col.val = 32 + f.val; omega)) ?_
    refine Eq.trans (cat_cols_apply (W := 32) _ _ 0 _ rfl 0 rfl r f _ (Nat.zero_add _).symm) ?_
    exact absdiff_slices_apply v _ _ _ _ r f _ _ rfl rfl
  · -- block 2: second of the three-block piece
    rw [featRow_block _ ⟨2, by decide⟩ (by decide) f col hc]
    refine Eq.trans (cat_cols_apply (W := 96) _ _ 1 _ rfl 32 rfl r ⟨32 + f.val, by omega⟩ col
      (by show col.val = 32 + (32 + f.val); omega)) ?_
    refine Eq.trans (cat_cols_apply (W := 32) _ _ 1 _ rfl 32 rfl r f _ rfl) ?_
    exact absdiff_slices_apply v _ _ _ _ r f _ _ rfl rfl
  · -- block 3: third of the three-block piece
    rw [featRow_block _ ⟨3, by decide⟩ (by decide) f col hc]
    refine Eq.trans (cat_cols_apply (W := 96) _ _ 1 _ rfl 32 rfl r ⟨64 + f.val, by omega⟩ col
      (by show col.val = 32 + (64 + f.val); omega)) ?_
    refine Eq.trans (cat_cols_apply (W := 32) _ _ 2 _ rfl 64 rfl r f _ rfl) ?_
    exact absdiff_slices_apply v _ _ _ _ r f _ _ rfl rfl
  · -- block 4: first of the six-block piece
    rw [featRow_block _ ⟨4, by decide⟩ (by decide) f col hc]
    refine Eq.trans (cat_cols_apply (W := 192) _ _ 2 _ rfl 128 rfl r ⟨f.val, by omega⟩ col
      (by show col.val = 128 + f.val; omega)) ?_
    refine Eq.trans (cat_cols_apply (W := 32) _ _ 0 _ rfl 0 rfl r f _ (Nat.zero_add _).symm) ?_
    exact absdiff_slices_apply v _ _ _ _ r f _ _ rfl rfl
  · -- block 5: second of the six-block piece
    rw [featRow_block _ ⟨5, by decide⟩ (by decide) f col hc]
    refine Eq.trans (cat_cols_apply (W := 192) _ _ 2 _ rfl 128 rfl r ⟨32 + f.val, by omega⟩ col
      (by show col.val = 128 + (32 + f.val); omega)) ?_
    refine Eq.trans (cat_cols_apply (W := 32) _ _ 1 _ rfl 32 rfl r f _ rfl) ?_
    exact absdiff_slices_apply v _ _ _ _ r f _ _ rfl rfl
  · -- block 6: third of the six-block piece
    rw [featRow_block _ ⟨6, by decide⟩ (by decide) f col hc]
    refine Eq.trans (cat_cols_apply (W := 192) _ _ 2 _ rfl 128 rfl r ⟨64 + f.val, by omega⟩ col
      (by show col.val = 128 + (64 + f.val); omega)) ?_
    refine Eq.trans (cat_cols_apply (W := 32) _ _ 2 _ rfl 64 rfl r f _ rfl) ?_
    exact absdiff_slices_apply v _ _ _ _ r f _ _ rfl rfl
  · -- block 7: fourth of the six-block piece
    rw [featRow_block _ ⟨7, by decide⟩ (by decide) f col hc]
    refine Eq.trans (cat_cols_apply (W := 192) _ _ 2 _ rfl 128 rfl r ⟨96 + f.val, by omega⟩ col
      (by show col.val = 128 + (96 + f.val); omega)) ?_
    refine Eq.trans (cat_cols_apply (W := 32) _ _ 3 _ rfl 96 rfl r f _ rfl) ?_
    exact absdiff_slices_apply v _ _ _ _ r f _ _ rfl rfl
  · -- block 8: fifth of the six-block piece
    rw [featRow_block _ ⟨8, by decide⟩ (by decide) f col hc]
    refine Eq.trans (cat_cols_apply (W := 192) _ _ 2 _ rfl 128 rfl r ⟨128 + f.val, by omega⟩ col
      (by show col.val = 128 + (128 + f.val); omega)) ?_
    refine Eq.trans (cat_cols_apply (W := 32) _ _ 4 _ rfl 128 rfl r f _ rfl) ?_
    exact absdiff_slices_apply v _ _ _ _ r f _ _ rfl rfl
  · -- block 9: sixth of the six-block piece
    rw [featRow_block _ ⟨9, by decide⟩ (by decide) f col hc]
    refine Eq.trans (cat_cols_apply (W := 192) _ _ 2 _ rfl 128 rfl r ⟨160 + f.val, by omega⟩ col
      (by show col.val = 128 + (160 + f.val); omega)) ?_
    refine Eq.trans (cat_cols_apply (W := 32) _ _ 5 _ rfl 160 rfl r f _ rfl) ?_
    exact absdiff_slices_apply v _ _ _ _ r f _ _ rfl rfl

namespace TileValue

/-! ## The reference's feature columns and the slab of snapshots -/

/-- The step count of the slab's block `p`. -/
def slabStep : Fin 10 → Nat
  | 0 => 1 | 1 => 2 | 2 => 3 | 3 => 4 | 4 => 5 | 5 => 6 | 6 => 8 | 7 => 9 | 8 => 10 | 9 => 12

/-- Ten 32-column pieces side by side, read at column `32 q + f`: piece `q` at column `f`. -/
theorem cat10_apply (p : Fin 10 → FVec F S50000x32 .f32) (n : Fin 50000) (q : Fin 10) (f : Fin 32) (c : Fin 320)
    (hc : c.val = 32 * q.val + f.val) :
    concatenate S50000x320 1
      [⟨S50000x32, p 0⟩, ⟨S50000x32, p 1⟩, ⟨S50000x32, p 2⟩, ⟨S50000x32, p 3⟩, ⟨S50000x32, p 4⟩,
       ⟨S50000x32, p 5⟩, ⟨S50000x32, p 6⟩, ⟨S50000x32, p 7⟩, ⟨S50000x32, p 8⟩, ⟨S50000x32, p 9⟩] cat10 (ix2 n c)
      = p q (ix2 n f) := by
  obtain ⟨q, hq⟩ := q
  refine cat_cols_apply (W := 32) _ _ q (p ⟨q, hq⟩) ?_ (32 * q) ?_ n f c hc
  · interval_cases q <;> rfl
  · interval_cases q <;> rfl

/-- The slab's column `32 p + f` is the snapshot after `slabStep p` steps at column `f`. -/
theorem slab_apply (a1 : IVec S2x800000 32) (a2 : FVec F S800000 .f32) (x : FVec F S50000x32 .f32) (n : Fin 50000)
    (p : Fin 10) (f : Fin 32) (c : Fin 320) (hc : c.val = 32 * p.val + f.val) :
    slab a1 a2 x (ix2 n c) = snap a1 a2 x (slabStep p) (ix2 n f) :=
  cat10_apply (fun p => snap a1 a2 x (slabStep p)) n p f c hc

/-- The slab holds, at the positions `blockPos q`, the snapshots after `blockSteps q` steps. -/
theorem slabStep_blockPos : ∀ q : Fin 10, slabStep ⟨(blockPos q).1, (blockPos_lt q).1⟩ = (blockSteps q).1 ∧
    slabStep ⟨(blockPos q).2, (blockPos_lt q).2⟩ = (blockSteps q).2 := by decide

end TileValue

/-- The reference's feature column `32 q + f` of node `n` is the node's feature there, computed from its slab row. -/
theorem feats_apply (a1 : IVec S2x800000 32) (a2 : FVec F S800000 .f32) (x : FVec F S50000x32 .f32) (n : Fin 50000)
    (col : Fin 320) : feats a1 a2 x (ix2 n col) = featRow (fun k => slab a1 a2 x (ix2 n k)) col := by
  obtain ⟨q, f, hc⟩ := col_split col
  refine Eq.trans (cat10_apply (featBlk a1 a2 x) n q f col hc) ?_
  by_cases hq : q = 0
  · subst hq
    rw [featRow_first _ f col (by simpa using hc)]
    unfold featBlk
    rw [if_pos rfl]
    exact (slab_apply a1 a2 x n 6 f _ rfl).symm
  · have hq' : q.val ≠ 0 := fun h => hq (Fin.ext h)
    rw [featRow_block _ q hq' f col hc]
    unfold featBlk
    rw [if_neg hq]
    rw [slab_apply a1 a2 x n ⟨(blockPos q).1, (blockPos_lt q).1⟩ f _ rfl,
      slab_apply a1 a2 x n ⟨(blockPos q).2, (blockPos_lt q).2⟩ f _ rfl, (slabStep_blockPos q).1, (slabStep_blockPos q).2]
    rfl

namespace TileValue

/-! ## The tile's contribution to the accumulator -/

/-- The pooling product's operand indices: the left operand is read at (output row, contraction position) … -/
theorem dotPool_lhs_0 (j : S64x321.Idx) (k : dotPool.contr.Idx) : (dotPool.lhsIdx j k 0).val = (j 0).val := by
  unfold DotDims.lhsIdx
  rw [dif_neg (show ¬(0 : Fin S64x1280.rank) ∈ dotPool.lhsBatch by decide),
    dif_pos (show (0 : Fin S64x1280.rank) ∈ dotPool.lhsNonContracting by decide)]
  rfl
theorem dotPool_lhs_1 (j : S64x321.Idx) (k : dotPool.contr.Idx) :
    (dotPool.lhsIdx j k 1).val = (k ⟨0, by decide⟩).val :=
  dotPool.lhsIdx_val_of_single (cl := 1) rfl j k
/-- … and the right operand at (contraction position, output column). -/
theorem dotPool_rhs_0 (j : S64x321.Idx) (k : dotPool.contr.Idx) :
    (dotPool.rhsIdx j k 0).val = (k ⟨0, by decide⟩).val :=
  dotPool.rhsIdx_val_of_single (cr := 0) rfl j k
theorem dotPool_rhs_1 (j : S64x321.Idx) (k : dotPool.contr.Idx) : (dotPool.rhsIdx j k 1).val = (j 1).val := by
  unfold DotDims.rhsIdx
  rw [dif_neg (show ¬(1 : Fin S1280x321.rank) ∈ dotPool.rhsBatch by decide),
    dif_pos (show (1 : Fin S1280x321.rank) ∈ dotPool.rhsNonContracting by decide)]
  rfl

/-- A one-bit condition widened to a word and converted to a float is one where it holds and zero where it fails. -/
theorem sitofp_bit (b : BitVec 1) : (FloatOps.sitofp .f32 (b.setWidth 32) : Ideal .f32) = if b = 1#1 then 1 else 0 := by
  show ((((b.setWidth 32).toInt : ℤ) : ℝ) : EReal) = _
  rcases BitVec.eq_zero_or_eq_one b with h | h
  · subst h
    rw [if_neg (by decide), show ((0#1 : BitVec 1).setWidth 32).toInt = 0 by decide]
    simp
  · subst h
    rw [if_pos rfl, show ((1#1 : BitVec 1).setWidth 32).toInt = 1 by decide]
    simp

/-- The one-hot matrix at `(g, r)`: one where row `r`'s graph id is `g`, else zero. -/
theorem onehot_apply (bb : IVec S1x1280 32) (h1 : S1x1280.ShapeCasts S1x1280) (h2 : S1x1280.ShapeCasts S1x1280)
    (hb : S1x1280.Broadcasts S64x1280) (hi : S64x1280.Iotas .tc 32 [0]) (g : Fin 64) (r : Fin 1280) :
    (sitofp .f32 (extui 32 (cmpi .eq (iota .tc S64x1280 32 [0] hi)
        (broadcastTo S64x1280 (shapeCast S1x1280 (shapeCast S1x1280 bb h1) h2) hb)) (by decide)) : FVec Ideal S64x1280 .f32)
      (ix2 g r) = if bb (ix2 ⟨0, Nat.one_pos⟩ r) = BitVec.ofNat 32 g.val then 1 else 0 := by
  rw [shapeCast_self, shapeCast_self]
  have e1 : iota .tc S64x1280 32 [0] hi (ix2 g r) = BitVec.ofNat 32 g.val :=
    iota_single_apply .tc S64x1280 32 0 hi (ix2 g r)
  have e2 : broadcastTo S64x1280 bb hb (ix2 g r) = bb (ix2 ⟨0, Nat.one_pos⟩ r) :=
    broadcastTo_apply bb hb (ix2 g r) (ix2 ⟨0, Nat.one_pos⟩ r) fun a => match a with
      | ⟨0, _⟩ => rfl
      | ⟨1, _⟩ => rfl
  show FloatOps.sitofp .f32 ((IntOp.cmpi .eq (iota .tc S64x1280 32 [0] hi (ix2 g r))
    (broadcastTo S64x1280 bb hb (ix2 g r))).setWidth 32) = _
  rw [e1, e2, sitofp_bit]
  by_cases h : bb (ix2 ⟨0, Nat.one_pos⟩ r) = BitVec.ofNat 32 g.val
  · rw [if_pos h, if_pos (StableHlo.Predicate.cmpi_eq_iff.2 h.symm)]
  · rw [if_neg h, if_neg (fun hc => h (StableHlo.Predicate.cmpi_eq_iff.1 hc).symm)]

/-- The extended feature rows at `(r, c)`: the row's feature in the first 320 columns, one in the last. -/
theorem extFeats_apply (xb : FVec Ideal S1280x320 .f32) (r : Fin 1280) (col : Fin 321) :
    concatenate S1280x321 1 [⟨S1280x320, tileFeats xb⟩,
        ⟨S1280x1, (broadcast S1280x1 (Scalar.ofBits .f32 0x3F800000#32) : FVec Ideal S1280x1 .f32)⟩] cat2e (ix2 r col)
      = if h : col.val < 320 then featRow (fun k => xb (ix2 r k)) ⟨col.val, h⟩ else 1 := by
  by_cases h : col.val < 320
  · rw [dif_pos h]
    refine Eq.trans (cat_cols_apply (W := 320) _ _ 0 _ rfl 0 rfl r ⟨col.val, h⟩ col (by simp)) ?_
    exact tileFeats_apply xb r ⟨col.val, h⟩
  · rw [dif_neg h]
    have hc := col.isLt
    refine Eq.trans (cat_cols_apply (W := 1) _ _ 1 _ rfl 320 rfl r ⟨0, Nat.one_pos⟩ col
      (by show col.val = 320 + 0; omega)) ?_
    show Ideal.ofBits .f32 0x3F800000#32 = 1
    exact Ideal.ofBits_one_f32

end TileValue

/-- What one grid point adds to the accumulator at graph `g` and column `c`: the sum over the tile's rows whose id is
    `g` of the row's feature at `c`, or of one in the last column. -/
theorem tilePartial_apply (xb : FVec Ideal S1280x320 .f32) (bb : IVec S1x1280 32) (g : Fin 64) (col : Fin 321) :
    tilePartial xb bb (ix2 g col) = ∑ r : Fin 1280,
      (if bb (ix2 ⟨0, Nat.one_pos⟩ r) = BitVec.ofNat 32 g.val then (1 : EReal) else 0) *
        (if h : col.val < 320 then featRow (fun k => xb (ix2 r k)) ⟨col.val, h⟩ else 1) := by
  unfold tilePartial
  dsimp only [matmul]
  rw [Ideal.matmul_constant_zero_apply, ← Equiv.sum_comp (contrEquiv1 dotPool 1280 rfl rfl).symm]
  refine Finset.sum_congr rfl fun r _ => ?_
  have hl : dotPool.lhsIdx (ix2 g col) ((contrEquiv1 dotPool 1280 rfl rfl).symm r) = ix2 g r := by
    funext a
    match a with
    | ⟨0, _⟩ => exact Fin.ext (dotPool_lhs_0 _ _)
    | ⟨1, _⟩ => exact Fin.ext ((dotPool_lhs_1 _ _).trans (contrEquiv1_symm_val dotPool 1280 rfl rfl r))
  have hr : dotPool.rhsIdx (ix2 g col) ((contrEquiv1 dotPool 1280 rfl rfl).symm r) = ix2 r col := by
    funext a
    match a with
    | ⟨0, _⟩ => exact Fin.ext ((dotPool_rhs_0 _ _).trans (contrEquiv1_symm_val dotPool 1280 rfl rfl r))
    | ⟨1, _⟩ => exact Fin.ext (dotPool_rhs_1 _ _)
  rw [hl, hr, truncf_apply, truncf_apply, onehot_apply, shapeCast_self, extFeats_apply]

end Cert.Spec

end
-- ==== Proof.PoolAcc.lean ====
/-
  The sum of the two cores' accumulators, read at a graph id and a column: every row of the padded arrays whose id is
  the graph's contributes its feature in that column (one, in the count column).  Each core's accumulator is reset at
  its first tile and adds one tile per point, so after its twentieth point it holds the sum of its twenty tiles;
  the forty tiles of 1280 rows are the 51200 padded rows.
-/
import proofs.«408176_j5325759447103_2_alg».proof.Proof.TileValue
import Idealize.ShloMosaic.PureOps.Ideal.Laws
import Idealize.ShloMosaic.Lib.ValueIdx
import Idealize.ShloMosaic.Lib.Pipeline.Value
import Mathlib.Algebra.BigOperators.Fin
import Mathlib.Data.Fintype.BigOperators

noncomputable section

namespace Cert.Spec

open Idealize.ShloMosaic Idealize.ShloMosaic.ValueIdx
open scoped BigOperators

/-- What padded row `n` contributes to graph `g` in column `col`: its feature there (one in the count column 320) when
    the row's id is `g`, nothing otherwise. -/
def contrib (slabP : FVec Ideal S51200x320 .f32) (bP : IVec S1x51200 32) (g : Fin 64) (col : Fin 321) (n : Fin 51200) : EReal :=
  (if bP (ix2 ⟨0, Nat.one_pos⟩ n) = BitVec.ofNat 32 g.val then (1 : EReal) else 0)
    * (if h : col.val < 320 then featRow (fun k => slabP (ix2 n k)) ⟨col.val, h⟩ else 1)

/-! ## The accumulator at the extended reals -/

/-- The reset accumulator reads zero everywhere. -/
theorem accZero_apply (j : S64x321.Idx) : (accZero : FVec Ideal S64x321 .f32) j = 0 := by
  unfold accZero
  rw [shapeCast_self]
  exact Ideal.ofBits_zero_f32

/-- A point adds its tile's term to what it found. -/
theorem accAdd_apply (p acc : FVec Ideal S64x321 .f32) (j : S64x321.Idx) : accAdd p acc j = acc j + p j := by
  unfold accAdd
  rw [shapeCast_self]
  rfl

/-- Tile `T`'s term at an accumulator index, as a function of every natural `T` (zero past the forty tiles). -/
def tileTerm (slabP : FVec Ideal S51200x320 .f32) (bP : IVec S1x51200 32) (j : S64x321.Idx) (T : Nat) : EReal :=
  if h : T < 40 then tilePartial (tileX slabP T h) (tileB bP T h) j else 0

/-- After point `t` the accumulator holds the terms of the tiles from the last reset (the multiple of 20 below `t`)
    up to `t`: by induction on `t`, the reset falling exactly where `t` is a multiple of 20. -/
theorem accPt_closed (slabP : FVec Ideal S51200x320 .f32) (bP : IVec S1x51200 32) (j : S64x321.Idx) :
    ∀ (t : Nat) (h : t < 40),
      accPt slabP bP t h j = ∑ k ∈ Finset.range (t % 20 + 1), tileTerm slabP bP j (t - t % 20 + k)
  | 0, h => by
    rw [accPt, accAdd_apply, accZero_apply, zero_add]
    show _ = ∑ k ∈ Finset.range 1, tileTerm slabP bP j (0 + k)
    rw [Finset.sum_range_one, tileTerm, dif_pos h]
  | t + 1, h => by
    rw [accPt]
    split_ifs with hm
    · rw [accAdd_apply, accZero_apply, zero_add, hm, Finset.sum_range_one]
      show _ = tileTerm slabP bP j (t + 1)
      rw [tileTerm, dif_pos h]
    · rw [accAdd_apply, accPt_closed slabP bP j t (Nat.lt_of_succ_lt h)]
      have e : (t + 1) % 20 = t % 20 + 1 := by omega
      rw [e, Finset.sum_range_succ (n := t % 20 + 1)]
      congr 1
      · refine Finset.sum_congr rfl fun k _ => ?_
        congr 1
        omega
      · have e' : t + 1 - (t % 20 + 1) + (t % 20 + 1) = t + 1 := by omega
        rw [e', tileTerm, dif_pos h]

/-- Core `c`'s accumulator after its last point: the sum of its twenty tiles' terms. -/
theorem out3_apply (slabP : FVec Ideal S51200x320 .f32) (bP : IVec S1x51200 32) (c : Fin 2) (g : Fin 64) (col : Fin 321) :
    out3 slabP bP (ix3 c g col) = ∑ k ∈ Finset.range 20, tileTerm slabP bP (ix2 g col) (20 * c.val + k) := by
  have hc : c.val < 2 := c.isLt
  show accPt slabP bP (20 * c.val + 19) _ (ix2 g col) = _
  rw [accPt_closed]
  have e1 : (20 * c.val + 19) % 20 + 1 = 20 := by omega
  have e2 : 20 * c.val + 19 - (20 * c.val + 19) % 20 = 20 * c.val := by omega
  rw [e1, e2]

/-! ## The cores' sum -/

/-- The host's sum over the leading axis of two, read at `(g, col)`: core 0's entry plus core 1's. -/
theorem coreSum_apply (o : FVec Ideal S2x64x321 .f32) (g : Fin 64) (col : Fin 321) :
    coreSum o (ix2 g col) = o (ix3 0 g col) + o (ix3 1 g col) := by
  have hr : Shape.Reduces S2x64x321 [0] S64x321 := by decide
  show Ideal.hostReduceAdd _ o (Ideal.ofBits .f32 0x00000000#32) (ix2 g col) = _
  rw [Ideal.hostReduceAdd_single _ hr, Ideal.ofBits_zero_f32, zero_add]
  show ∑ k : Fin 2, o (hr.lift (ix2 g col) k) = _
  rw [Fin.sum_univ_two]
  have l0 : hr.lift (ix2 g col) (0 : Fin 2) = ix3 0 g col := by
    funext a; match a with | ⟨0, _⟩ => rfl | ⟨1, _⟩ => rfl | ⟨2, _⟩ => rfl
  have l1 : hr.lift (ix2 g col) (1 : Fin 2) = ix3 1 g col := by
    funext a; match a with | ⟨0, _⟩ => rfl | ⟨1, _⟩ => rfl | ⟨2, _⟩ => rfl
  rw [l0, l1]

/-! ## A tile's term as its rows' contributions, and the forty tiles as the 51200 rows -/

/-- A padded row's contribution as a function of every natural row number (zero past the 51200 rows). -/
def contribN (slabP : FVec Ideal S51200x320 .f32) (bP : IVec S1x51200 32) (g : Fin 64) (col : Fin 321) (n : Nat) : EReal :=
  if h : n < 51200 then contrib slabP bP g col ⟨n, h⟩ else 0

/-- Tile `T`'s term at `(g, col)` is the sum of the contributions of its 1280 rows, the padded rows `1280 T + r`. -/
theorem tileTerm_eq (slabP : FVec Ideal S51200x320 .f32) (bP : IVec S1x51200 32) (g : Fin 64) (col : Fin 321) (T : Nat)
    (hT : T < 40) :
    tileTerm slabP bP (ix2 g col) T = ∑ r ∈ Finset.range 1280, contribN slabP bP g col (1280 * T + r) := by
  rw [tileTerm, dif_pos hT, tilePartial_apply, ← Fin.sum_univ_eq_sum_range (fun r => contribN slabP bP g col (1280 * T + r))]
  refine Finset.sum_congr rfl fun r _ => ?_
  have hr : 1280 * T + r.val < 51200 := by have := r.isLt; omega
  rw [contribN, dif_pos hr]
  rfl

/-- A sum over `m · n` naturals, split into `m` stretches of `n`. -/
theorem sum_range_mul_split {M : Type*} [AddCommMonoid M] (n : Nat) (f : Nat → M) :
    ∀ m : Nat, ∑ x ∈ Finset.range (m * n), f x = ∑ a ∈ Finset.range m, ∑ b ∈ Finset.range n, f (n * a + b)
  | 0 => by simp
  | m + 1 => by
    rw [Nat.succ_mul, Finset.sum_range_add, sum_range_mul_split n f m, Finset.sum_range_succ, Nat.mul_comm m n]

/-- The cores' sum at `(g, col)` is the sum of all padded rows' contributions. -/
theorem total_apply (slabP : FVec Ideal S51200x320 .f32) (bP : IVec S1x51200 32) (g : Fin 64) (col : Fin 321) :
    coreSum (out3 slabP bP) (ix2 g col) = ∑ n : Fin 51200, contrib slabP bP g col n := by
  rw [coreSum_apply, out3_apply, out3_apply]
  have h40 : ∑ T ∈ Finset.range (20 + 20), tileTerm slabP bP (ix2 g col) T
      = ∑ k ∈ Finset.range 20, tileTerm slabP bP (ix2 g col) (20 * (0 : Fin 2).val + k)
        + ∑ k ∈ Finset.range 20, tileTerm slabP bP (ix2 g col) (20 * (1 : Fin 2).val + k) := by
    rw [Finset.sum_range_add]
    congr 1
  rw [← h40]
  have hT : ∑ T ∈ Finset.range (20 + 20), tileTerm slabP bP (ix2 g col) T
      = ∑ T ∈ Finset.range 40, ∑ r ∈ Finset.range 1280, contribN slabP bP g col (1280 * T + r) :=
    Finset.sum_congr rfl fun T hT => tileTerm_eq slabP bP g col T (Finset.mem_range.mp hT)
  rw [hT, ← sum_range_mul_split 1280 (contribN slabP bP g col) 40,
    ← Fin.sum_univ_eq_sum_range (contribN slabP bP g col) (40 * 1280)]
  show ∑ n : Fin 51200, contribN slabP bP g col n.val = _
  refine Finset.sum_congr rfl fun n _ => ?_
  rw [contribN, dif_pos n.isLt]

end Cert.Spec

end
-- ==== Proof.LibRowOps.lean ====
/-
  Row gathers and accumulating row scatters read at an index, at generic extents.

  A graph message-passing step reads rows of a node table at an edge's end point (a StableHLO gather of whole rows) and
  adds edge rows back into node rows (a StableHLO scatter with an `add` body, several edges landing on one node). This
  file reads those operations at one element: the gathered row `e` is the operand's row at the start index of `e`, read
  signed and clamped into the table; the scattered table at row `n` is the operand's row plus the sum of the rows of the
  edges whose (signed, unclamped) index is `n`; and the same for a vector of per-edge scalars added into per-group
  scalars. All extents (rows `N`, edges `E`, columns `W`, groups `G`) are generic; the dimension numbers take their
  well-formedness as an argument, decided at a program's literal shapes.
-/
import Idealize.ShloMosaic.PureOps
import Idealize.ShloMosaic.PureOps.Ideal
import Idealize.ShloMosaic.PureOps.Ideal.Laws
import Idealize.ShloMosaic.Lib.ValueIdx

noncomputable section

open scoped BigOperators

namespace Cert.LibRowOps

open Idealize.ShloMosaic Idealize.ShloMosaic.ValueIdx

/-! ## Small general facts -/

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An update lands on operand element `i` exactly when, on every axis, its (signed) start plus its window coordinate
    is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hs a
      have hi := Option.some.inj hs
      subst hi
      have := h a
      show _ = (((d.start j idx a + (d.window j a : Int)).toNat : Nat) : Int)
      omega
    · intro hi
      congr 1
      funext a
      refine Fin.ext ?_
      have := hi a
      have := h a
      show (d.start j idx a + (d.window j a : Int)).toNat = (i a).val
      omega
  · rename_i h
    constructor
    · intro hs; cases hs
    · intro hi
      exact absurd (fun a => by have := hi a; have := (i a).isLt; constructor <;> omega) h

/-- A sum over one range of a term that is nonzero at one point only is the term there. -/
theorem sum_and_eq {M : Type*} [AddCommMonoid M] {n : Nat} (P : Prop) [Decidable P] (f : Fin n) (g : Fin n → M) :
    (∑ b : Fin n, if P ∧ b = f then g b else 0) = if P then g f else 0 := by
  by_cases hP : P
  · simp [hP]
  · simp [hP]

/-! ## The row gather -/

/-- Dimension numbers of a gather of whole rows: operand `[N, W]`, start indices `[E, 1]` (one row number per edge),
    result `[E, W]`; the row axis is collapsed and indexed, the column axis is the one offset axis. -/
abbrev rowG (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row gather read at `(e, f)`: the operand at row `idx[e, 0]`, read signed and clamped into `[0, N − 1]`, and
    column `f`. -/
theorem rowGather_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (f : Fin W) :
    Host.gather (rowG N E W wf) x idx (ix2 e f)
      = x (ix2 ⟨min (idx (ix2 e ⟨0, Nat.one_pos⟩)).toInt.toNat (N - 1), by omega⟩ f) := by
  unfold Host.gather
  congr 1
  funext a
  refine Fin.ext ?_
  show (rowG N E W wf).start (ix2 e f) idx a + (rowG N E W wf).batchCoord (ix2 e f) a
    + (rowG N E W wf).offCoord (ix2 e f) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin (⟨2, ![N, W]⟩ : Shape).rank) ∈ (rowG N E W wf).startIndexMap from
      List.mem_singleton.mpr rfl)]
    have hsi : (rowG N E W wf).siIdx (ix2 e f)
        ⟨List.idxOf (⟨0, h0⟩ : Fin (⟨2, ![N, W]⟩ : Shape).rank) (rowG N E W wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hs : (rowG N E W wf).start (ix2 e f) idx ⟨1, h1⟩ = 0 := by
      unfold GatherDims.start
      rw [dif_neg (fun h => Nat.one_ne_zero (congrArg Fin.val (List.mem_singleton.mp h)))]
    have ho : (rowG N E W wf).offCoord (ix2 e f) ⟨1, h1⟩ = f.val := by
      unfold GatherDims.offCoord
      rw [dif_pos ((GatherDims.mem_sKept _ _).mpr
        ⟨fun h => Nat.one_ne_zero (congrArg Fin.val (List.mem_singleton.mp h)), List.not_mem_nil⟩)]
      rfl
    rw [hs, ho, Nat.zero_add]

/-! ## The accumulating row scatter -/

/-- Dimension numbers of a scatter of whole rows: operand `[N, W]`, scatter indices `[E, 1]`, updates `[E, W]`; the
    row axis is inserted and indexed, the column axis is the one window axis. -/
abbrev rowS (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- On the row axis the window's start is the edge's signed index … -/
theorem rowS_start0 {N E W w : Nat} (wf : ScatterDims.WF ⟨2, ![N, W]⟩ ⟨2, ![E, 1]⟩ ⟨2, ![E, W]⟩ [1] [0] [0] 1) (idx : IVec ⟨2, ![E, 1]⟩ w) (e : Fin E) (f : Fin W)
    (h0 : 0 < (⟨2, ![N, W]⟩ : Shape).rank) :
    (rowS N E W wf).start (ix2 e f) idx ⟨0, h0⟩ = (idx (ix2 e ⟨0, Nat.one_pos⟩)).toInt := by
  unfold ScatterDims.start
  rw [dif_pos (show (⟨0, h0⟩ : Fin (⟨2, ![N, W]⟩ : Shape).rank) ∈ (rowS N E W wf).scatterDimsToOperandDims from
    List.mem_singleton.mpr rfl)]
  have hsi : (rowS N E W wf).siIdx (ix2 e f)
      ⟨List.idxOf (⟨0, h0⟩ : Fin (⟨2, ![N, W]⟩ : Shape).rank) (rowS N E W wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
/-- … and on the column axis it is `0`; -/
theorem rowS_start1 {N E W w : Nat} (wf : ScatterDims.WF ⟨2, ![N, W]⟩ ⟨2, ![E, 1]⟩ ⟨2, ![E, W]⟩ [1] [0] [0] 1) (idx : IVec ⟨2, ![E, 1]⟩ w) (e : Fin E) (f : Fin W)
    (h1 : 1 < (⟨2, ![N, W]⟩ : Shape).rank) : (rowS N E W wf).start (ix2 e f) idx ⟨1, h1⟩ = 0 := by
  unfold ScatterDims.start
  rw [dif_neg (fun h => Nat.one_ne_zero (congrArg Fin.val (List.mem_singleton.mp h)))]
/-- the window coordinate is `0` on the (inserted) row axis … -/
theorem rowS_window0 {N E W : Nat} (wf : ScatterDims.WF ⟨2, ![N, W]⟩ ⟨2, ![E, 1]⟩ ⟨2, ![E, W]⟩ [1] [0] [0] 1) (e : Fin E) (f : Fin W) (h0 : 0 < (⟨2, ![N, W]⟩ : Shape).rank) :
    (rowS N E W wf).window (ix2 e f) ⟨0, h0⟩ = 0 := by
  unfold ScatterDims.window
  rw [dif_neg (show (⟨0, h0⟩ : Fin (⟨2, ![N, W]⟩ : Shape).rank) ∉ (rowS N E W wf).sKept from
    fun h => (mem_kept _ _).mp h (List.mem_singleton.mpr rfl))]
/-- … and the update's column on the column axis. -/
theorem rowS_window1 {N E W : Nat} (wf : ScatterDims.WF ⟨2, ![N, W]⟩ ⟨2, ![E, 1]⟩ ⟨2, ![E, W]⟩ [1] [0] [0] 1) (e : Fin E) (f : Fin W) (h1 : 1 < (⟨2, ![N, W]⟩ : Shape).rank) :
    (rowS N E W wf).window (ix2 e f) ⟨1, h1⟩ = f.val := by
  unfold ScatterDims.window
  rw [dif_pos ((mem_kept _ _).mpr fun h => Nat.one_ne_zero (congrArg Fin.val (List.mem_singleton.mp h)))]
  rfl

/-- Update element `(e, f)` lands on operand element `(n, f')` exactly when the signed index of `e` is `n` and the
    columns agree. -/
theorem rowS_resultIdx {N E W w : Nat} (wf : ScatterDims.WF ⟨2, ![N, W]⟩ ⟨2, ![E, 1]⟩ ⟨2, ![E, W]⟩ [1] [0] [0] 1)
    (idx : IVec ⟨2, ![E, 1]⟩ w) (e : Fin E) (f : Fin W) (n : Fin N) (f' : Fin W) :
    (rowS N E W wf).resultIdx? (ix2 e f) idx = some (ix2 n f')
      ↔ (idx (ix2 e ⟨0, Nat.one_pos⟩)).toInt = (n.val : Int) ∧ f = f' := by
  rw [resultIdx?_eq_some_iff]
  constructor
  · intro h
    have a0 := h ⟨0, Nat.zero_lt_two⟩
    have a1 := h ⟨1, Nat.one_lt_two⟩
    rw [rowS_start0, rowS_window0] at a0
    rw [rowS_start1, rowS_window1] at a1
    refine ⟨?_, Fin.ext ?_⟩
    · have : ((ix2 n f' ⟨0, Nat.zero_lt_two⟩ : Fin N).val : Int) = (n.val : Int) := rfl
      omega
    · have : ((ix2 n f' ⟨1, Nat.one_lt_two⟩ : Fin W).val : Int) = (f'.val : Int) := rfl
      omega
  · rintro ⟨hn, rfl⟩ a
    match a with
    | ⟨0, h0⟩ =>
      rw [rowS_start0, rowS_window0, hn]
      show (n.val : Int) + ((0 : Nat) : Int) = (n.val : Int)
      omega
    | ⟨1, h1⟩ =>
      rw [rowS_start1, rowS_window1]
      show (0 : Int) + (f.val : Int) = (f.val : Int)
      omega

/-- The accumulating row scatter at the ideal values, read at `(n, f)`: the operand there plus the sum over the edges
    whose signed index is `n` of their update at column `f`. -/
theorem rowScatterAdd_apply {N E W w : Nat} (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ w) (upd : FVec Ideal ⟨2, ![E, W]⟩ .f32)
    (n : Fin N) (f : Fin W) :
    Host.scatterAdd (rowS N E W wf) x idx upd (ix2 n f)
      = x (ix2 n f) + ∑ e : Fin E, if (idx (ix2 e ⟨0, Nat.one_pos⟩)).toInt = (n.val : Int) then upd (ix2 e f) else 0 := by
  show Ideal.hostScatterAdd (rowS N E W wf) x idx upd (ix2 n f) = _
  unfold Ideal.hostScatterAdd
  congr 1
  rw [Finset.sum_filter, sum_idx2]
  refine Finset.sum_congr rfl fun e _ => ?_
  simp only [rowS_resultIdx]
  exact sum_and_eq _ f fun b => upd (ix2 e b)

/-! ## The accumulating scatter of a vector into groups -/

/-- Dimension numbers of a scatter of scalars: operand `[G]`, scatter indices `[E, 1]`, updates `[E]`; the one
    operand axis is inserted and indexed, and there is no window axis. -/
abbrev vecS (G E : Nat) (wf : ScatterDims.WF ⟨1, ![G]⟩ ⟨2, ![E, 1]⟩ ⟨1, ![E]⟩ [] [0] [0] 1) :
    ScatterDims ⟨1, ![G]⟩ ⟨2, ![E, 1]⟩ ⟨1, ![E]⟩ where
  updateWindowDims := []
  insertedWindowDims := [0]
  scatterDimsToOperandDims := [0]
  indexVectorDim := 1
  wf := wf

/-- The window's start on the one operand axis is the edge's signed index … -/
theorem vecS_start {G E w : Nat} (wf : ScatterDims.WF ⟨1, ![G]⟩ ⟨2, ![E, 1]⟩ ⟨1, ![E]⟩ [] [0] [0] 1) (idx : IVec ⟨2, ![E, 1]⟩ w) (e : Fin E)
    (h0 : 0 < (⟨1, ![G]⟩ : Shape).rank) :
    (vecS G E wf).start (ix1 e) idx ⟨0, h0⟩ = (idx (ix2 e ⟨0, Nat.one_pos⟩)).toInt := by
  unfold ScatterDims.start
  rw [dif_pos (show (⟨0, h0⟩ : Fin (⟨1, ![G]⟩ : Shape).rank) ∈ (vecS G E wf).scatterDimsToOperandDims from
    List.mem_singleton.mpr rfl)]
  have hsi : (vecS G E wf).siIdx (ix1 e)
      ⟨List.idxOf (⟨0, h0⟩ : Fin (⟨1, ![G]⟩ : Shape).rank) (vecS G E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
/-- … and its window coordinate there is `0` (the axis is inserted). -/
theorem vecS_window {G E : Nat} (wf : ScatterDims.WF ⟨1, ![G]⟩ ⟨2, ![E, 1]⟩ ⟨1, ![E]⟩ [] [0] [0] 1) (e : Fin E) (h0 : 0 < (⟨1, ![G]⟩ : Shape).rank) :
    (vecS G E wf).window (ix1 e) ⟨0, h0⟩ = 0 := by
  unfold ScatterDims.window
  rw [dif_neg (show (⟨0, h0⟩ : Fin (⟨1, ![G]⟩ : Shape).rank) ∉ (vecS G E wf).sKept from
    fun h => (mem_kept _ _).mp h (List.mem_singleton.mpr rfl))]

/-- Update element `e` lands on group `g` exactly when the signed index of `e` is `g`. -/
theorem vecS_resultIdx {G E w : Nat} (wf : ScatterDims.WF ⟨1, ![G]⟩ ⟨2, ![E, 1]⟩ ⟨1, ![E]⟩ [] [0] [0] 1) (idx : IVec ⟨2, ![E, 1]⟩ w) (e : Fin E) (g : Fin G) :
    (vecS G E wf).resultIdx? (ix1 e) idx = some (ix1 g) ↔ (idx (ix2 e ⟨0, Nat.one_pos⟩)).toInt = (g.val : Int) := by
  rw [resultIdx?_eq_some_iff]
  constructor
  · intro h
    have a0 := h ⟨0, Nat.one_pos⟩
    rw [vecS_start, vecS_window] at a0
    have : ((ix1 g ⟨0, Nat.one_pos⟩ : Fin G).val : Int) = (g.val : Int) := rfl
    omega
  · intro hg a
    match a with
    | ⟨0, h0⟩ =>
      rw [vecS_start, vecS_window, hg]
      show (g.val : Int) + ((0 : Nat) : Int) = (g.val : Int)
      omega

/-- The accumulating vector scatter at the ideal values, read at group `g`: the operand there plus the sum of the
    updates of the edges whose signed index is `g`. -/
theorem vecScatterAdd_apply {G E w : Nat} (wf : ScatterDims.WF ⟨1, ![G]⟩ ⟨2, ![E, 1]⟩ ⟨1, ![E]⟩ [] [0] [0] 1)
    (x : FVec Ideal ⟨1, ![G]⟩ .f32) (idx : IVec ⟨2, ![E, 1]⟩ w) (upd : FVec Ideal ⟨1, ![E]⟩ .f32) (g : Fin G) :
    Host.scatterAdd (vecS G E wf) x idx upd (ix1 g)
      = x (ix1 g) + ∑ e : Fin E, if (idx (ix2 e ⟨0, Nat.one_pos⟩)).toInt = (g.val : Int) then upd (ix1 e) else 0 := by
  show Ideal.hostScatterAdd (vecS G E wf) x idx upd (ix1 g) = _
  unfold Ideal.hostScatterAdd
  congr 1
  rw [Finset.sum_filter, sum_idx1]
  refine Finset.sum_congr rfl fun e _ => ?_
  simp only [vecS_resultIdx]

end Cert.LibRowOps

end
-- ==== Proof.PoolMath.lean ====
/-
  The kernel's result equals the reference's, as mathematics over the argument arrays.

  Both sides are, at graph `g` and feature column `c`, a quotient: the sum over the nodes assigned to `g` of the node's
  feature `c`, divided by the number of those nodes (one if there are none).  The kernel reaches the two sums through
  its accumulator over the 51200 padded rows, where a padded row carries the graph id −1 and so contributes to no
  graph; the reference reaches them through two accumulating scatters at the graph ids.  The file reads both sides at
  an index and identifies the sums.
-/
import proofs.«408176_j5325759447103_2_alg».proof.Proof.PoolAcc
import proofs.«408176_j5325759447103_2_alg».proof.Proof.LibRowOps
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

open scoped BigOperators

namespace Cert.Spec

open Idealize.ShloMosaic Idealize.ShloMosaic.ValueIdx Cert.LibRowOps

/-! ## Words and constants -/

/-- The f32 word `0x3F800000` is the number one. -/
theorem ofBits_one_f32 : Ideal.ofBits .f32 0x3F800000#32 = 1 := by
  simp [Ideal.ofBits, Ideal.ieee, -EReal.coe_mul]; norm_num

/-- The splat of the word of one reads one everywhere … -/
theorem bcast_one {t : Shape} (h : S_.BroadcastsInDim t ![]) (j : t.Idx) :
    broadcastInDim t ![] h (constant (F := Ideal) S_ .f32 0x3F800000#32) j = 1 := ofBits_one_f32
/-- … and the splat of the zero word reads zero. -/
theorem bcast_zero {t : Shape} (h : S_.BroadcastsInDim t ![]) (j : t.Idx) :
    broadcastInDim t ![] h (constant (F := Ideal) S_ .f32 0x00000000#32) j = 0 := Ideal.ofBits_zero_f32

/-- A 32-bit word is the word of a small natural exactly when its signed value is that natural. -/
theorem word_eq_iff (w : BitVec 32) (g : Nat) (hg : g < 64) : w = BitVec.ofNat 32 g ↔ w.toInt = (g : Int) := by
  rw [← BitVec.toNat_inj, BitVec.toNat_ofNat, BitVec.toInt_eq_toNat_cond]
  have := w.isLt
  split <;> omega

/-- A sum over `N = m + k` positions is the sum over the first `m` plus the sum over the last `k`. -/
theorem sum_fin_split {M : Type*} [AddCommMonoid M] (m k N : Nat) (hN : m + k = N) (f : Fin N → M) :
    ∑ n : Fin N, f n = ∑ i : Fin m, f ⟨i.val, by omega⟩ + ∑ i : Fin k, f ⟨m + i.val, by omega⟩ := by
  subst hN
  rw [Fin.sum_univ_add]
  rfl

/-! ## The padded arrays -/

/-- The padded graph-id row is the graph ids on the first 50000 positions … -/
theorem bPad_inside (b : IVec S50000 32) (i : Fin 50000) :
    bPad b (ix2 ⟨0, Nat.one_pos⟩ (⟨i.val, by omega⟩ : Fin 51200)) = b (ix1 i) := by
  unfold bPad
  rw [shapeCast_a_1a_apply]
  exact pad_apply_of_inside _ _ _ _ _ _ _ _ (ix1 i) (fun a => by
    match a with
    | ⟨0, _⟩ => show i.val = 0 + i.val * (0 + 1); omega)

/-- … and the word of −1 on the last 1200. -/
theorem bPad_outside (b : IVec S50000 32) (i : Fin 1200) :
    bPad b (ix2 ⟨0, Nat.one_pos⟩ (⟨50000 + i.val, by omega⟩ : Fin 51200)) = 4294967295#32 := by
  unfold bPad
  rw [shapeCast_a_1a_apply, pad_apply_of_not_inside _ _ _ _ _ _ _ _ ⟨0, Nat.one_pos⟩ (fun h => by
    have h3 : (50000 + i.val - 0) / (0 + 1) < 50000 := h.2.2
    omega)]
  rfl

/-- The padded slab is the slab on the first 50000 rows. -/
theorem slabPad_inside {F : FTy → Type} [FloatOps F] (a1 : IVec S2x800000 32) (a2 : FVec F S800000 .f32)
    (x : FVec F S50000x32 .f32) (i : Fin 50000) (k : Fin 320) :
    slabPad a1 a2 x (ix2 (⟨i.val, by omega⟩ : Fin 51200) k) = slab a1 a2 x (ix2 i k) := by
  unfold slabPad
  exact pad_apply_of_inside _ _ _ _ _ _ _ _ (ix2 i k) (fun a => by
    match a with
    | ⟨0, _⟩ => show i.val = 0 + i.val * (0 + 1); omega
    | ⟨1, _⟩ => show k.val = 0 + k.val * (0 + 1); omega)

/-! ## The sum of the padded rows' contributions -/

/-- The padded rows' contributions to graph `g` in column `col` add up to the sum, over the nodes whose graph id is
    `g`, of the node's feature in that column (of one, in the count column). -/
theorem sum_contrib (x : FVec Ideal S50000x32 .f32) (a1 : IVec S2x800000 32) (a2 : FVec Ideal S800000 .f32)
    (b : IVec S50000 32) (g : Fin 64) (col : Fin 321) :
    ∑ n : Fin 51200, contrib (slabPad a1 a2 x) (bPad b) g col n
      = ∑ n : Fin 50000, if (b (ix1 n)).toInt = (g.val : Int)
          then (if h : col.val < 320 then feats a1 a2 x (ix2 n ⟨col.val, h⟩) else 1) else 0 := by
  rw [sum_fin_split 50000 1200 51200 rfl]
  have htail : ∑ i : Fin 1200, contrib (slabPad a1 a2 x) (bPad b) g col ⟨50000 + i.val, by omega⟩ = 0 := by
    refine Finset.sum_eq_zero fun i _ => ?_
    unfold contrib
    rw [bPad_outside, if_neg, zero_mul]
    intro h
    have h2 : (4294967295#32 : BitVec 32).toNat = (BitVec.ofNat 32 g.val).toNat := congrArg BitVec.toNat h
    simp only [BitVec.toNat_ofNat] at h2
    have := g.isLt
    omega
  rw [htail, add_zero]
  refine Finset.sum_congr rfl fun i _ => ?_
  unfold contrib
  rw [bPad_inside]
  by_cases hw : (b (ix1 i)).toInt = (g.val : Int)
  · rw [if_pos hw, if_pos ((word_eq_iff _ _ g.isLt).mpr hw), one_mul]
    by_cases hcol : col.val < 320
    · rw [dif_pos hcol, dif_pos hcol, feats_apply]
      congr 1
      funext k
      exact slabPad_inside a1 a2 x i k
    · rw [dif_neg hcol, dif_neg hcol]
  · rw [if_neg hw, if_neg (fun h => hw ((word_eq_iff _ _ g.isLt).mp h)), zero_mul]

/-! ## Both sides read at an index -/

/-- The host lines after the launch, read at `(g, c)`: the cores' sum in column `c` divided by the larger of the
    cores' sum in the count column and one. -/
theorem tailK_apply (o : FVec Ideal S2x64x321 .f32) (g : Fin 64) (c : Fin 320) :
    tailK o (ix2 g c) = Ideal.div (coreSum o (ix2 g (⟨c.val, by omega⟩ : Fin 321)))
      (max (coreSum o (ix2 g (⟨320, by omega⟩ : Fin 321))) 1) := by
  unfold tailK Host.divf
  show Ideal.div _ _ = _
  congr 1
  · exact extractStridedSlice_apply _ _ _ _ _ (fun a => by
      match a with
      | ⟨0, _⟩ => show g.val = 0 + g.val; omega
      | ⟨1, _⟩ => show c.val = 0 + c.val; omega)
  · rw [broadcastInDim_apply _ _ _ _ (ix2 g (⟨0, Nat.one_pos⟩ : Fin 1)) (fun a => by
      match a with
      | ⟨0, _⟩ => rfl
      | ⟨1, _⟩ => rfl), maximumf_apply]
    congr 1
    · exact extractStridedSlice_apply _ _ _ _ _ (fun a => by
        match a with
        | ⟨0, _⟩ => show g.val = 0 + g.val; omega
        | ⟨1, _⟩ => show 320 = 320 + 0; omega)
    · exact bcast_one _ _

/-- The reference's mean read at `(g, c)`: the sum of the features `c` of the nodes whose graph id is `g`, divided by
    the larger of their number and one. -/
theorem pooled_apply (b : IVec S50000 32) (fe : FVec Ideal S50000x320 .f32) (g : Fin 64) (c : Fin 320) :
    pooled b fe (ix2 g c)
      = Ideal.div (∑ n : Fin 50000, if (b (ix1 n)).toInt = (g.val : Int) then fe (ix2 n c) else 0)
          (max (∑ n : Fin 50000, if (b (ix1 n)).toInt = (g.val : Int) then (1 : EReal) else 0) 1) := by
  have hidx : ∀ n : Fin 50000,
      broadcastInDim S50000x1 ![0] (by decide) b (ix2 n (⟨0, Nat.one_pos⟩ : Fin 1)) = b (ix1 n) :=
    fun n => broadcastInDim_apply _ _ _ _ (ix1 n) (fun a => by match a with | ⟨0, _⟩ => rfl)
  have hnum : Host.scatterAdd scSum (broadcastInDim S64x320 ![] (by decide) (constant S_ .f32 0x00000000#32))
      (broadcastInDim S50000x1 ![0] (by decide) b) fe (ix2 g c)
      = ∑ n : Fin 50000, if (b (ix1 n)).toInt = (g.val : Int) then fe (ix2 n c) else 0 := by
    rw [show scSum = rowS 64 50000 320 (by decide) from rfl, rowScatterAdd_apply, bcast_zero, zero_add]
    refine Finset.sum_congr rfl fun n _ => ?_
    rw [hidx]
  have hcnt : Host.scatterAdd (F := Ideal) scCnt (broadcastInDim S64 ![] (by decide) (constant S_ .f32 0x00000000#32))
      (broadcastInDim S50000x1 ![0] (by decide) b)
      (broadcastInDim S50000 ![] (by decide) (constant S_ .f32 0x3F800000#32)) (ix1 g)
      = ∑ n : Fin 50000, if (b (ix1 n)).toInt = (g.val : Int) then (1 : EReal) else 0 := by
    rw [show scCnt = vecS 64 50000 (by decide) from rfl, vecScatterAdd_apply, bcast_zero, zero_add]
    refine Finset.sum_congr rfl fun n _ => ?_
    rw [hidx, bcast_one]
  unfold pooled Host.divf
  show Ideal.div _ _ = _
  rw [hnum, broadcastInDim_apply _ _ _ _ (ix2 g (⟨0, Nat.one_pos⟩ : Fin 1)) (fun a => by
      match a with
      | ⟨0, _⟩ => rfl
      | ⟨1, _⟩ => rfl), broadcastInDim_apply _ _ _ _ (ix1 g) (fun a => by match a with | ⟨0, _⟩ => rfl),
    maximumf_apply, hcnt, bcast_one]

/-- THE KERNEL'S RESULT IS THE REFERENCE'S: per graph and feature column, the same sum divided by the same count. -/
theorem kernelResult_eq (x : FVec Ideal S50000x32 .f32) (a1 : IVec S2x800000 32) (a2 : FVec Ideal S800000 .f32)
    (b : IVec S50000 32) : kernelResult (F := Ideal) x a1 a2 b = result x a1 a2 b := by
  funext j
  obtain ⟨g, c, rfl⟩ : ∃ g c, j = ix2 g c := ⟨j 0, j 1, eq_ix2 j⟩
  show tailK (out3 (slabPad a1 a2 x) (bPad b)) (ix2 g c) = pooled b (feats a1 a2 x) (ix2 g c)
  rw [tailK_apply, pooled_apply, total_apply, total_apply, sum_contrib, sum_contrib]
  have h1 : ¬ (⟨320, by omega⟩ : Fin 321).val < 320 := Nat.lt_irrefl 320
  have hc : (⟨c.val, by omega⟩ : Fin 321).val < 320 := c.isLt
  simp only [dif_neg h1, dif_pos hc]

end Cert.Spec

end
-- ==== Proof.SpecSlice.lean ====
/-
  The propagation step treats every feature column by itself.

  One propagation step is `P x [n, f] = ∑ over edges e with dst e = n of x[src e, f] · w e`: the column `f` of the result
  reads only the column `f` of the argument. So the 128-wide step applied to four 32-wide arrays laid side by side is the
  four 32-wide steps laid side by side, and the same holds of any number of steps: column block `q` of
  `(prop128 a1 a2)^[k] (d0 | d1 | d2 | d3)` is `(prop32 a1 a2)^[k] d_q`.

  `cat128` lays four 32-wide arrays side by side, `colBlock q` cuts columns `32 q … 32 q + 31` out of a 128-wide array;
  a unit-stride slice of that extent at column offset `32 q` is `colBlock q` (`extract_eq_colBlock`), the block of a
  concatenation is the piece (`colBlock_cat128`), and the block of a step is the step of the block
  (`colBlock_prop128`, `colBlock_iterate`).
-/
import proofs.«408176_j5325759447103_2_alg».proof.Proof.Spec
import proofs.«408176_j5325759447103_2_alg».proof.Proof.LibRowOps
import Idealize.ShloMosaic.Lib.ValueIdx
import Idealize.ShloMosaic.Lib.Pipeline.Value
import Idealize.ShloMosaic.PureOps.Ideal.Laws

noncomputable section

open scoped BigOperators

namespace Cert.Spec

open Idealize.ShloMosaic Idealize.ShloMosaic.ValueIdx

variable {F : FTy → Type} [FloatOps F]

/-- Four 32-wide arrays side by side make a 128-wide one. -/
theorem cat4 : Shape.Concatenates [S50000x32, S50000x32, S50000x32, S50000x32] S50000x128 1 := by decide

/-- Four 32-wide arrays laid side by side. -/
def cat128 (d : Fin 4 → FVec F S50000x32 .f32) : FVec F S50000x128 .f32 :=
  concatenate S50000x128 1 [⟨S50000x32, d 0⟩, ⟨S50000x32, d 1⟩, ⟨S50000x32, d 2⟩, ⟨S50000x32, d 3⟩] cat4

/-- Column block `q` of a 128-wide array: its columns `32 q … 32 q + 31`. -/
def colBlock (q : Fin 4) (U : FVec F S50000x128 .f32) : FVec F S50000x32 .f32 :=
  fun i => U (ix2 (⟨(i 0).val, idx2_lt0 i⟩ : Fin 50000)
    (⟨32 * q.val + (i 1).val, by have := idx2_lt1 i; have := q.isLt; omega⟩ : Fin 128))

/-- A unit-stride 32-wide slice at column offset `32 q` is column block `q`. -/
theorem extract_eq_colBlock (q : Fin 4) (U : FVec F S50000x128 .f32) (h : S50000x128.Slices ![0, 32 * q.val] S50000x32) :
    extractStridedSlice S50000x32 ![0, 32 * q.val] U h = colBlock q U := by
  funext j
  refine extractStridedSlice_apply _ U h j _ fun a => ?_
  match a with
  | ⟨0, _⟩ => show (j 0).val = 0 + (j 0).val; omega
  | ⟨1, _⟩ => rfl

/-- The slice at column offset `0` is column block `0`. -/
theorem extract0_eq (U : FVec F S50000x128 .f32) (h : S50000x128.Slices ![0, 0] S50000x32) :
    extractStridedSlice S50000x32 ![0, 0] U h = colBlock 0 U :=
  extract_eq_colBlock 0 U h
/-- The slice at column offset `32` is column block `1`. -/
theorem extract32_eq (U : FVec F S50000x128 .f32) (h : S50000x128.Slices ![0, 32] S50000x32) :
    extractStridedSlice S50000x32 ![0, 32] U h = colBlock 1 U :=
  extract_eq_colBlock 1 U h
/-- The slice at column offset `64` is column block `2`. -/
theorem extract64_eq (U : FVec F S50000x128 .f32) (h : S50000x128.Slices ![0, 64] S50000x32) :
    extractStridedSlice S50000x32 ![0, 64] U h = colBlock 2 U :=
  extract_eq_colBlock 2 U h

/-- Column block `q` of four arrays laid side by side is the `q`-th of them: column `32 q + c` lies in the span of
    piece `q`, the pieces before it taking `32 q` columns, at its column `c`. -/
theorem colBlock_cat128 (q : Fin 4) (d : Fin 4 → FVec F S50000x32 .f32) : colBlock q (cat128 d) = d q := by
  funext i
  have hi : ∀ (c : Nat) (hc : c < 128) (b : Fin S50000x32.rank), b.cast rfl ≠ (1 : Fin S50000x128.rank) →
      (i b).val = ((ix2 (⟨(i 0).val, idx2_lt0 i⟩ : Fin 50000) (⟨c, hc⟩ : Fin 128)) (b.cast rfl)).val := fun c hc b hb => by
    match b with
    | ⟨0, _⟩ => rfl
    | ⟨1, _⟩ => exact absurd rfl hb
  match q with
  | ⟨0, _⟩ =>
    exact concatenate_apply_piece (1 : Fin S50000x128.rank)
      [⟨S50000x32, d 0⟩, ⟨S50000x32, d 1⟩, ⟨S50000x32, d 2⟩, ⟨S50000x32, d 3⟩] cat4 _ 0 (by simp) S50000x32 (d 0) rfl rfl
      0 rfl i (hi _ _) rfl
  | ⟨1, _⟩ =>
    exact concatenate_apply_piece (1 : Fin S50000x128.rank)
      [⟨S50000x32, d 0⟩, ⟨S50000x32, d 1⟩, ⟨S50000x32, d 2⟩, ⟨S50000x32, d 3⟩] cat4 _ 1 (by simp) S50000x32 (d 1) rfl rfl
      32 rfl i (hi _ _) rfl
  | ⟨2, _⟩ =>
    exact concatenate_apply_piece (1 : Fin S50000x128.rank)
      [⟨S50000x32, d 0⟩, ⟨S50000x32, d 1⟩, ⟨S50000x32, d 2⟩, ⟨S50000x32, d 3⟩] cat4 _ 2 (by simp) S50000x32 (d 2) rfl rfl
      64 rfl i (hi _ _) rfl
  | ⟨3, _⟩ =>
    exact concatenate_apply_piece (1 : Fin S50000x128.rank)
      [⟨S50000x32, d 0⟩, ⟨S50000x32, d 1⟩, ⟨S50000x32, d 2⟩, ⟨S50000x32, d 3⟩] cat4 _ 3 (by simp) S50000x32 (d 3) rfl rfl
      96 rfl i (hi _ _) rfl

/-- The edge weights broadcast along the columns read, at edge `e` and any column, the weight of `e`. -/
theorem weight_apply {W : Nat} (h₁ : S800000.BroadcastsInDim S800000x1 ![0])
    (h₂ : S800000x1.BroadcastsInDim ⟨2, ![800000, W]⟩ ![0, 1]) (a2 : FVec F S800000 .f32) (e : Fin 800000) (f : Fin W) :
    broadcastInDim ⟨2, ![800000, W]⟩ ![0, 1] h₂ (broadcastInDim S800000x1 ![0] h₁ a2) (ix2 e f) = a2 (ix1 e) := by
  refine (broadcastInDim_apply _ h₂ _ (ix2 e f) (ix2 e ⟨0, Nat.one_pos⟩) fun a => ?_).trans
    (broadcastInDim_apply _ h₁ a2 _ (ix1 e) fun a => ?_)
  · match a with
    | ⟨0, _⟩ => show e.val = if (800000 : Nat) = 1 then 0 else e.val; rw [if_neg (by decide)]
    | ⟨1, _⟩ => rfl
  · match a with
    | ⟨0, _⟩ => show e.val = if (800000 : Nat) = 1 then 0 else e.val; rw [if_neg (by decide)]

/-- One propagation step at any width `W`, read at node `n` and column `f`: the start value there plus, over the edges
    whose destination is `n`, the argument at the edge's (clamped) source row and the same column `f` times the edge's
    weight. Only column `f` of the argument is read. -/
theorem step_apply {W : Nat} (wfS : ScatterDims.WF ⟨2, ![50000, W]⟩ ⟨2, ![800000, 1]⟩ ⟨2, ![800000, W]⟩ [1] [0] [0] 1)
    (wfG : GatherDims.WF ⟨2, ![50000, W]⟩ ⟨2, ![800000, 1]⟩ ⟨2, ![800000, W]⟩ [1] [0] [] [0] [] 1 ![1, W])
    (h₁ : S800000.BroadcastsInDim S800000x1 ![0]) (h₂ : S800000x1.BroadcastsInDim ⟨2, ![800000, W]⟩ ![0, 1])
    (z : FVec Ideal ⟨2, ![50000, W]⟩ .f32) (dst src : IVec S800000x1 32) (a2 : FVec Ideal S800000 .f32)
    (x : FVec Ideal ⟨2, ![50000, W]⟩ .f32) (n : Fin 50000) (f : Fin W) :
    Host.scatterAdd (LibRowOps.rowS 50000 800000 W wfS) z dst
        (mulf (Host.gather (LibRowOps.rowG 50000 800000 W wfG) x src)
          (broadcastInDim ⟨2, ![800000, W]⟩ ![0, 1] h₂ (broadcastInDim S800000x1 ![0] h₁ a2))) (ix2 n f)
      = z (ix2 n f) + ∑ e : Fin 800000, if (dst (ix2 e ⟨0, Nat.one_pos⟩)).toInt = (n.val : Int)
          then x (ix2 ⟨min (src (ix2 e ⟨0, Nat.one_pos⟩)).toInt.toNat (50000 - 1), by omega⟩ f) * a2 (ix1 e) else 0 := by
  rw [LibRowOps.rowScatterAdd_apply]
  refine congrArg (z (ix2 n f) + ·) (Finset.sum_congr rfl fun e _ => ?_)
  rw [mulf_apply, LibRowOps.rowGather_apply (by decide), weight_apply]

/-- The 128-wide step read at an element. -/
theorem prop128_apply (a1 : IVec S2x800000 32) (a2 : FVec Ideal S800000 .f32) (x : FVec Ideal S50000x128 .f32)
    (n : Fin 50000) (f : Fin 128) :
    prop128 a1 a2 x (ix2 n f)
      = broadcastInDim S50000x128 ![] (by decide) (constant (F := Ideal) S_ .f32 0x00000000#32) (ix2 n f)
        + ∑ e : Fin 800000, if (dstIdx a1 (ix2 e ⟨0, Nat.one_pos⟩)).toInt = (n.val : Int)
          then x (ix2 ⟨min (srcIdx a1 (ix2 e ⟨0, Nat.one_pos⟩)).toInt.toNat (50000 - 1), by omega⟩ f) * a2 (ix1 e)
          else 0 :=
  step_apply (W := 128) sc128.wf g128.wf (by decide) (by decide) _ (dstIdx a1) (srcIdx a1) a2 x n f

/-- The 32-wide step read at an element. -/
theorem prop32_apply (a1 : IVec S2x800000 32) (a2 : FVec Ideal S800000 .f32) (x : FVec Ideal S50000x32 .f32)
    (n : Fin 50000) (f : Fin 32) :
    prop32 a1 a2 x (ix2 n f)
      = broadcastInDim S50000x32 ![] (by decide) (constant (F := Ideal) S_ .f32 0x00000000#32) (ix2 n f)
        + ∑ e : Fin 800000, if (dstIdx a1 (ix2 e ⟨0, Nat.one_pos⟩)).toInt = (n.val : Int)
          then x (ix2 ⟨min (srcIdx a1 (ix2 e ⟨0, Nat.one_pos⟩)).toInt.toNat (50000 - 1), by omega⟩ f) * a2 (ix1 e)
          else 0 :=
  step_apply (W := 32) sc32.wf g32.wf (by decide) (by decide) _ (dstIdx a1) (srcIdx a1) a2 x n f

/-- One propagation step commutes with taking a column block: column `32 q + c` of the 128-wide step reads column
    `32 q + c` of its argument, which is column `c` of the argument's block `q`. -/
theorem colBlock_prop128 (a1 : IVec S2x800000 32) (a2 : FVec Ideal S800000 .f32) (q : Fin 4)
    (U : FVec Ideal S50000x128 .f32) : colBlock q (prop128 a1 a2 U) = prop32 a1 a2 (colBlock q U) := by
  funext i
  obtain ⟨n, f, rfl⟩ : ∃ (n : Fin 50000) (f : Fin 32), i = ix2 n f := ⟨i 0, i 1, eq_ix2 i⟩
  have hf : 32 * q.val + f.val < 128 := by have := f.isLt; have := q.isLt; omega
  show prop128 a1 a2 U (ix2 n ⟨32 * q.val + f.val, hf⟩) = prop32 a1 a2 (colBlock q U) (ix2 n f)
  rw [prop128_apply, prop32_apply]
  exact congrArg₂ (· + ·) rfl (Finset.sum_congr rfl fun e _ => rfl)

/-- Any number of propagation steps commutes with taking a column block. -/
theorem colBlock_iterate (a1 : IVec S2x800000 32) (a2 : FVec Ideal S800000 .f32) (q : Fin 4) (k : Nat)
    (U : FVec Ideal S50000x128 .f32) :
    colBlock q ((prop128 a1 a2)^[k] U) = (prop32 a1 a2)^[k] (colBlock q U) := by
  induction k with
  | zero => rfl
  | succ k ih => rw [Function.iterate_succ_apply', Function.iterate_succ_apply', colBlock_prop128, ih]

end Cert.Spec

end
-- ==== Proof.RefValue.lean ====
/-
  The reference program's run ends at the specification's result.

  The reference computes the propagation snapshots of steps 1, 2, 4, 8 on the 32-wide input, lays the four side by side
  and runs steps 1, 2, 4, 8 again on the 128-wide array, cuts 32-wide column blocks out of those, forms nine absolute
  differences, concatenates them (nested) with the deepest snapshot into 320 feature columns and pools them per graph.
  Because one propagation step treats every column by itself, column block `q` of `k` steps on the 128-wide array is `k`
  steps on the `q`-th 32-wide piece, so every cut block is a snapshot `snap t` of the input; the nested concatenation
  is the flat one of the ten feature blocks; and the pooling is the specification's by unfolding.
-/
import proofs.«408176_j5325759447103_2_alg».proof.Proof.Gen.ReferenceIdeal.Run
import proofs.«408176_j5325759447103_2_alg».proof.Proof.SpecSlice
import proofs.«408176_j5325759447103_2_alg».proof.Proof.TileValue
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx
open Cert.Spec (edgeRow0 edgeRow1 prop32 prop128 snap cat128 colBlock featBlk feats pooled result)

variable {F : FTy → Type} [FloatOps F]

/-! ## The arguments' launch contents -/

/-- The node features. -/
abbrev aX (V0 : Valuation τ sig (Elt F)) : FVec F S50000x32 .f32 := V0 (Proc.devRef .tc main_arg0)
/-- The edge list. -/
abbrev aE (V0 : Valuation τ sig (Elt F)) : IVec S2x800000 32 := V0 (Proc.devRef .tc main_arg1)
/-- The edge weights. -/
abbrev aW (V0 : Valuation τ sig (Elt F)) : FVec F S800000 .f32 := V0 (Proc.devRef .tc main_arg2)
/-- The nodes' graph ids. -/
abbrev aB (V0 : Valuation τ sig (Elt F)) : IVec S50000 32 := V0 (Proc.devRef .tc main_arg3)

/-! ## One propagation step, in the program's spelling -/

/-- One 32-wide propagation step over given source and destination rows, as the program writes it. -/
def step32 (e0 e1 : IVec S800000 32) (w : FVec F S800000 .f32) (y : FVec F S50000x32 .f32) : FVec F S50000x32 .f32 :=
  Host.scatterAdd scatter_S50000x32_S800000x1_S800000x32_1_0_0_1 (broadcastInDim S50000x32 ![] bcast_S_S50000x32 (constant S_ .f32 0x00000000#32)) (broadcastInDim S800000x1 ![0] bcast_S800000_S800000x1_0 e1) (mulf (Host.gather gather_S50000x32_S800000x1_S800000x32_1_0_n_n_0_1_132 y (broadcastInDim S800000x1 ![0] bcast_S800000_S800000x1_0 (select (cmpi .slt e0 (broadcastInDim S800000 ![] bcast_S_S800000 (constantI S_ 32 0#32))) (addi e0 (broadcastInDim S800000 ![] bcast_S_S800000 (constantI S_ 32 50000#32))) e0))) (broadcastInDim S800000x32 ![0, 1] bcast_S800000x1_S800000x32_0_1 (broadcastInDim S800000x1 ![0] bcast_S800000_S800000x1_0 w)))

/-- One 128-wide propagation step over given source and destination rows, as the program writes it. -/
def step128 (e0 e1 : IVec S800000 32) (w : FVec F S800000 .f32) (y : FVec F S50000x128 .f32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 e1) (mulf (Host.gather gather_S50000x128_S800000x1_S800000x128_1_0_n_n_0_1_1128 y (broadcastInDim S800000x1 ![0] bcast_S800000_S800000x1_0 (select (cmpi .slt e0 (broadcastInDim S800000 ![] bcast_S_S800000 (constantI S_ 32 0#32))) (addi e0 (broadcastInDim S800000 ![] bcast_S_S800000 (constantI S_ 32 50000#32))) e0))) (broadcastInDim S800000x128 ![0, 1] bcast_S800000x1_S800000x128_0_1 (broadcastInDim S800000x1 ![0] bcast_S800000_S800000x1_0 w)))

/-- Over the edge list's two rows the program's 32-wide step is the specification's. -/
theorem step32_eq (a1 : IVec S2x800000 32) (a2 : FVec F S800000 .f32) (y : FVec F S50000x32 .f32) :
    step32 (edgeRow0 a1) (edgeRow1 a1) a2 y = prop32 a1 a2 y := rfl

/-- Over the edge list's two rows the program's 128-wide step is the specification's. -/
theorem step128_eq (a1 : IVec S2x800000 32) (a2 : FVec F S800000 .f32) (y : FVec F S50000x128 .f32) :
    step128 (edgeRow0 a1) (edgeRow1 a1) a2 y = prop128 a1 a2 y := rfl

/-- One more step on a snapshot is the next snapshot. -/
theorem prop32_snap (a1 : IVec S2x800000 32) (a2 : FVec F S800000 .f32) (x : FVec F S50000x32 .f32) (t : Nat) :
    prop32 a1 a2 (snap a1 a2 x t) = snap a1 a2 x (t + 1) :=
  (Function.iterate_succ_apply' (prop32 a1 a2) t x).symm

/-- `k` more steps on a snapshot. -/
theorem iterate_snap (a1 : IVec S2x800000 32) (a2 : FVec F S800000 .f32) (x : FVec F S50000x32 .f32) (k t : Nat) :
    (prop32 a1 a2)^[k] (snap a1 a2 x t) = snap a1 a2 x (k + t) :=
  (Function.iterate_add_apply (prop32 a1 a2) k t x).symm

/-! ## The program's named intermediate results -/

theorem v1_eq (V0 : Valuation τ sig (Elt F)) : res_main_v1 V0 = edgeRow0 (aE V0) := rfl
theorem v3_eq (V0 : Valuation τ sig (Elt F)) : res_main_v3 V0 = edgeRow1 (aE V0) := rfl

theorem v16_eq (V0 : Valuation τ sig (Elt F)) : res_main_v16 V0 = snap (aE V0) (aW V0) (aX V0) 1 := by
  show step32 (res_main_v1 V0) (res_main_v3 V0) (aW V0) (aX V0) = _
  rw [v1_eq, v3_eq, step32_eq]
  rfl

theorem v29_eq (V0 : Valuation τ sig (Elt F)) : res_main_v29 V0 = snap (aE V0) (aW V0) (aX V0) 2 := by
  show step32 (res_main_v1 V0) (res_main_v3 V0) (aW V0) (res_main_v16 V0) = _
  rw [v16_eq, v1_eq, v3_eq, step32_eq, prop32_snap]

theorem v55_eq (V0 : Valuation τ sig (Elt F)) : res_main_v55 V0 = snap (aE V0) (aW V0) (aX V0) 4 := by
  show step32 (res_main_v1 V0) (res_main_v3 V0) (aW V0) (step32 (res_main_v1 V0) (res_main_v3 V0) (aW V0) (res_main_v29 V0)) = _
  rw [v29_eq, v1_eq, v3_eq, step32_eq, step32_eq, prop32_snap, prop32_snap]

theorem v107_eq (V0 : Valuation τ sig (Elt F)) : res_main_v107 V0 = snap (aE V0) (aW V0) (aX V0) 8 := by
  show step32 (res_main_v1 V0) (res_main_v3 V0) (aW V0) (step32 (res_main_v1 V0) (res_main_v3 V0) (aW V0)
    (step32 (res_main_v1 V0) (res_main_v3 V0) (aW V0) (step32 (res_main_v1 V0) (res_main_v3 V0) (aW V0) (res_main_v55 V0)))) = _
  rw [v55_eq, v1_eq, v3_eq, step32_eq, step32_eq, step32_eq, step32_eq, prop32_snap, prop32_snap, prop32_snap, prop32_snap]

/-- The program's four-piece concatenation is `cat128` of the four pieces. -/
theorem cat128_vec (d0 d1 d2 d3 : FVec F S50000x32 .f32) :
    concatenate S50000x128 1 [⟨S50000x32, d0⟩, ⟨S50000x32, d1⟩, ⟨S50000x32, d2⟩, ⟨S50000x32, d3⟩]
      concatenates_S50000x32_S50000x32_S50000x32_S50000x32_S50000x128_d1 = cat128 ![d0, d1, d2, d3] := rfl

/-- The four 32-wide snapshots (steps 1, 2, 4, 8) the 128-wide propagation starts from. -/
abbrev snaps4 (V0 : Valuation τ sig (Elt F)) : Fin 4 → FVec F S50000x32 .f32 :=
  ![snap (aE V0) (aW V0) (aX V0) 1, snap (aE V0) (aW V0) (aX V0) 2, snap (aE V0) (aW V0) (aX V0) 4, snap (aE V0) (aW V0) (aX V0) 8]

/-- One more 128-wide step on `k` steps. -/
theorem prop128_iterate (a1 : IVec S2x800000 32) (a2 : FVec F S800000 .f32) (k : Nat) (U : FVec F S50000x128 .f32) :
    prop128 a1 a2 ((prop128 a1 a2)^[k] U) = (prop128 a1 a2)^[k + 1] U :=
  (Function.iterate_succ_apply' (prop128 a1 a2) k U).symm

theorem v128_eq (V0 : Valuation τ sig (Elt F)) :
    res_main_v128 V0 = (prop128 (aE V0) (aW V0))^[1] (cat128 (snaps4 V0)) := by
  show step128 (res_main_v1 V0) (res_main_v3 V0) (aW V0) (concatenate S50000x128 1 [⟨S50000x32, res_main_v16 V0⟩,
    ⟨S50000x32, res_main_v29 V0⟩, ⟨S50000x32, res_main_v55 V0⟩, ⟨S50000x32, res_main_v107 V0⟩]
    concatenates_S50000x32_S50000x32_S50000x32_S50000x32_S50000x128_d1) = _
  rw [v16_eq, v29_eq, v55_eq, v107_eq, v1_eq, v3_eq, step128_eq, cat128_vec]
  rfl

theorem v141_eq (V0 : Valuation τ sig (Elt F)) :
    res_main_v141 V0 = (prop128 (aE V0) (aW V0))^[2] (cat128 (snaps4 V0)) := by
  show step128 (res_main_v1 V0) (res_main_v3 V0) (aW V0) (res_main_v128 V0) = _
  rw [v128_eq, v1_eq, v3_eq, step128_eq, prop128_iterate]

theorem v167_eq (V0 : Valuation τ sig (Elt F)) :
    res_main_v167 V0 = (prop128 (aE V0) (aW V0))^[4] (cat128 (snaps4 V0)) := by
  show step128 (res_main_v1 V0) (res_main_v3 V0) (aW V0) (step128 (res_main_v1 V0) (res_main_v3 V0) (aW V0) (res_main_v141 V0)) = _
  rw [v141_eq, v1_eq, v3_eq, step128_eq, step128_eq, prop128_iterate, prop128_iterate]

theorem v219_eq (V0 : Valuation τ sig (Elt F)) :
    res_main_v219 V0 = (prop128 (aE V0) (aW V0))^[8] (cat128 (snaps4 V0)) := by
  show step128 (res_main_v1 V0) (res_main_v3 V0) (aW V0) (step128 (res_main_v1 V0) (res_main_v3 V0) (aW V0)
    (step128 (res_main_v1 V0) (res_main_v3 V0) (aW V0) (step128 (res_main_v1 V0) (res_main_v3 V0) (aW V0) (res_main_v167 V0)))) = _
  rw [v167_eq, v1_eq, v3_eq, step128_eq, step128_eq, step128_eq, step128_eq, prop128_iterate, prop128_iterate,
    prop128_iterate, prop128_iterate]

/-! ## The cut column blocks, at the ideal instance -/

/-- Column block `q` of `k` 128-wide steps on the four snapshots side by side is `k` 32-wide steps on the `q`-th. -/
theorem colBlock_steps (V0 : Valuation τ sig (Elt Ideal)) (q : Fin 4) (k : Nat) :
    colBlock q ((prop128 (aE V0) (aW V0))^[k] (cat128 (snaps4 V0))) = (prop32 (aE V0) (aW V0))^[k] (snaps4 V0 q) := by
  rw [Cert.Spec.colBlock_iterate, Cert.Spec.colBlock_cat128]

theorem sl0_128 (V0 : Valuation τ sig (Elt Ideal)) :
    extractStridedSlice S50000x32 ![0, 0] (res_main_v128 V0) slices_S50000x128_S50000x32_0_0 = snap (aE V0) (aW V0) (aX V0) 2 := by
  refine (Cert.Spec.extract0_eq (res_main_v128 V0) _).trans ?_
  rw [v128_eq, colBlock_steps]; exact iterate_snap (aE V0) (aW V0) (aX V0) 1 1
theorem sl0_141 (V0 : Valuation τ sig (Elt Ideal)) :
    extractStridedSlice S50000x32 ![0, 0] (res_main_v141 V0) slices_S50000x128_S50000x32_0_0 = snap (aE V0) (aW V0) (aX V0) 3 := by
  refine (Cert.Spec.extract0_eq (res_main_v141 V0) _).trans ?_
  rw [v141_eq, colBlock_steps]; exact iterate_snap (aE V0) (aW V0) (aX V0) 2 1
theorem sl0_167 (V0 : Valuation τ sig (Elt Ideal)) :
    extractStridedSlice S50000x32 ![0, 0] (res_main_v167 V0) slices_S50000x128_S50000x32_0_0 = snap (aE V0) (aW V0) (aX V0) 5 := by
  refine (Cert.Spec.extract0_eq (res_main_v167 V0) _).trans ?_
  rw [v167_eq, colBlock_steps]; exact iterate_snap (aE V0) (aW V0) (aX V0) 4 1
theorem sl0_219 (V0 : Valuation τ sig (Elt Ideal)) :
    extractStridedSlice S50000x32 ![0, 0] (res_main_v219 V0) slices_S50000x128_S50000x32_0_0 = snap (aE V0) (aW V0) (aX V0) 9 := by
  refine (Cert.Spec.extract0_eq (res_main_v219 V0) _).trans ?_
  rw [v219_eq, colBlock_steps]; exact iterate_snap (aE V0) (aW V0) (aX V0) 8 1
theorem sl32_141 (V0 : Valuation τ sig (Elt Ideal)) :
    extractStridedSlice S50000x32 ![0, 32] (res_main_v141 V0) slices_S50000x128_S50000x32_0_32 = snap (aE V0) (aW V0) (aX V0) 4 := by
  refine (Cert.Spec.extract32_eq (res_main_v141 V0) _).trans ?_
  rw [v141_eq, colBlock_steps]; exact iterate_snap (aE V0) (aW V0) (aX V0) 2 2
theorem sl32_167 (V0 : Valuation τ sig (Elt Ideal)) :
    extractStridedSlice S50000x32 ![0, 32] (res_main_v167 V0) slices_S50000x128_S50000x32_0_32 = snap (aE V0) (aW V0) (aX V0) 6 := by
  refine (Cert.Spec.extract32_eq (res_main_v167 V0) _).trans ?_
  rw [v167_eq, colBlock_steps]; exact iterate_snap (aE V0) (aW V0) (aX V0) 4 2
theorem sl32_219 (V0 : Valuation τ sig (Elt Ideal)) :
    extractStridedSlice S50000x32 ![0, 32] (res_main_v219 V0) slices_S50000x128_S50000x32_0_32 = snap (aE V0) (aW V0) (aX V0) 10 := by
  refine (Cert.Spec.extract32_eq (res_main_v219 V0) _).trans ?_
  rw [v219_eq, colBlock_steps]; exact iterate_snap (aE V0) (aW V0) (aX V0) 8 2
theorem sl64_167 (V0 : Valuation τ sig (Elt Ideal)) :
    extractStridedSlice S50000x32 ![0, 64] (res_main_v167 V0) slices_S50000x128_S50000x32_0_64 = snap (aE V0) (aW V0) (aX V0) 8 := by
  refine (Cert.Spec.extract64_eq (res_main_v167 V0) _).trans ?_
  rw [v167_eq, colBlock_steps]; exact iterate_snap (aE V0) (aW V0) (aX V0) 4 4
theorem sl64_219 (V0 : Valuation τ sig (Elt Ideal)) :
    extractStridedSlice S50000x32 ![0, 64] (res_main_v219 V0) slices_S50000x128_S50000x32_0_64 = snap (aE V0) (aW V0) (aX V0) 12 := by
  refine (Cert.Spec.extract64_eq (res_main_v219 V0) _).trans ?_
  rw [v219_eq, colBlock_steps]; exact iterate_snap (aE V0) (aW V0) (aX V0) 8 4

/-! ## The feature columns -/

/-- A concatenation of rank-2 arrays along the columns, read at row `n` and column `col`: piece `k`, of width `w`, whose
    span starts at column `pre`, read at row `n` and its own column `f = col - pre`. -/
theorem cat_cols_apply {α : Type} {R W : Nat} (xs : List ((s : Shape) × (s.Idx → α)))
    (h : Shape.Concatenates (xs.map (·.1)) ⟨2, ![R, W]⟩ 1) (k : Nat) (hk : k < xs.length) (w : Nat)
    (x₁ : (⟨2, ![R, w]⟩ : Shape).Idx → α) (hxk : xs[k] = ⟨⟨2, ![R, w]⟩, x₁⟩) (pre : Nat)
    (hpre : (((xs.take k).map (·.1)).map fun s => if h : s.rank = (⟨2, ![R, W]⟩ : Shape).rank then
      s.size ((1 : Fin (⟨2, ![R, W]⟩ : Shape).rank).cast h.symm) else 0).sum = pre)
    (n : Fin R) (col : Fin W) (f : Fin w) (hc : pre + f.val = col.val) :
    concatenate ⟨2, ![R, W]⟩ 1 xs h (ix2 n col) = x₁ (ix2 n f) :=
  concatenate_apply_piece 1 xs h (ix2 n col) k hk _ x₁ hxk rfl pre hpre (ix2 n f)
    (fun b hb => match b, hb with
      | ⟨0, _⟩, _ => rfl
      | ⟨1, _⟩, hb => absurd rfl hb) hc

/-- Ten 32-wide pieces side by side, read at column `32 q + f`: piece `q` at column `f`. -/
theorem flat10_apply (p : Fin 10 → FVec F S50000x32 .f32) (n : Fin 50000) (q : Fin 10) (f : Fin 32) (col : Fin 320)
    (hc : 32 * q.val + f.val = col.val) :
    concatenate S50000x320 1 [⟨S50000x32, p 0⟩, ⟨S50000x32, p 1⟩, ⟨S50000x32, p 2⟩, ⟨S50000x32, p 3⟩, ⟨S50000x32, p 4⟩, ⟨S50000x32, p 5⟩, ⟨S50000x32, p 6⟩, ⟨S50000x32, p 7⟩, ⟨S50000x32, p 8⟩, ⟨S50000x32, p 9⟩] Cert.Spec.cat10 (ix2 n col) = p q (ix2 n f) := by
  fin_cases q
  · exact cat_cols_apply _ _ 0 (by simp) 32 (p 0) rfl 0 rfl n col f hc
  · exact cat_cols_apply _ _ 1 (by simp) 32 (p 1) rfl 32 rfl n col f hc
  · exact cat_cols_apply _ _ 2 (by simp) 32 (p 2) rfl 64 rfl n col f hc
  · exact cat_cols_apply _ _ 3 (by simp) 32 (p 3) rfl 96 rfl n col f hc
  · exact cat_cols_apply _ _ 4 (by simp) 32 (p 4) rfl 128 rfl n col f hc
  · exact cat_cols_apply _ _ 5 (by simp) 32 (p 5) rfl 160 rfl n col f hc
  · exact cat_cols_apply _ _ 6 (by simp) 32 (p 6) rfl 192 rfl n col f hc
  · exact cat_cols_apply _ _ 7 (by simp) 32 (p 7) rfl 224 rfl n col f hc
  · exact cat_cols_apply _ _ 8 (by simp) 32 (p 8) rfl 256 rfl n col f hc
  · exact cat_cols_apply _ _ 9 (by simp) 32 (p 9) rfl 288 rfl n col f hc

/-- The same ten pieces in the program's nesting — the first, then three side by side, then six side by side — read at
    column `32 q + f`: again piece `q` at column `f`. -/
theorem nest10_apply (p : Fin 10 → FVec F S50000x32 .f32) (n : Fin 50000) (q : Fin 10) (f : Fin 32) (col : Fin 320)
    (hc : 32 * q.val + f.val = col.val) :
    concatenate S50000x320 1 [⟨S50000x32, p 0⟩,
      ⟨S50000x96, concatenate S50000x96 1 [⟨S50000x32, p 1⟩, ⟨S50000x32, p 2⟩, ⟨S50000x32, p 3⟩]
        concatenates_S50000x32_S50000x32_S50000x32_S50000x96_d1⟩,
      ⟨S50000x192, concatenate S50000x192 1 [⟨S50000x32, p 4⟩, ⟨S50000x32, p 5⟩, ⟨S50000x32, p 6⟩, ⟨S50000x32, p 7⟩,
        ⟨S50000x32, p 8⟩, ⟨S50000x32, p 9⟩] concatenates_S50000x32_S50000x32_S50000x32_S50000x32_S50000x32_S50000x32_S50000x192_d1⟩]
      concatenates_S50000x32_S50000x96_S50000x192_S50000x320_d1 (ix2 n col) = p q (ix2 n f) := by
  have hf := f.isLt
  fin_cases q
  · exact cat_cols_apply _ _ 0 (by simp) 32 (p 0) rfl 0 rfl n col f hc
  · exact (cat_cols_apply _ _ 1 (by simp) 96 _ rfl 32 rfl n col ⟨0 + f.val, by omega⟩ (by rw [← hc]; show 32 + (0 + f.val) = 32 + f.val; omega)).trans
      (cat_cols_apply _ _ 0 (by simp) 32 (p 1) rfl 0 rfl n _ f rfl)
  · exact (cat_cols_apply _ _ 1 (by simp) 96 _ rfl 32 rfl n col ⟨32 + f.val, by omega⟩ (by rw [← hc]; show 32 + (32 + f.val) = 64 + f.val; omega)).trans
      (cat_cols_apply _ _ 1 (by simp) 32 (p 2) rfl 32 rfl n _ f rfl)
  · exact (cat_cols_apply _ _ 1 (by simp) 96 _ rfl 32 rfl n col ⟨64 + f.val, by omega⟩ (by rw [← hc]; show 32 + (64 + f.val) = 96 + f.val; omega)).trans
      (cat_cols_apply _ _ 2 (by simp) 32 (p 3) rfl 64 rfl n _ f rfl)
  · exact (cat_cols_apply _ _ 2 (by simp) 192 _ rfl 128 rfl n col ⟨0 + f.val, by omega⟩ (by rw [← hc]; show 128 + (0 + f.val) = 128 + f.val; omega)).trans
      (cat_cols_apply _ _ 0 (by simp) 32 (p 4) rfl 0 rfl n _ f rfl)
  · exact (cat_cols_apply _ _ 2 (by simp) 192 _ rfl 128 rfl n col ⟨32 + f.val, by omega⟩ (by rw [← hc]; show 128 + (32 + f.val) = 160 + f.val; omega)).trans
      (cat_cols_apply _ _ 1 (by simp) 32 (p 5) rfl 32 rfl n _ f rfl)
  · exact (cat_cols_apply _ _ 2 (by simp) 192 _ rfl 128 rfl n col ⟨64 + f.val, by omega⟩ (by rw [← hc]; show 128 + (64 + f.val) = 192 + f.val; omega)).trans
      (cat_cols_apply _ _ 2 (by simp) 32 (p 6) rfl 64 rfl n _ f rfl)
  · exact (cat_cols_apply _ _ 2 (by simp) 192 _ rfl 128 rfl n col ⟨96 + f.val, by omega⟩ (by rw [← hc]; show 128 + (96 + f.val) = 224 + f.val; omega)).trans
      (cat_cols_apply _ _ 3 (by simp) 32 (p 7) rfl 96 rfl n _ f rfl)
  · exact (cat_cols_apply _ _ 2 (by simp) 192 _ rfl 128 rfl n col ⟨128 + f.val, by omega⟩ (by rw [← hc]; show 128 + (128 + f.val) = 256 + f.val; omega)).trans
      (cat_cols_apply _ _ 4 (by simp) 32 (p 8) rfl 128 rfl n _ f rfl)
  · exact (cat_cols_apply _ _ 2 (by simp) 192 _ rfl 128 rfl n col ⟨160 + f.val, by omega⟩ (by rw [← hc]; show 128 + (160 + f.val) = 288 + f.val; omega)).trans
      (cat_cols_apply _ _ 5 (by simp) 32 (p 9) rfl 160 rfl n _ f rfl)

/-- The program's nested concatenation of ten 32-wide pieces is the flat one. -/
theorem nest10_eq_flat10 (p : Fin 10 → FVec F S50000x32 .f32) :
    concatenate S50000x320 1 [⟨S50000x32, p 0⟩,
      ⟨S50000x96, concatenate S50000x96 1 [⟨S50000x32, p 1⟩, ⟨S50000x32, p 2⟩, ⟨S50000x32, p 3⟩]
        concatenates_S50000x32_S50000x32_S50000x32_S50000x96_d1⟩,
      ⟨S50000x192, concatenate S50000x192 1 [⟨S50000x32, p 4⟩, ⟨S50000x32, p 5⟩, ⟨S50000x32, p 6⟩, ⟨S50000x32, p 7⟩,
        ⟨S50000x32, p 8⟩, ⟨S50000x32, p 9⟩] concatenates_S50000x32_S50000x32_S50000x32_S50000x32_S50000x32_S50000x32_S50000x192_d1⟩]
      concatenates_S50000x32_S50000x96_S50000x192_S50000x320_d1 =
    concatenate S50000x320 1 [⟨S50000x32, p 0⟩, ⟨S50000x32, p 1⟩, ⟨S50000x32, p 2⟩, ⟨S50000x32, p 3⟩, ⟨S50000x32, p 4⟩, ⟨S50000x32, p 5⟩, ⟨S50000x32, p 6⟩, ⟨S50000x32, p 7⟩, ⟨S50000x32, p 8⟩, ⟨S50000x32, p 9⟩] Cert.Spec.cat10 := by
  funext j
  obtain ⟨n, col, rfl⟩ : ∃ (n : Fin 50000) (col : Fin 320), j = ix2 n col := ⟨j 0, j 1, eq_ix2 j⟩
  have hcol := col.isLt
  have hc : 32 * (⟨col.val / 32, by omega⟩ : Fin 10).val + (⟨col.val % 32, Nat.mod_lt _ (by decide)⟩ : Fin 32).val = col.val :=
    Nat.div_add_mod col.val 32
  rw [nest10_apply p n _ _ col hc, flat10_apply p n _ _ col hc]

/-- At the ideal instance the program's feature columns — the deepest snapshot, three absolute differences side by side,
    six more side by side — are the specification's ten feature blocks side by side. -/
theorem feats_eq (a1 : IVec S2x800000 32) (a2 : FVec Ideal S800000 .f32) (x : FVec Ideal S50000x32 .f32) :
    concatenate S50000x320 1 [⟨S50000x32, snap a1 a2 x 8⟩,
      ⟨S50000x96, concatenate S50000x96 1 [⟨S50000x32, Host.absf (subf (snap a1 a2 x 1) (snap a1 a2 x 2))⟩, ⟨S50000x32, Host.absf (subf (snap a1 a2 x 2) (snap a1 a2 x 4))⟩, ⟨S50000x32, Host.absf (subf (snap a1 a2 x 4) (snap a1 a2 x 8))⟩]
        concatenates_S50000x32_S50000x32_S50000x32_S50000x96_d1⟩,
      ⟨S50000x192, concatenate S50000x192 1 [⟨S50000x32, Host.absf (subf (snap a1 a2 x 3) (snap a1 a2 x 2))⟩, ⟨S50000x32, Host.absf (subf (snap a1 a2 x 5) (snap a1 a2 x 3))⟩, ⟨S50000x32, Host.absf (subf (snap a1 a2 x 9) (snap a1 a2 x 5))⟩, ⟨S50000x32, Host.absf (subf (snap a1 a2 x 6) (snap a1 a2 x 4))⟩,
        ⟨S50000x32, Host.absf (subf (snap a1 a2 x 10) (snap a1 a2 x 6))⟩, ⟨S50000x32, Host.absf (subf (snap a1 a2 x 12) (snap a1 a2 x 8))⟩] concatenates_S50000x32_S50000x32_S50000x32_S50000x32_S50000x32_S50000x32_S50000x192_d1⟩]
      concatenates_S50000x32_S50000x96_S50000x192_S50000x320_d1 = feats a1 a2 x :=
  nest10_eq_flat10 (featBlk a1 a2 x)

/-! ## The result -/

/-- The reference's result buffer, as a term of the arguments' launch contents, is the specification's result. -/
theorem ref_value (V0 : Valuation τ sig (Elt Ideal)) :
    Cert.ReferenceIdeal.Value.val6 V0 (Proc.devRef .tc main_v257) =
      Cert.Spec.result (V0 (Proc.devRef .tc main_arg0)) (V0 (Proc.devRef .tc main_arg1)) (V0 (Proc.devRef .tc main_arg2))
        (V0 (Proc.devRef .tc main_arg3)) := by
  refine (val6_main_v257 V0).trans ?_
  rw [sl0_128 V0, sl0_141 V0, sl0_167 V0, sl0_219 V0, sl32_141 V0, sl32_167 V0, sl32_219 V0, sl64_167 V0, sl64_219 V0,
    v16_eq V0, v29_eq V0, v55_eq V0, v107_eq V0, feats_eq (aE V0) (aW V0) (aX V0)]
  rfl

/-- On every device, from any memory with zero counters: every weakly fair execution of the reference terminates with
    its result buffer at the specification's result of the arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v257) =
          Cert.Spec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans ((val6_main_v257 (launchContents m c)).symm.trans (ref_value (launchContents m c))), (h c).2⟩)
    (Cert.ReferenceIdeal.Value.run (F := Ideal) m ρ)

end Cert.ReferenceIdeal.RefValue

end
-- ==== Proof.lean ====
/-
  The certificate of the graph-wavelet pooling kernel against its reference.

  Both programs diffuse the node features along the weighted edges — one propagation step is a row gather at the edges'
  sources, a product with the edge weight and an accumulating row scatter at the destinations — and pool absolute
  differences of diffusion snapshots per graph.  The reference diffuses the input eight steps, lays the snapshots at steps
  1, 2, 4, 8 side by side and diffuses that 128-wide array eight more steps; since a step treats every feature column by
  itself, column block j of the 128-wide array after k steps is the input after k + 2^j steps, so everything the
  reference needs is a snapshot of ONE 32-wide chain of twelve steps, which is what the kernel's program computes
  (`Cert.Spec.snap`, `Cert.Spec.colBlock_iterate`).  The kernel's launch sums, per graph, the feature rows of the nodes
  assigned to it as a one-hot matrix product accumulated over tiles of 1280 rows on two cores, an extra column of ones
  counting the rows; rows padded on (id −1) match no graph.  The host then adds the two cores and divides the sums by the
  counts (at least one) — the reference's two accumulating scatters and its division (`Cert.Spec.kernelResult_eq`).

  Frames: each program runs to its end without a fault and leaves its arguments as they were; for the two kernel
  programs this is the launch theorem for a pipeline with a carried scratch accumulator, the body's triple found case by
  case (first point of a core's row, inner point, last point); the reference's is its host run.  The idealization
  rewrote no operation, so `preserves` has nothing to state.
-/
import proofs.«408176_j5325759447103_2_alg».proof.Defs
import proofs.«408176_j5325759447103_2_alg».proof.Proof.Gen.Kernel
import proofs.«408176_j5325759447103_2_alg».proof.Proof.Gen.KernelIdeal
import proofs.«408176_j5325759447103_2_alg».proof.Proof.Gen.ReferenceIdeal
import proofs.«408176_j5325759447103_2_alg».proof.Proof.Gen.Pre_finite_inputs
import proofs.«408176_j5325759447103_2_alg».proof.Proof.Gen.ReferenceIdeal.Run
import proofs.«408176_j5325759447103_2_alg».proof.Proof.KFrame
import proofs.«408176_j5325759447103_2_alg».proof.Proof.KIFrame
import proofs.«408176_j5325759447103_2_alg».proof.Proof.KIValue
import proofs.«408176_j5325759447103_2_alg».proof.Proof.PoolMath
import proofs.«408176_j5325759447103_2_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the four arguments both idealized programs end at `Cert.Spec.result` of them: the kernel's
    program at `kernelResult` (its frame run read at the result buffer), which is `result` (`kernelResult_eq`), the
    reference's at `result` directly. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.kernel_run (F := Ideal) m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2]
  exact (Cert.Spec.kernelResult_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
